-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v113)) (v1 : (c : Dev Cert.KernelIdeal.nD) → Buf (Elt Ideal) ((c.tc : Thread Cert.KernelIdeal.nD Cert.KernelIdeal.τ).loc Cert.KernelIdeal.main_v114)) (v2 : (c : Dev Cert.KernelIdeal.nD) → Buf (Elt Ideal) ((c.tc : Thread Cert.KernelIdeal.nD Cert.KernelIdeal.τ).loc Cert.KernelIdeal.main_v112)) (v3 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_v114) = v1 c
          ∧ r.2.mem ((c.tc : Thread Cert.KernelIdeal.nD Cert.KernelIdeal.τ).loc Cert.KernelIdeal.main_v112) = v2 c
          ∧ r.2.mem ((c.tc : Thread Cert.KernelIdeal.nD Cert.KernelIdeal.τ).loc Cert.KernelIdeal.main_v105) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_v150) = v1 c
          ∧ r.2.mem ((c.tc : Thread Cert.ReferenceIdeal.nD Cert.ReferenceIdeal.τ).loc Cert.ReferenceIdeal.main_v149) = v2 c
          ∧ r.2.mem ((c.tc : Thread Cert.ReferenceIdeal.nD Cert.ReferenceIdeal.τ).loc Cert.ReferenceIdeal.main_v116) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x4x3 : Shape := ⟨3, ![10000, 4, 3]⟩
abbrev S10000x128 : Shape := ⟨2, ![10000, 128]⟩
abbrev S320000 : Shape := ⟨1, ![320000]⟩
abbrev S264x128 : Shape := ⟨2, ![264, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S128x4 : Shape := ⟨2, ![128, 4]⟩
abbrev S256x128 : Shape := ⟨2, ![256, 128]⟩
abbrev S_ : Shape := ⟨0, ![]⟩

class Facts : Prop where
  bcast_S_S10000x4x3 : S_.BroadcastsInDim S10000x4x3 (![] : Fin 0 → Fin S10000x4x3.rank)
  reducesTo_S10000x4x3_S_d0_1_2 : S10000x4x3.ReducesTo [0, 1, 2] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S264x128 : S_.BroadcastsInDim S264x128 (![] : Fin 0 → Fin S264x128.rank)
  reducesTo_S264x128_S_d0_1 : S264x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S128x4 : S_.BroadcastsInDim S128x4 (![] : Fin 0 → Fin S128x4.rank)
  reducesTo_S128x4_S_d0_1 : S128x4.ReducesTo [0, 1] S_
  bcast_S_S256x128 : S_.BroadcastsInDim S256x128 (![] : Fin 0 → Fin S256x128.rank)
  reducesTo_S256x128_S_d0_1 : S256x128.ReducesTo [0, 1] S_

variable [Facts]

def fn_part7 {F : FTy → Type} [FloatOps F] (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  main_v123

def fn_part6 {F : FTy → Type} [FloatOps F] (main_arg23 : FVec F S128x128 .f32) (main_arg24 : FVec F S128 .f32) (main_arg25 : FVec F S128x128 .f32) (main_arg26 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x128 .f32 := Host.absf main_arg23
  let main_cst_40 : FVec F S_ .f32 := constant S_ .f32 0x7F800000#32
  let main_v105 : FVec F S128x128 .f32 := broadcastInDim S128x128 ![] bcast_S_S128x128 main_cst_40
  let main_v106 : IVec S128x128 1 := cmpf .olt main_v104 main_v105
  let main_c_41 : IVec S_ 1 := constantI S_ 1 1#1
  let main_v107 : IVec S_ 1 := (fun x v => Host.reduce IntOp.andi x v reducesTo_S128x128_S_d0_1 h_S_) main_v106 main_c_41
  let main_v108 : IVec S_ 1 := andi main_v103 main_v107
  let main_v109 : FVec F S128 .f32 := Host.absf main_arg24
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128x128 .f32 := Host.absf main_arg25
  let main_cst_44 : FVec F S_ .f32 := constant S_ .f32 0x7F800000#32
  let main_v115 : FVec F S128x128 .f32 := broadcastInDim S128x128 ![] bcast_S_S128x128 main_cst_44
  let main_v116 : IVec S128x128 1 := cmpf .olt main_v114 main_v115
  let main_c_45 : IVec S_ 1 := constantI S_ 1 1#1
  let main_v117 : IVec S_ 1 := (fun x v => Host.reduce IntOp.andi x v reducesTo_S128x128_S_d0_1 h_S_) main_v116 main_c_45
  let main_v118 : IVec S_ 1 := andi main_v113 main_v117
  let main_v119 : FVec F S128 .f32 := Host.absf main_arg26
  fn_part7 (F := F) main_v118 main_v119

def fn_part5 {F : FTy → Type} [FloatOps F] (main_arg20 : FVec F S128x4 .f32) (main_arg21 : FVec F S256x128 .f32) (main_arg22 : FVec F S128 .f32) (main_arg23 : FVec F S128x128 .f32) (main_arg24 : FVec F S128 .f32) (main_arg25 : FVec F S128x128 .f32) (main_arg26 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x4 .f32 := Host.absf main_arg20
  let main_cst_34 : FVec F S_ .f32 := constant S_ .f32 0x7F800000#32
  let main_v90 : FVec F S128x4 .f32 := broadcastInDim S128x4 ![] bcast_S_S128x4 main_cst_34
  let main_v91 : IVec S128x4 1 := cmpf .olt main_v89 main_v90
  let main_c_35 : IVec S_ 1 := constantI S_ 1 1#1
  let main_v92 : IVec S_ 1 := (fun x v => Host.reduce IntOp.andi x v reducesTo_S128x4_S_d0_1 h_S_) main_v91 main_c_35
  let main_v93 : IVec S_ 1 := andi main_v88 main_v92
  let main_v94 : FVec F S256x128 .f32 := Host.absf main_arg21
  let main_cst_36 : FVec F S_ .f32 := constant S_ .f32 0x7F800000#32
  let main_v95 : FVec F S256x128 .f32 := broadcastInDim S256x128 ![] bcast_S_S256x128 main_cst_36
  let main_v96 : IVec S256x128 1 := cmpf .olt main_v94 main_v95
  let main_c_37 : IVec S_ 1 := constantI S_ 1 1#1
  let main_v97 : IVec S_ 1 := (fun x v => Host.reduce IntOp.andi x v reducesTo_S256x128_S_d0_1 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg23 main_arg24 main_arg25 main_arg26 main_v98 main_v101 main_c_39

def fn_part4 {F : FTy → Type} [FloatOps F] (main_arg16 : FVec F S128x128 .f32) (main_arg17 : FVec F S128 .f32) (main_arg18 : FVec F S128x128 .f32) (main_arg19 : FVec F S128 .f32) (main_arg20 : FVec F S128x4 .f32) (main_arg21 : FVec F S256x128 .f32) (main_arg22 : FVec F S128 .f32) (main_arg23 : FVec F S128x128 .f32) (main_arg24 : FVec F S128 .f32) (main_arg25 : FVec F S128x128 .f32) (main_arg26 : FVec F S128 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_arg24 main_arg25 main_arg26 main_v83 main_v84 main_cst_32

def fn_part3 {F : FTy → Type} [FloatOps F] (main_arg13 : FVec F S128x128 .f32) (main_arg14 : FVec F S128 .f32) (main_arg15 : FVec F S128x4 .f32) (main_arg16 : FVec F S128x128 .f32) (main_arg17 : FVec F S128 .f32) (main_arg18 : FVec F S128x128 .f32) (main_arg19 : FVec F S128 .f32) (main_arg20 : FVec F S128x4 .f32) (main_arg21 : FVec F S256x128 .f32) (main_arg22 : FVec F S128 .f32) (main_arg23 : FVec F S128x128 .f32) (main_arg24 : FVec F S128 .f32) (main_arg25 : FVec F S128x128 .f32) (main_arg26 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x4 .f32 := Host.absf main_arg15
  let main_cst_24 : FVec F S_ .f32 := constant S_ .f32 0x7F800000#32
  let main_v65 : FVec F S128x4 .f32 := broadcastInDim S128x4 ![] bcast_S_S128x4 main_cst_24
  let main_v66 : IVec S128x4 1 := cmpf .olt main_v64 main_v65
  let main_c_25 : IVec S_ 1 := constantI S_ 1 1#1
  let main_v67 : IVec S_ 1 := (fun x v => Host.reduce IntOp.andi x v reducesTo_S128x4_S_d0_1 h_S_) main_v66 main_c_25
  fn_part4 (F := F) main_arg16 main_arg17 main_arg18 main_arg19 main_arg20 main_arg21 main_arg22 main_arg23 main_arg24 main_arg25 main_arg26 main_v63 main_v67

def fn_part2 {F : FTy → Type} [FloatOps F] (main_arg9 : FVec F S128x1 .f32) (main_arg10 : FVec F S1 .f32) (main_arg11 : FVec F S128x128 .f32) (main_arg12 : FVec F S128 .f32) (main_arg13 : FVec F S128x128 .f32) (main_arg14 : FVec F S128 .f32) (main_arg15 : FVec F S128x4 .f32) (main_arg16 : FVec F S128x128 .f32) (main_arg17 : FVec F S128 .f32) (main_arg18 : FVec F S128x128 .f32) (main_arg19 : FVec F S128 .f32) (main_arg20 : FVec F S128x4 .f32) (main_arg21 : FVec F S256x128 .f32) (main_arg22 : FVec F S128 .f32) (main_arg23 : FVec F S128x128 .f32) (main_arg24 : FVec F S128 .f32) (main_arg25 : FVec F S128x128 .f32) (main_arg26 : FVec F S128 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg6 : FVec F S128 .f32) (main_arg7 : FVec F S128x128 .f32) (main_arg8 : FVec F S128 .f32) (main_arg9 : FVec F S128x1 .f32) (main_arg10 : FVec F S1 .f32) (main_arg11 : FVec F S128x128 .f32) (main_arg12 : FVec F S128 .f32) (main_arg13 : FVec F S128x128 .f32) (main_arg14 : FVec F S128 .f32) (main_arg15 : FVec F S128x4 .f32) (main_arg16 : FVec F S128x128 .f32) (main_arg17 : FVec F S128 .f32) (main_arg18 : FVec F S128x128 .f32) (main_arg19 : FVec F S128 .f32) (main_arg20 : FVec F S128x4 .f32) (main_arg21 : FVec F S256x128 .f32) (main_arg22 : FVec F S128 .f32) (main_arg23 : FVec F S128x128 .f32) (main_arg24 : FVec F S128 .f32) (main_arg25 : FVec F S128x128 .f32) (main_arg26 : FVec F S128 .f32) (main_v13 : IVec S_ 1) (main_v16 : IVec S264x128 1) : IVec S_ 1 :=
  let main_c_5 : IVec S_ 1 := constantI S_ 1 1#1
  let main_v17 : IVec S_ 1 := (fun x v => Host.reduce IntOp.andi x v reducesTo_S264x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S10000x4x3 .f32) (main_arg1 : FVec F S10000x4x3 .f32) (main_arg2 : FVec F S10000x128 .f32) (main_arg3 : IVec S320000 32) (main_arg4 : IVec S320000 32) (main_arg5 : FVec F S264x128 .f32) (main_arg6 : FVec F S128 .f32) (main_arg7 : FVec F S128x128 .f32) (main_arg8 : FVec F S128 .f32) (main_arg9 : FVec F S128x1 .f32) (main_arg10 : FVec F S1 .f32) (main_arg11 : FVec F S128x128 .f32) (main_arg12 : FVec F S128 .f32) (main_arg13 : FVec F S128x128 .f32) (main_arg14 : FVec F S128 .f32) (main_arg15 : FVec F S128x4 .f32) (main_arg16 : FVec F S128x128 .f32) (main_arg17 : FVec F S128 .f32) (main_arg18 : FVec F S128x128 .f32) (main_arg19 : FVec F S128 .f32) (main_arg20 : FVec F S128x4 .f32) (main_arg21 : FVec F S256x128 .f32) (main_arg22 : FVec F S128 .f32) (main_arg23 : FVec F S128x128 .f32) (main_arg24 : FVec F S128 .f32) (main_arg25 : FVec F S128x128 .f32) (main_arg26 : FVec F S128 .f32) : IVec S_ 1 :=
  let main_v0 : FVec F S10000x4x3 .f32 := Host.absf main_arg0
  let main_cst : FVec F S_ .f32 := constant S_ .f32 0x7F800000#32
  let main_v1 : FVec F S10000x4x3 .f32 := broadcastInDim S10000x4x3 ![] bcast_S_S10000x4x3 main_cst
  let main_v2 : IVec S10000x4x3 1 := cmpf .olt main_v0 main_v1
  let main_c : IVec S_ 1 := constantI S_ 1 1#1
  let main_v3 : IVec S_ 1 := (fun x v => Host.reduce IntOp.andi x v reducesTo_S10000x4x3_S_d0_1_2 h_S_) main_v2 main_c
  let main_v4 : FVec F S10000x4x3 .f32 := Host.absf main_arg1
  let main_cst_0 : FVec F S_ .f32 := constant S_ .f32 0x7F800000#32
  let main_v5 : FVec F S10000x4x3 .f32 := broadcastInDim S10000x4x3 ![] bcast_S_S10000x4x3 main_cst_0
  let main_v6 : IVec S10000x4x3 1 := cmpf .olt main_v4 main_v5
  let main_c_1 : IVec S_ 1 := constantI S_ 1 1#1
  let main_v7 : IVec S_ 1 := (fun x v => Host.reduce IntOp.andi x v reducesTo_S10000x4x3_S_d0_1_2 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  let main_v14 : FVec F S264x128 .f32 := Host.absf main_arg5
  let main_cst_4 : FVec F S_ .f32 := constant S_ .f32 0x7F800000#32
  let main_v15 : FVec F S264x128 .f32 := broadcastInDim S264x128 ![] bcast_S_S264x128 main_cst_4
  let main_v16 : IVec S264x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S10000x4x3 : Shape := ⟨3, ![10000, 4, 3]⟩
abbrev S10000x128 : Shape := ⟨2, ![10000, 128]⟩
abbrev S320000 : Shape := ⟨1, ![320000]⟩
abbrev S264x128 : Shape := ⟨2, ![264, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S128x4 : Shape := ⟨2, ![128, 4]⟩
abbrev S256x128 : Shape := ⟨2, ![256, 128]⟩
abbrev S_ : Shape := ⟨0, ![]⟩
abbrev S320000x1 : Shape := ⟨2, ![320000, 1]⟩
abbrev S320000x4x3 : Shape := ⟨3, ![320000, 4, 3]⟩
abbrev S320000x4 : Shape := ⟨2, ![320000, 4]⟩
abbrev S320000x4x1 : Shape := ⟨3, ![320000, 4, 1]⟩
abbrev S320000x128 : Shape := ⟨2, ![320000, 128]⟩
abbrev S320000x8 : Shape := ⟨2, ![320000, 8]⟩
abbrev S8x128 : Shape := ⟨2, ![8, 128]⟩
abbrev S4000x128 : Shape := ⟨2, ![4000, 128]⟩
abbrev S4000x8 : Shape := ⟨2, ![4000, 8]⟩
abbrev S1x128 : Shape := ⟨2, ![1, 128]⟩
abbrev S4000x1 : Shape := ⟨2, ![4000, 1]⟩
abbrev S1x1 : Shape := ⟨2, ![1, 1]⟩
abbrev S4000x4 : Shape := ⟨2, ![4000, 4]⟩
abbrev S2000x128 : Shape := ⟨2, ![2000, 128]⟩

abbrev nBuf : Space → Nat
  | .hbm => 167
  | .vmem => 41
  | .smem => 0
  | _ => 0

abbrev hbmTy0_0 (i : Nat) : BufTy := match i % 128 with
  | 0 => ⟨S10000x4x3, .f32⟩
  | 1 => ⟨S10000x4x3, .f32⟩
  | 2 => ⟨S10000x128, .f32⟩
  | 3 => ⟨S320000, .i32⟩
  | 4 => ⟨S320000, .i32⟩
  | 5 => ⟨S264x128, .f32⟩
  | 6 => ⟨S128, .f32⟩
  | 7 => ⟨S128x128, .f32⟩
  | 8 => ⟨S128, .f32⟩
  | 9 => ⟨S128x1, .f32⟩
  | 10 => ⟨S1, .f32⟩
  | 11 => ⟨S128x128, .f32⟩
  | 12 => ⟨S128, .f32⟩
  | 13 => ⟨S128x128, .f32⟩
  | 14 => ⟨S128, .f32⟩
  | 15 => ⟨S128x4, .f32⟩
  | 16 => ⟨S128x128, .f32⟩
  | 17 => ⟨S128, .f32⟩
  | 18 => ⟨S128x128, .f32⟩
  | 19 => ⟨S128, .f32⟩
  | 20 => ⟨S128x4, .f32⟩
  | 21 => ⟨S256x128, .f32⟩
  | 22 => ⟨S128, .f32⟩
  | 23 => ⟨S128x128, .f32⟩
  | 24 => ⟨S128, .f32⟩
  | 25 => ⟨S128x128, .f32⟩
  | 26 => ⟨S128, .f32⟩
  | 27 => ⟨S_, .i32⟩
  | 28 => ⟨S320000, .i32⟩
  | 29 => ⟨S320000, .i1⟩
  | 30 => ⟨S_, .i32⟩
  | 31 => ⟨S320000, .i32⟩
  | 32 => ⟨S320000, .i32⟩
  | 33 => ⟨S320000, .i32⟩
  | 34 => ⟨S320000x1, .i32⟩
  | 35 => ⟨S320000x4x3, .f32⟩
  | 36 => ⟨S_, .i32⟩
  | 37 => ⟨S320000, .i32⟩
  | 38 => ⟨S320000, .i1⟩
  | 39 => ⟨S_, .i32⟩
  | 40 => ⟨S320000, .i32⟩
  | 41 => ⟨S320000, .i32⟩
  | 42 => ⟨S320000, .i32⟩
  | 43 => ⟨S320000x1, .i32⟩
  | 44 => ⟨S320000x4x3, .f32⟩
  | 45 => ⟨S320000x4x3, .f32⟩
  | 46 => ⟨S320000x4x3, .f32⟩
  | 47 => ⟨S_, .f32⟩
  | 48 => ⟨S320000x4, .f32⟩
  | 49 => ⟨S_, .f32⟩
  | 50 => ⟨S320000x4, .f32⟩
  | 51 => ⟨S320000x4, .f32⟩
  | 52 => ⟨S320000x4, .f32⟩
  | 53 => ⟨S320000x4x1, .f32⟩
  | 54 => ⟨S_, .f32⟩
  | 55 => ⟨S320000x4x1, .f32⟩
  | 56 => ⟨S320000x4x1, .f32⟩
  | 57 => ⟨S320000x4x3, .f32⟩
  | 58 => ⟨S320000x4x3, .f32⟩
  | 59 => ⟨S_, .i32⟩
  | 60 => ⟨S320000, .i32⟩
  | 61 => ⟨S320000, .i1⟩
  | 62 => ⟨S_, .i32⟩
  | 63 => ⟨S320000, .i32⟩
  | 64 => ⟨S320000, .i32⟩
  | 65 => ⟨S320000, .i32⟩
  | 66 => ⟨S320000x1, .i32⟩
  | 67 => ⟨S320000x4x3, .f32⟩
  | 68 => ⟨S_, .i32⟩
  | 69 => ⟨S320000, .i32⟩
  | 70 => ⟨S320000, .i1⟩
  | 71 => ⟨S_, .i32⟩
  | 72 => ⟨S320000, .i32⟩
  | 73 => ⟨S320000, .i32⟩
  | 74 => ⟨S320000, .i32⟩
  | 75 => ⟨S320000x1, .i32⟩
  | 76 => ⟨S320000x4x3, .f32⟩
  | 77 => ⟨S320000x4x3, .f32⟩
  | 78 => ⟨S320000x4x3, .f32⟩
  | 79 => ⟨S_, .f32⟩
  | 80 => ⟨S320000x4, .f32⟩
  | 81 => ⟨S_, .f32⟩
  | 82 => ⟨S320000x4, .f32⟩
  | 83 => ⟨S320000x4, .f32⟩
  | 84 => ⟨S320000x4, .f32⟩
  | 85 => ⟨S320000x4x1, .f32⟩
  | 86 => ⟨S_, .f32⟩
  | 87 => ⟨S320000x4x1, .f32⟩
  | 88 => ⟨S320000x4x1, .f32⟩
  | 89 => ⟨S320000x4x3, .f32⟩
  | 90 => ⟨S320000x4x3, .f32⟩
  | 91 => ⟨S_, .i32⟩
  | 92 => ⟨S320000, .i32⟩
  | 93 => ⟨S320000, .i1⟩
  | 94 => ⟨S_, .i32⟩
  | 95 => ⟨S320000, .i32⟩
  | 96 => ⟨S320000, .i32⟩
  | 97 => ⟨S320000, .i32⟩
  | 98 => ⟨S320000x1, .i32⟩
  | 99 => ⟨S320000x128, .f32⟩
  | 100 => ⟨S_, .i32⟩
  | 101 => ⟨S320000, .i32⟩
  | 102 => ⟨S320000, .i1⟩
  | 103 => ⟨S_, .i32⟩
  | 104 => ⟨S320000, .i32⟩
  | 105 => ⟨S320000, .i32⟩
  | 106 => ⟨S320000, .i32⟩
  | 107 => ⟨S320000x1, .i32⟩
  | 108 => ⟨S320000x128, .f32⟩
  | 109 => ⟨S320000x4, .f32⟩
  | 110 => ⟨S320000x4, .f32⟩
  | 111 => ⟨S320000x8, .f32⟩
  | 112 => ⟨S128x128, .f32⟩
  | 113 => ⟨S128x128, .f32⟩
  | 114 => ⟨S8x128, .f32⟩
  | 115 => ⟨S128x128, .bf16⟩
  | 116 => ⟨S128x128, .bf16⟩
  | 117 => ⟨S8x128, .bf16⟩
  | 118 => ⟨S128x128, .bf16⟩
  | 119 => ⟨S128x1, .bf16⟩
  | 120 => ⟨S128x128, .bf16⟩
  | 121 => ⟨S128x128, .bf16⟩
  | 122 => ⟨S128x4, .bf16⟩
  | 123 => ⟨S128x128, .bf16⟩
  | 124 => ⟨S128x128, .bf16⟩
  | 125 => ⟨S128x4, .bf16⟩
  | 126 => ⟨S320000x128, .bf16⟩
  | 127 => ⟨S320000x8, .f32⟩
  | _ => ⟨S10000x4x3, .f32⟩

abbrev hbmTy0_1 (i : Nat) : BufTy := match i % 128 with
  | 0 => ⟨S320000x4, .f32⟩
  | 1 => ⟨S320000x4, .f32⟩
  | 2 => ⟨S320000x4x1, .f32⟩
  | 3 => ⟨S320000x4x3, .f32⟩
  | 4 => ⟨S320000x4x3, .f32⟩
  | 5 => ⟨S320000x4x1, .f32⟩
  | 6 => ⟨S320000x4x3, .f32⟩
  | 7 => ⟨S320000x4x3, .f32⟩
  | 8 => ⟨S320000x128, .f32⟩
  | 9 => ⟨S_, .f32⟩
  | 10 => ⟨S10000x128, .f32⟩
  | 11 => ⟨S320000x1, .i32⟩
  | 12 => ⟨S10000x128, .f32⟩
  | 13 => ⟨S_, .f32⟩
  | 14 => ⟨S10000x128, .f32⟩
  | 15 => ⟨S10000x128, .f32⟩
  | 16 => ⟨S_, .f32⟩
  | 17 => ⟨S10000x4x3, .f32⟩
  | 18 => ⟨S320000x1, .i32⟩
  | 19 => ⟨S10000x4x3, .f32⟩
  | 20 => ⟨S_, .f32⟩
  | 21 => ⟨S10000x4x3, .f32⟩
  | 22 => ⟨S10000x4x3, .f32⟩
  | 23 => ⟨S_, .f32⟩
  | 24 => ⟨S10000x4x3, .f32⟩
  | 25 => ⟨S320000x1, .i32⟩
  | 26 => ⟨S10000x4x3, .f32⟩
  | 27 => ⟨S_, .f32⟩
  | 28 => ⟨S10000x4x3, .f32⟩
  | 29 => ⟨S10000x4x3, .f32⟩
  | 30 => ⟨S128x128, .f32⟩
  | 31 => ⟨S128x128, .f32⟩
  | 32 => ⟨S128x128, .bf16⟩
  | 33 => ⟨S128x128, .bf16⟩
  | 34 => ⟨S128x128, .bf16⟩
  | 35 => ⟨S128x128, .bf16⟩
  | 36 => ⟨S10000x128, .f32⟩
  | 37 => ⟨S10000x4x3, .f32⟩
  | 38 => ⟨S10000x4x3, .f32⟩
  | _ => ⟨S10000x4x3, .f32⟩

abbrev hbmTy (i : Nat) : BufTy := match i / 128 with
  | 0 => hbmTy0_0 i
  | 1 => hbmTy0_1 i
  | _ => ⟨S10000x4x3, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x8, .f32⟩
  | .local _ .vmem, ⟨5, _⟩ => ⟨S4000x8, .f32⟩
  | .local _ .vmem, ⟨6, _⟩ => ⟨S128x128, .bf16⟩
  | .local _ .vmem, ⟨7, _⟩ => ⟨S128x128, .bf16⟩
  | .local _ .vmem, ⟨8, _⟩ => ⟨S8x128, .bf16⟩
  | .local _ .vmem, ⟨9, _⟩ => ⟨S128, .f32⟩
  | .local _ .vmem, ⟨10, _⟩ => ⟨S128x128, .bf16⟩
  | .local _ .vmem, ⟨11, _⟩ => ⟨S128, .f32⟩
  | .local _ .vmem, ⟨12, _⟩ => ⟨S128x1, .bf16⟩
  | .local _ .vmem, ⟨13, _⟩ => ⟨S1, .f32⟩
  | .local _ .vmem, ⟨14, _⟩ => ⟨S128x128, .bf16⟩
  | .local _ .vmem, ⟨15, _⟩ => ⟨S128, .f32⟩
  | .local _ .vmem, ⟨16, _⟩ => ⟨S128x128, .bf16⟩
  | .local _ .vmem, ⟨17, _⟩ => ⟨S128, .f32⟩
  | .local _ .vmem, ⟨18, _⟩ => ⟨S128x4, .bf16⟩
  | .local _ .vmem, ⟨19, _⟩ => ⟨S128x128, .bf16⟩
  | .local _ .vmem, ⟨20, _⟩ => ⟨S128, .f32⟩
  | .local _ .vmem, ⟨21, _⟩ => ⟨S128x128, .bf16⟩
  | .local _ .vmem, ⟨22, _⟩ => ⟨S128, .f32⟩
  | .local _ .vmem, ⟨23, _⟩ => ⟨S128x4, .bf16⟩
  | .local _ .vmem, ⟨24, _⟩ => ⟨S4000x128, .bf16⟩
  | .local _ .vmem, ⟨25, _⟩ => ⟨S4000x128, .bf16⟩
  | .local _ .vmem, ⟨26, _⟩ => ⟨S4000x8, .f32⟩
  | .local _ .vmem, ⟨27, _⟩ => ⟨S4000x8, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x128, .bf16⟩
  | .local _ .vmem, ⟨33, _⟩ => ⟨S128x128, .bf16⟩
  | .local _ .vmem, ⟨34, _⟩ => ⟨S128, .f32⟩
  | .local _ .vmem, ⟨35, _⟩ => ⟨S128x128, .bf16⟩
  | .local _ .vmem, ⟨36, _⟩ => ⟨S128, .f32⟩
  | .local _ .vmem, ⟨37, _⟩ => ⟨S128x128, .bf16⟩
  | .local _ .vmem, ⟨38, _⟩ => ⟨S128, .f32⟩
  | .local _ .vmem, ⟨39, _⟩ => ⟨S2000x128, .f32⟩
  | .local _ .vmem, ⟨40, _⟩ => ⟨S2000x128, .f32⟩
  | _, _ => ⟨S10000x4x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_c : Ref sig .tc := ⟨.hbm, 27, rfl⟩
abbrev main_v0 : Ref sig .tc := ⟨.hbm, 28, rfl⟩
abbrev main_v1 : Ref sig .tc := ⟨.hbm, 29, rfl⟩
abbrev main_c_0 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_c_1 : Ref sig .tc := ⟨.hbm, 36, rfl⟩
abbrev main_v7 : Ref sig .tc := ⟨.hbm, 37, rfl⟩
abbrev main_v8 : Ref sig .tc := ⟨.hbm, 38, rfl⟩
abbrev main_c_2 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_cst : Ref sig .tc := ⟨.hbm, 47, rfl⟩
abbrev main_v16 : Ref sig .tc := ⟨.hbm, 48, rfl⟩
abbrev main_cst_3 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_4 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_c_5 : Ref sig .tc := ⟨.hbm, 59, rfl⟩
abbrev main_v25 : Ref sig .tc := ⟨.hbm, 60, rfl⟩
abbrev main_v26 : Ref sig .tc := ⟨.hbm, 61, rfl⟩
abbrev main_c_6 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_c_7 : Ref sig .tc := ⟨.hbm, 68, rfl⟩
abbrev main_v32 : Ref sig .tc := ⟨.hbm, 69, rfl⟩
abbrev main_v33 : Ref sig .tc := ⟨.hbm, 70, rfl⟩
abbrev main_c_8 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_cst_9 : Ref sig .tc := ⟨.hbm, 79, rfl⟩
abbrev main_v41 : Ref sig .tc := ⟨.hbm, 80, rfl⟩
abbrev main_cst_10 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_11 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_c_12 : Ref sig .tc := ⟨.hbm, 91, rfl⟩
abbrev main_v50 : Ref sig .tc := ⟨.hbm, 92, rfl⟩
abbrev main_v51 : Ref sig .tc := ⟨.hbm, 93, rfl⟩
abbrev main_c_13 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_c_14 : Ref sig .tc := ⟨.hbm, 100, rfl⟩
abbrev main_v57 : Ref sig .tc := ⟨.hbm, 101, rfl⟩
abbrev main_v58 : Ref sig .tc := ⟨.hbm, 102, rfl⟩
abbrev main_c_15 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81_0 : Ref sig .tc := ⟨.hbm, 126, rfl⟩
abbrev main_v81_1 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_cst_16 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_cst_17 : Ref sig .tc := ⟨.hbm, 141, rfl⟩
abbrev main_v94 : Ref sig .tc := ⟨.hbm, 142, rfl⟩
abbrev main_v95 : Ref sig .tc := ⟨.hbm, 143, rfl⟩
abbrev main_cst_18 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_cst_19 : Ref sig .tc := ⟨.hbm, 148, rfl⟩
abbrev main_v99 : Ref sig .tc := ⟨.hbm, 149, rfl⟩
abbrev main_v100 : Ref sig .tc := ⟨.hbm, 150, rfl⟩
abbrev main_cst_20 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_cst_21 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg21_1 : Ref sig .tc := ⟨.vmem, 25, rfl⟩
abbrev cc0_stg22_0 : Ref sig .tc := ⟨.vmem, 26, rfl⟩
abbrev cc0_stg22_1 : Ref sig .tc := ⟨.vmem, 27, rfl⟩
abbrev cc1_stg0_0 : Ref sig .tc := ⟨.vmem, 28, rfl⟩
abbrev cc1_stg0_1 : Ref sig .tc := ⟨.vmem, 29, rfl⟩
abbrev cc1_stg1_0 : Ref sig .tc := ⟨.vmem, 30, rfl⟩
abbrev cc1_stg1_1 : Ref sig .tc := ⟨.vmem, 31, rfl⟩
abbrev cc1_stg2_0 : Ref sig .tc := ⟨.vmem, 32, rfl⟩
abbrev cc1_stg3_0 : Ref sig .tc := ⟨.vmem, 33, rfl⟩
abbrev cc1_stg4_0 : Ref sig .tc := ⟨.vmem, 34, rfl⟩
abbrev cc1_stg5_0 : Ref sig .tc := ⟨.vmem, 35, rfl⟩
abbrev cc1_stg6_0 : Ref sig .tc := ⟨.vmem, 36, rfl⟩
abbrev cc1_stg7_0 : Ref sig .tc := ⟨.vmem, 37, rfl⟩
abbrev cc1_stg8_0 : Ref sig .tc := ⟨.vmem, 38, rfl⟩
abbrev cc1_stg9_0 : Ref sig .tc := ⟨.vmem, 39, rfl⟩
abbrev cc1_stg9_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem21_1 : DmaSem sig := 25
abbrev cc0_sem22_0 : DmaSem sig := 26
abbrev cc0_sem22_1 : DmaSem sig := 27
abbrev cc1_sem0_0 : DmaSem sig := 28
abbrev cc1_sem0_1 : DmaSem sig := 29
abbrev cc1_sem1_0 : DmaSem sig := 30
abbrev cc1_sem1_1 : DmaSem sig := 31
abbrev cc1_sem2_0 : DmaSem sig := 32
abbrev cc1_sem3_0 : DmaSem sig := 33
abbrev cc1_sem4_0 : DmaSem sig := 34
abbrev cc1_sem5_0 : DmaSem sig := 35
abbrev cc1_sem6_0 : DmaSem sig := 36
abbrev cc1_sem7_0 : DmaSem sig := 37
abbrev cc1_sem8_0 : DmaSem sig := 38
abbrev cc1_sem9_0 : DmaSem sig := 39
abbrev cc1_sem9_1 : DmaSem sig := 40

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x4 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x4 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S4000x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S4000x8 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  reducesTo_S320000x4x3_S320000x4_d2 : S320000x4x3.ReducesTo [2] S320000x4
  h_S_ : 0 < S_.numel
  bcast_S_S320000x4 : S_.BroadcastsInDim S320000x4 (![] : Fin 0 → Fin S320000x4.rank)
  bcast_S320000x4_S320000x4x1_0_1 : S320000x4.BroadcastsInDim S320000x4x1 (![0, 1] : Fin 2 → Fin S320000x4x1.rank)
  bcast_S_S320000x4x1 : S_.BroadcastsInDim S320000x4x1 (![] : Fin 0 → Fin S320000x4x1.rank)
  bcast_S320000x4x1_S320000x4x3_0_1_2 : S320000x4x1.BroadcastsInDim S320000x4x3 (![0, 1, 2] : Fin 3 → Fin S320000x4x3.rank)
  concatenates_S320000x4_S320000x4_S320000x8_d1 : Shape.Concatenates [S320000x4, S320000x4] S320000x8 1
  slices_S264x128_S128x128_0_0 : S264x128.Slices ![0, 0] S128x128
  slices_S264x128_S128x128_128_0 : S264x128.Slices ![128, 0] S128x128
  slices_S264x128_S8x128_256_0 : S264x128.Slices ![256, 0] S8x128
  bitsLt_bf16_f32 : FTy.bits .bf16 < FTy.bits .f32
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x8_S4000x8_0_0 : ∀ a, (![0, 0] : Fin 2 → Nat) a + S4000x8.size a ≤ S4000x8.size a
  h_S4000x8 : 0 < S4000x8.numel
  shapeCasts_S4000x8_S4000x8 : S4000x8.ShapeCasts S4000x8
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  broadcasts_S4000x1_S4000x128 : S4000x1.Broadcasts S4000x128
  packedbf16_S4000x128_S4000x128_0_0 : (Rect.unit (s := S4000x128) ![0, 0] S4000x128.size inb_S4000x128_S4000x128_0_0).PackedRows (EltTy.packing .bf16)
  inb_S128x4_S128x4_0_0 : ∀ a, (![0, 0] : Fin 2 → Nat) a + S128x4.size a ≤ S128x4.size a
  h_S128x4 : 0 < S128x4.numel
  shapeCasts_S128x4_S128x4 : S128x4.ShapeCasts S128x4
  concatenates_S4000x4_S4000x4_S4000x8_d1 : Shape.Concatenates [S4000x4, S4000x4] S4000x8 1
  slices_S320000x8_S320000x4_0_0 : S320000x8.Slices ![0, 0] S320000x4
  slices_S320000x8_S320000x4_0_4 : S320000x8.Slices ![0, 4] S320000x4
  bcast_S_S10000x128 : S_.BroadcastsInDim S10000x128 (![] : Fin 0 → Fin S10000x128.rank)
  bcast_S_S10000x4x3 : S_.BroadcastsInDim S10000x4x3 (![] : Fin 0 → Fin S10000x4x3.rank)
  slices_S256x128_S128x128_0_0 : S256x128.Slices ![0, 0] S128x128
  slices_S256x128_S128x128_128_0 : S256x128.Slices ![128, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  gather_S10000x4x3_S320000x1_S320000x4x3_12_0_n_n_0_1_143_wf : GatherDims.WF S10000x4x3 S320000x1 S320000x4x3 [1, 2] [0] [] [0] [] 1 ![1, 4, 3]
  gather_S10000x128_S320000x1_S320000x128_1_0_n_n_0_1_1128_wf : GatherDims.WF S10000x128 S320000x1 S320000x128 [1] [0] [] [0] [] 1 ![1, 128]
  dot_S4000x128_S128x128_S4000x128_1_0_0_1_n_n_wf : DotDims.WF S4000x128 S128x128 S4000x128 [1] [0] [0] [1] [] []
  dot_S4000x8_S8x128_S4000x128_1_0_0_1_n_n_wf : DotDims.WF S4000x8 S8x128 S4000x128 [1] [0] [0] [1] [] []
  dot_S4000x128_S128x1_S4000x1_1_0_0_1_n_n_wf : DotDims.WF S4000x128 S128x1 S4000x1 [1] [0] [0] [1] [] []
  dot_S4000x128_S128x4_S4000x4_1_0_0_1_n_n_wf : DotDims.WF S4000x128 S128x4 S4000x4 [1] [0] [0] [1] [] []
  scatter_S10000x128_S320000x1_S320000x128_1_0_0_1_wf : ScatterDims.WF S10000x128 S320000x1 S320000x128 [1] [0] [0] 1
  scatter_S10000x4x3_S320000x1_S320000x4x3_12_0_0_1_wf : ScatterDims.WF S10000x4x3 S320000x1 S320000x4x3 [1, 2] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S320000x128.size a
  hwx0_0 : ∀ i : grid0.Coords, EltTy.bits .f32 = 32 ∨ (Rect.block (s := S320000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S320000x128.size a
  hwx0_1 : ∀ i : grid0.Coords, EltTy.bits .f32 = 32 ∨ (Rect.block (s := S320000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x8.size a ≤ S320000x8.size a
  hwx0_2 : ∀ i : grid0.Coords, EltTy.bits .f32 = 32 ∨ (Rect.block (s := S320000x8) S4000x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S8x128.size a
  hwx0_5 : ∀ i : grid0.Coords, EltTy.bits .bf16 = 32 ∨ (Rect.block (s := S8x128) S8x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x1.size a ≤ S128x1.size a
  hwx0_9 : ∀ i : grid0.Coords, EltTy.bits .bf16 = 32 ∨ (Rect.block (s := S128x1) S128x1.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .bf16 = 32 ∨ (Rect.block (s := S128x128) S128x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x128.size a ≤ S128x128.size a
  hwx0_13 : ∀ i : grid0.Coords, EltTy.bits .bf16 = 32 ∨ (Rect.block (s := S128x128) S128x128.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128.size a ≤ S128.size a
  hwx0_14 : ∀ i : grid0.Coords, EltTy.bits .f32 = 32 ∨ (Rect.block (s := S128) S128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x4.size a ≤ S128x4.size a
  hwx0_15 : ∀ i : grid0.Coords, EltTy.bits .bf16 = 32 ∨ (Rect.block (s := S128x4) S128x4.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128x128.size a ≤ S128x128.size a
  hwx0_16 : ∀ i : grid0.Coords, EltTy.bits .bf16 = 32 ∨ (Rect.block (s := S128x128) S128x128.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128.size a ≤ S128.size a
  hwx0_17 : ∀ i : grid0.Coords, EltTy.bits .f32 = 32 ∨ (Rect.block (s := S128) S128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S128x128.size a ≤ S128x128.size a
  hwx0_18 : ∀ i : grid0.Coords, EltTy.bits .bf16 = 32 ∨ (Rect.block (s := S128x128) S128x128.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S128.size a ≤ S128.size a
  hwx0_19 : ∀ i : grid0.Coords, EltTy.bits .f32 = 32 ∨ (Rect.block (s := S128) S128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S128x4.size a ≤ S128x4.size a
  hwx0_20 : ∀ i : grid0.Coords, EltTy.bits .bf16 = 32 ∨ (Rect.block (s := S128x4) S128x4.size (cc0_transform_20 i) (hinb0_20 i)).WholeWords (EltTy.packing .bf16)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S4000x128.size a ≤ S320000x128.size a
  hwx0_21 : ∀ i : grid0.Coords, EltTy.bits .bf16 = 32 ∨ (Rect.block (s := S320000x128) S4000x128.size (cc0_transform_21 i) (hinb0_21 i)).WholeWords (EltTy.packing .bf16)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S4000x8.size a ≤ S320000x8.size a
  hwx0_22 : ∀ i : grid0.Coords, EltTy.bits .f32 = 32 ∨ (Rect.block (s := S320000x8) S4000x8.size (cc0_transform_22 i) (hinb0_22 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S10000x128.size a
  hwx1_0 : ∀ i : grid1.Coords, EltTy.bits .f32 = 32 ∨ (Rect.block (s := S10000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S10000x128.size a
  hwx1_1 : ∀ i : grid1.Coords, EltTy.bits .f32 = 32 ∨ (Rect.block (s := S10000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .bf16 = 32 ∨ (Rect.block (s := S128x128) S128x128.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S10000x128.size a
  hwx1_9 : ∀ i : grid1.Coords, EltTy.bits .f32 = 32 ∨ (Rect.block (s := S10000x128) S2000x128.size (cc1_transform_9 i) (hinb1_9 i)).WholeWords (EltTy.packing .f32)

variable [Facts₀]

def gather_S10000x4x3_S320000x1_S320000x4x3_12_0_n_n_0_1_143 : GatherDims S10000x4x3 S320000x1 S320000x4x3 where
  offsetDims := [1, 2]
  collapsedSliceDims := [0]
  operandBatchingDims := []
  startIndicesBatchingDims := []
  startIndexMap := [0]
  indexVectorDim := 1
  sliceSizes := ![1, 4, 3]
  wf := gather_S10000x4x3_S320000x1_S320000x4x3_12_0_n_n_0_1_143_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x8_S8x128_S4000x128_1_0_0_1_n_n : DotDims S4000x8 S8x128 S4000x128 where
  lhsContracting := [1]
  rhsContracting := [0]
  lhsNonContracting := [0]
  rhsNonContracting := [1]
  lhsBatch := []
  rhsBatch := []
  wf := dot_S4000x8_S8x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def dot_S4000x128_S128x4_S4000x4_1_0_0_1_n_n : DotDims S4000x128 S128x4 S4000x4 where
  lhsContracting := [1]
  rhsContracting := [0]
  lhsNonContracting := [0]
  rhsNonContracting := [1]
  lhsBatch := []
  rhsBatch := []
  wf := dot_S4000x128_S128x4_S4000x4_1_0_0_1_n_n_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def scatter_S10000x4x3_S320000x1_S320000x4x3_12_0_0_1 : ScatterDims S10000x4x3 S320000x1 S320000x4x3 where
  updateWindowDims := [1, 2]
  insertedWindowDims := [0]
  scatterDimsToOperandDims := [0]
  indexVectorDim := 1
  wf := scatter_S10000x4x3_S320000x1_S320000x4x3_12_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v56) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v63) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v66) S4000x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v70) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v71) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v72) S8x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v73) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v74) S128x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v75) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v76) S128x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v77) S128x4.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v78) S128x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v79) S128x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v80) S128x4.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v81_0) S4000x128.size cc0_transform_21 reads0_21 true false 2 stage0_21 sem0_21
    hrank0 hreads0_21 hinb0_21 nbuf0_21 (Memref.isWhole_whole _) hwx0_21 hstage0_21

abbrev win0_22 : Pipeline.Window sig grid0 :=
  Pipeline.Window.ofSpec (Memref.whole main_v81_1) S4000x8.size cc0_transform_22 reads0_22 true false 2 stage0_22 sem0_22
    hrank0 hreads0_22 hinb0_22 nbuf0_22 (Memref.isWhole_whole _) hwx0_22 hstage0_22

abbrev win0 : Fin 23 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | ⟨_ + 23, h⟩ => absurd h (Nat.not_lt.2 (Nat.le_add_left _ _))
abbrev spec0 : Fin 23 → Pipeline.WinSpec sig grid0.rank := fun w => (win0 w).toWinSpec

abbrev win1_0 : Pipeline.Window sig grid1 :=
  Pipeline.Window.ofSpec (Memref.whole main_v95) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v108) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v109) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg22) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v110) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg24) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v111) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg26) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v112) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S10000x4x3 : Shape := ⟨3, ![10000, 4, 3]⟩
abbrev S10000x128 : Shape := ⟨2, ![10000, 128]⟩
abbrev S320000 : Shape := ⟨1, ![320000]⟩
abbrev S264x128 : Shape := ⟨2, ![264, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S128x4 : Shape := ⟨2, ![128, 4]⟩
abbrev S256x128 : Shape := ⟨2, ![256, 128]⟩
abbrev S_ : Shape := ⟨0, ![]⟩
abbrev S320000x1 : Shape := ⟨2, ![320000, 1]⟩
abbrev S320000x4x3 : Shape := ⟨3, ![320000, 4, 3]⟩
abbrev S320000x4 : Shape := ⟨2, ![320000, 4]⟩
abbrev S320000x4x1 : Shape := ⟨3, ![320000, 4, 1]⟩
abbrev S320000x128 : Shape := ⟨2, ![320000, 128]⟩
abbrev S320000x264 : Shape := ⟨2, ![320000, 264]⟩
abbrev S1x128 : Shape := ⟨2, ![1, 128]⟩
abbrev S1x1 : Shape := ⟨2, ![1, 1]⟩
abbrev S10000x256 : Shape := ⟨2, ![10000, 256]⟩

abbrev nBuf : Space → Nat
  | .hbm => 269
  | .vmem => 0
  | .smem => 0
  | _ => 0

abbrev hbmTy0_0 (i : Nat) : BufTy := match i % 128 with
  | 0 => ⟨S10000x4x3, .f32⟩
  | 1 => ⟨S10000x4x3, .f32⟩
  | 2 => ⟨S10000x128, .f32⟩
  | 3 => ⟨S320000, .i32⟩
  | 4 => ⟨S320000, .i32⟩
  | 5 => ⟨S264x128, .f32⟩
  | 6 => ⟨S128, .f32⟩
  | 7 => ⟨S128x128, .f32⟩
  | 8 => ⟨S128, .f32⟩
  | 9 => ⟨S128x1, .f32⟩
  | 10 => ⟨S1, .f32⟩
  | 11 => ⟨S128x128, .f32⟩
  | 12 => ⟨S128, .f32⟩
  | 13 => ⟨S128x128, .f32⟩
  | 14 => ⟨S128, .f32⟩
  | 15 => ⟨S128x4, .f32⟩
  | 16 => ⟨S128x128, .f32⟩
  | 17 => ⟨S128, .f32⟩
  | 18 => ⟨S128x128, .f32⟩
  | 19 => ⟨S128, .f32⟩
  | 20 => ⟨S128x4, .f32⟩
  | 21 => ⟨S256x128, .f32⟩
  | 22 => ⟨S128, .f32⟩
  | 23 => ⟨S128x128, .f32⟩
  | 24 => ⟨S128, .f32⟩
  | 25 => ⟨S128x128, .f32⟩
  | 26 => ⟨S128, .f32⟩
  | 27 => ⟨S_, .i32⟩
  | 28 => ⟨S320000, .i32⟩
  | 29 => ⟨S320000, .i1⟩
  | 30 => ⟨S_, .i32⟩
  | 31 => ⟨S320000, .i32⟩
  | 32 => ⟨S320000, .i32⟩
  | 33 => ⟨S320000, .i32⟩
  | 34 => ⟨S320000x1, .i32⟩
  | 35 => ⟨S320000x4x3, .f32⟩
  | 36 => ⟨S_, .i32⟩
  | 37 => ⟨S320000, .i32⟩
  | 38 => ⟨S320000, .i1⟩
  | 39 => ⟨S_, .i32⟩
  | 40 => ⟨S320000, .i32⟩
  | 41 => ⟨S320000, .i32⟩
  | 42 => ⟨S320000, .i32⟩
  | 43 => ⟨S320000x1, .i32⟩
  | 44 => ⟨S320000x4x3, .f32⟩
  | 45 => ⟨S320000x4x3, .f32⟩
  | 46 => ⟨S320000x4x3, .f32⟩
  | 47 => ⟨S_, .f32⟩
  | 48 => ⟨S320000x4, .f32⟩
  | 49 => ⟨S_, .f32⟩
  | 50 => ⟨S320000x4, .f32⟩
  | 51 => ⟨S320000x4, .f32⟩
  | 52 => ⟨S320000x4, .f32⟩
  | 53 => ⟨S320000x4x1, .f32⟩
  | 54 => ⟨S_, .f32⟩
  | 55 => ⟨S320000x4x1, .f32⟩
  | 56 => ⟨S320000x4x1, .f32⟩
  | 57 => ⟨S320000x4x3, .f32⟩
  | 58 => ⟨S320000x4x3, .f32⟩
  | 59 => ⟨S_, .i32⟩
  | 60 => ⟨S320000, .i32⟩
  | 61 => ⟨S320000, .i1⟩
  | 62 => ⟨S_, .i32⟩
  | 63 => ⟨S320000, .i32⟩
  | 64 => ⟨S320000, .i32⟩
  | 65 => ⟨S320000, .i32⟩
  | 66 => ⟨S320000x1, .i32⟩
  | 67 => ⟨S320000x4x3, .f32⟩
  | 68 => ⟨S_, .i32⟩
  | 69 => ⟨S320000, .i32⟩
  | 70 => ⟨S320000, .i1⟩
  | 71 => ⟨S_, .i32⟩
  | 72 => ⟨S320000, .i32⟩
  | 73 => ⟨S320000, .i32⟩
  | 74 => ⟨S320000, .i32⟩
  | 75 => ⟨S320000x1, .i32⟩
  | 76 => ⟨S320000x4x3, .f32⟩
  | 77 => ⟨S320000x4x3, .f32⟩
  | 78 => ⟨S320000x4x3, .f32⟩
  | 79 => ⟨S_, .f32⟩
  | 80 => ⟨S320000x4, .f32⟩
  | 81 => ⟨S_, .f32⟩
  | 82 => ⟨S320000x4, .f32⟩
  | 83 => ⟨S320000x4, .f32⟩
  | 84 => ⟨S320000x4, .f32⟩
  | 85 => ⟨S320000x4x1, .f32⟩
  | 86 => ⟨S_, .f32⟩
  | 87 => ⟨S320000x4x1, .f32⟩
  | 88 => ⟨S320000x4x1, .f32⟩
  | 89 => ⟨S320000x4x3, .f32⟩
  | 90 => ⟨S320000x4x3, .f32⟩
  | 91 => ⟨S_, .i32⟩
  | 92 => ⟨S320000, .i32⟩
  | 93 => ⟨S320000, .i1⟩
  | 94 => ⟨S_, .i32⟩
  | 95 => ⟨S320000, .i32⟩
  | 96 => ⟨S320000, .i32⟩
  | 97 => ⟨S320000, .i32⟩
  | 98 => ⟨S320000x1, .i32⟩
  | 99 => ⟨S320000x128, .f32⟩
  | 100 => ⟨S_, .i32⟩
  | 101 => ⟨S320000, .i32⟩
  | 102 => ⟨S320000, .i1⟩
  | 103 => ⟨S_, .i32⟩
  | 104 => ⟨S320000, .i32⟩
  | 105 => ⟨S320000, .i32⟩
  | 106 => ⟨S320000, .i32⟩
  | 107 => ⟨S320000x1, .i32⟩
  | 108 => ⟨S320000x128, .f32⟩
  | 109 => ⟨S320000x4, .f32⟩
  | 110 => ⟨S320000x4, .f32⟩
  | 111 => ⟨S320000x264, .f32⟩
  | 112 => ⟨S320000x128, .f32⟩
  | 113 => ⟨S1x128, .f32⟩
  | 114 => ⟨S320000x128, .f32⟩
  | 115 => ⟨S320000x128, .f32⟩
  | 116 => ⟨S320000x128, .f32⟩
  | 117 => ⟨S320000x128, .f32⟩
  | 118 => ⟨S_, .f32⟩
  | 119 => ⟨S320000x128, .f32⟩
  | 120 => ⟨S320000x128, .f32⟩
  | 121 => ⟨S_, .f32⟩
  | 122 => ⟨S320000x128, .f32⟩
  | 123 => ⟨S320000x128, .f32⟩
  | 124 => ⟨S320000x128, .f32⟩
  | 125 => ⟨S320000x128, .f32⟩
  | 126 => ⟨S1x128, .f32⟩
  | 127 => ⟨S320000x128, .f32⟩
  | _ => ⟨S10000x4x3, .f32⟩

abbrev hbmTy0_1 (i : Nat) : BufTy := match i % 128 with
  | 0 => ⟨S320000x128, .f32⟩
  | 1 => ⟨S320000x128, .f32⟩
  | 2 => ⟨S320000x128, .f32⟩
  | 3 => ⟨S_, .f32⟩
  | 4 => ⟨S320000x128, .f32⟩
  | 5 => ⟨S320000x128, .f32⟩
  | 6 => ⟨S_, .f32⟩
  | 7 => ⟨S320000x128, .f32⟩
  | 8 => ⟨S320000x128, .f32⟩
  | 9 => ⟨S320000x128, .f32⟩
  | 10 => ⟨S320000x128, .f32⟩
  | 11 => ⟨S1x128, .f32⟩
  | 12 => ⟨S320000x128, .f32⟩
  | 13 => ⟨S320000x128, .f32⟩
  | 14 => ⟨S320000x128, .f32⟩
  | 15 => ⟨S320000x128, .f32⟩
  | 16 => ⟨S_, .f32⟩
  | 17 => ⟨S320000x128, .f32⟩
  | 18 => ⟨S320000x128, .f32⟩
  | 19 => ⟨S_, .f32⟩
  | 20 => ⟨S320000x128, .f32⟩
  | 21 => ⟨S320000x128, .f32⟩
  | 22 => ⟨S320000x128, .f32⟩
  | 23 => ⟨S320000x128, .f32⟩
  | 24 => ⟨S1x128, .f32⟩
  | 25 => ⟨S320000x128, .f32⟩
  | 26 => ⟨S320000x128, .f32⟩
  | 27 => ⟨S320000x128, .f32⟩
  | 28 => ⟨S320000x128, .f32⟩
  | 29 => ⟨S_, .f32⟩
  | 30 => ⟨S320000x128, .f32⟩
  | 31 => ⟨S320000x128, .f32⟩
  | 32 => ⟨S_, .f32⟩
  | 33 => ⟨S320000x128, .f32⟩
  | 34 => ⟨S320000x128, .f32⟩
  | 35 => ⟨S320000x128, .f32⟩
  | 36 => ⟨S320000x4, .f32⟩
  | 37 => ⟨S320000x4, .f32⟩
  | 38 => ⟨S320000x4x1, .f32⟩
  | 39 => ⟨S320000x4x3, .f32⟩
  | 40 => ⟨S320000x4x3, .f32⟩
  | 41 => ⟨S_, .f32⟩
  | 42 => ⟨S10000x4x3, .f32⟩
  | 43 => ⟨S320000x1, .i32⟩
  | 44 => ⟨S10000x4x3, .f32⟩
  | 45 => ⟨S_, .f32⟩
  | 46 => ⟨S10000x4x3, .f32⟩
  | 47 => ⟨S10000x4x3, .f32⟩
  | 48 => ⟨S320000x128, .f32⟩
  | 49 => ⟨S1x128, .f32⟩
  | 50 => ⟨S320000x128, .f32⟩
  | 51 => ⟨S320000x128, .f32⟩
  | 52 => ⟨S320000x128, .f32⟩
  | 53 => ⟨S320000x128, .f32⟩
  | 54 => ⟨S_, .f32⟩
  | 55 => ⟨S320000x128, .f32⟩
  | 56 => ⟨S320000x128, .f32⟩
  | 57 => ⟨S_, .f32⟩
  | 58 => ⟨S320000x128, .f32⟩
  | 59 => ⟨S320000x128, .f32⟩
  | 60 => ⟨S320000x128, .f32⟩
  | 61 => ⟨S320000x128, .f32⟩
  | 62 => ⟨S1x128, .f32⟩
  | 63 => ⟨S320000x128, .f32⟩
  | 64 => ⟨S320000x128, .f32⟩
  | 65 => ⟨S320000x128, .f32⟩
  | 66 => ⟨S320000x128, .f32⟩
  | 67 => ⟨S_, .f32⟩
  | 68 => ⟨S320000x128, .f32⟩
  | 69 => ⟨S320000x128, .f32⟩
  | 70 => ⟨S_, .f32⟩
  | 71 => ⟨S320000x128, .f32⟩
  | 72 => ⟨S320000x128, .f32⟩
  | 73 => ⟨S320000x128, .f32⟩
  | 74 => ⟨S320000x4, .f32⟩
  | 75 => ⟨S320000x4, .f32⟩
  | 76 => ⟨S320000x4x1, .f32⟩
  | 77 => ⟨S320000x4x3, .f32⟩
  | 78 => ⟨S320000x4x3, .f32⟩
  | 79 => ⟨S_, .f32⟩
  | 80 => ⟨S10000x4x3, .f32⟩
  | 81 => ⟨S320000x1, .i32⟩
  | 82 => ⟨S10000x4x3, .f32⟩
  | 83 => ⟨S_, .f32⟩
  | 84 => ⟨S10000x4x3, .f32⟩
  | 85 => ⟨S10000x4x3, .f32⟩
  | 86 => ⟨S320000x1, .f32⟩
  | 87 => ⟨S1x1, .f32⟩
  | 88 => ⟨S320000x1, .f32⟩
  | 89 => ⟨S320000x1, .f32⟩
  | 90 => ⟨S320000x1, .f32⟩
  | 91 => ⟨S320000x1, .f32⟩
  | 92 => ⟨S_, .f32⟩
  | 93 => ⟨S320000x1, .f32⟩
  | 94 => ⟨S320000x1, .f32⟩
  | 95 => ⟨S_, .f32⟩
  | 96 => ⟨S320000x1, .f32⟩
  | 97 => ⟨S320000x1, .f32⟩
  | 98 => ⟨S320000x128, .f32⟩
  | 99 => ⟨S320000x128, .f32⟩
  | 100 => ⟨S_, .f32⟩
  | 101 => ⟨S10000x128, .f32⟩
  | 102 => ⟨S320000x1, .i32⟩
  | 103 => ⟨S10000x128, .f32⟩
  | 104 => ⟨S_, .f32⟩
  | 105 => ⟨S10000x128, .f32⟩
  | 106 => ⟨S10000x128, .f32⟩
  | 107 => ⟨S10000x256, .f32⟩
  | 108 => ⟨S10000x128, .f32⟩
  | 109 => ⟨S1x128, .f32⟩
  | 110 => ⟨S10000x128, .f32⟩
  | 111 => ⟨S10000x128, .f32⟩
  | 112 => ⟨S10000x128, .f32⟩
  | 113 => ⟨S10000x128, .f32⟩
  | 114 => ⟨S_, .f32⟩
  | 115 => ⟨S10000x128, .f32⟩
  | 116 => ⟨S10000x128, .f32⟩
  | 117 => ⟨S_, .f32⟩
  | 118 => ⟨S10000x128, .f32⟩
  | 119 => ⟨S10000x128, .f32⟩
  | 120 => ⟨S10000x128, .f32⟩
  | 121 => ⟨S10000x128, .f32⟩
  | 122 => ⟨S1x128, .f32⟩
  | 123 => ⟨S10000x128, .f32⟩
  | 124 => ⟨S10000x128, .f32⟩
  | 125 => ⟨S10000x128, .f32⟩
  | 126 => ⟨S10000x128, .f32⟩
  | 127 => ⟨S_, .f32⟩
  | _ => ⟨S10000x4x3, .f32⟩

abbrev hbmTy0_2 (i : Nat) : BufTy := match i % 128 with
  | 0 => ⟨S10000x128, .f32⟩
  | 1 => ⟨S10000x128, .f32⟩
  | 2 => ⟨S_, .f32⟩
  | 3 => ⟨S10000x128, .f32⟩
  | 4 => ⟨S10000x128, .f32⟩
  | 5 => ⟨S10000x128, .f32⟩
  | 6 => ⟨S10000x128, .f32⟩
  | 7 => ⟨S1x128, .f32⟩
  | 8 => ⟨S10000x128, .f32⟩
  | 9 => ⟨S10000x128, .f32⟩
  | 10 => ⟨S10000x128, .f32⟩
  | 11 => ⟨S10000x4x3, .f32⟩
  | 12 => ⟨S10000x4x3, .f32⟩
  | _ => ⟨S10000x4x3, .f32⟩

abbrev hbmTy (i : Nat) : BufTy := match i / 128 with
  | 0 => hbmTy0_0 i
  | 1 => hbmTy0_1 i
  | 2 => hbmTy0_2 i
  | _ => ⟨S10000x4x3, .f32⟩

abbrev bufTy : (tb : Table) → Fin (tcTables nBuf tb) → BufTy
  | .hbm, ⟨i, _⟩ => hbmTy i
  | _, _ => ⟨S10000x4x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_c : Ref sig .tc := ⟨.hbm, 27, rfl⟩
abbrev main_v0 : Ref sig .tc := ⟨.hbm, 28, rfl⟩
abbrev main_v1 : Ref sig .tc := ⟨.hbm, 29, rfl⟩
abbrev main_c_0 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_c_1 : Ref sig .tc := ⟨.hbm, 36, rfl⟩
abbrev main_v7 : Ref sig .tc := ⟨.hbm, 37, rfl⟩
abbrev main_v8 : Ref sig .tc := ⟨.hbm, 38, rfl⟩
abbrev main_c_2 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_cst : Ref sig .tc := ⟨.hbm, 47, rfl⟩
abbrev main_v16 : Ref sig .tc := ⟨.hbm, 48, rfl⟩
abbrev main_cst_3 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_4 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_c_5 : Ref sig .tc := ⟨.hbm, 59, rfl⟩
abbrev main_v25 : Ref sig .tc := ⟨.hbm, 60, rfl⟩
abbrev main_v26 : Ref sig .tc := ⟨.hbm, 61, rfl⟩
abbrev main_c_6 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_c_7 : Ref sig .tc := ⟨.hbm, 68, rfl⟩
abbrev main_v32 : Ref sig .tc := ⟨.hbm, 69, rfl⟩
abbrev main_v33 : Ref sig .tc := ⟨.hbm, 70, rfl⟩
abbrev main_c_8 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_cst_9 : Ref sig .tc := ⟨.hbm, 79, rfl⟩
abbrev main_v41 : Ref sig .tc := ⟨.hbm, 80, rfl⟩
abbrev main_cst_10 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_11 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_c_12 : Ref sig .tc := ⟨.hbm, 91, rfl⟩
abbrev main_v50 : Ref sig .tc := ⟨.hbm, 92, rfl⟩
abbrev main_v51 : Ref sig .tc := ⟨.hbm, 93, rfl⟩
abbrev main_c_13 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_c_14 : Ref sig .tc := ⟨.hbm, 100, rfl⟩
abbrev main_v57 : Ref sig .tc := ⟨.hbm, 101, rfl⟩
abbrev main_v58 : Ref sig .tc := ⟨.hbm, 102, rfl⟩
abbrev main_c_15 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_call0_v0 : Ref sig .tc := ⟨.hbm, 116, rfl⟩
abbrev main_call0_v1 : Ref sig .tc := ⟨.hbm, 117, rfl⟩
abbrev main_call0_cst : Ref sig .tc := ⟨.hbm, 118, rfl⟩
abbrev main_call0_v2 : Ref sig .tc := ⟨.hbm, 119, rfl⟩
abbrev main_call0_v3 : Ref sig .tc := ⟨.hbm, 120, rfl⟩
abbrev main_call0_cst_0 : Ref sig .tc := ⟨.hbm, 121, rfl⟩
abbrev main_call0_v4 : Ref sig .tc := ⟨.hbm, 122, rfl⟩
abbrev main_call0_v5 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_call1_v0 : Ref sig .tc := ⟨.hbm, 129, rfl⟩
abbrev main_call1_v1 : Ref sig .tc := ⟨.hbm, 130, rfl⟩
abbrev main_call1_cst : Ref sig .tc := ⟨.hbm, 131, rfl⟩
abbrev main_call1_v2 : Ref sig .tc := ⟨.hbm, 132, rfl⟩
abbrev main_call1_v3 : Ref sig .tc := ⟨.hbm, 133, rfl⟩
abbrev main_call1_cst_0 : Ref sig .tc := ⟨.hbm, 134, rfl⟩
abbrev main_call1_v4 : Ref sig .tc := ⟨.hbm, 135, rfl⟩
abbrev main_call1_v5 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_call2_v0 : Ref sig .tc := ⟨.hbm, 142, rfl⟩
abbrev main_call2_v1 : Ref sig .tc := ⟨.hbm, 143, rfl⟩
abbrev main_call2_cst : Ref sig .tc := ⟨.hbm, 144, rfl⟩
abbrev main_call2_v2 : Ref sig .tc := ⟨.hbm, 145, rfl⟩
abbrev main_call2_v3 : Ref sig .tc := ⟨.hbm, 146, rfl⟩
abbrev main_call2_cst_0 : Ref sig .tc := ⟨.hbm, 147, rfl⟩
abbrev main_call2_v4 : Ref sig .tc := ⟨.hbm, 148, rfl⟩
abbrev main_call2_v5 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_call3_v0 : Ref sig .tc := ⟨.hbm, 155, rfl⟩
abbrev main_call3_v1 : Ref sig .tc := ⟨.hbm, 156, rfl⟩
abbrev main_call3_cst : Ref sig .tc := ⟨.hbm, 157, rfl⟩
abbrev main_call3_v2 : Ref sig .tc := ⟨.hbm, 158, rfl⟩
abbrev main_call3_v3 : Ref sig .tc := ⟨.hbm, 159, rfl⟩
abbrev main_call3_cst_0 : Ref sig .tc := ⟨.hbm, 160, rfl⟩
abbrev main_call3_v4 : Ref sig .tc := ⟨.hbm, 161, rfl⟩
abbrev main_call3_v5 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_cst_16 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_cst_17 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_call4_v0 : Ref sig .tc := ⟨.hbm, 180, rfl⟩
abbrev main_call4_v1 : Ref sig .tc := ⟨.hbm, 181, rfl⟩
abbrev main_call4_cst : Ref sig .tc := ⟨.hbm, 182, rfl⟩
abbrev main_call4_v2 : Ref sig .tc := ⟨.hbm, 183, rfl⟩
abbrev main_call4_v3 : Ref sig .tc := ⟨.hbm, 184, rfl⟩
abbrev main_call4_cst_0 : Ref sig .tc := ⟨.hbm, 185, rfl⟩
abbrev main_call4_v4 : Ref sig .tc := ⟨.hbm, 186, rfl⟩
abbrev main_call4_v5 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_call5_v0 : Ref sig .tc := ⟨.hbm, 193, rfl⟩
abbrev main_call5_v1 : Ref sig .tc := ⟨.hbm, 194, rfl⟩
abbrev main_call5_cst : Ref sig .tc := ⟨.hbm, 195, rfl⟩
abbrev main_call5_v2 : Ref sig .tc := ⟨.hbm, 196, rfl⟩
abbrev main_call5_v3 : Ref sig .tc := ⟨.hbm, 197, rfl⟩
abbrev main_call5_cst_0 : Ref sig .tc := ⟨.hbm, 198, rfl⟩
abbrev main_call5_v4 : Ref sig .tc := ⟨.hbm, 199, rfl⟩
abbrev main_call5_v5 : Ref sig .tc := ⟨.hbm, 200, rfl⟩
abbrev main_v106 : Ref sig .tc := ⟨.hbm, 201, rfl⟩
abbrev main_v107 : Ref sig .tc := ⟨.hbm, 202, rfl⟩
abbrev main_v108 : Ref sig .tc := ⟨.hbm, 203, rfl⟩
abbrev main_v109 : Ref sig .tc := ⟨.hbm, 204, rfl⟩
abbrev main_v110 : Ref sig .tc := ⟨.hbm, 205, rfl⟩
abbrev main_v111 : Ref sig .tc := ⟨.hbm, 206, rfl⟩
abbrev main_cst_18 : Ref sig .tc := ⟨.hbm, 207, rfl⟩
abbrev main_v112 : Ref sig .tc := ⟨.hbm, 208, rfl⟩
abbrev main_v113 : Ref sig .tc := ⟨.hbm, 209, rfl⟩
abbrev main_v114 : Ref sig .tc := ⟨.hbm, 210, rfl⟩
abbrev main_cst_19 : Ref sig .tc := ⟨.hbm, 211, rfl⟩
abbrev main_v115 : Ref sig .tc := ⟨.hbm, 212, rfl⟩
abbrev main_v116 : Ref sig .tc := ⟨.hbm, 213, rfl⟩
abbrev main_v117 : Ref sig .tc := ⟨.hbm, 214, rfl⟩
abbrev main_v118 : Ref sig .tc := ⟨.hbm, 215, rfl⟩
abbrev main_v119 : Ref sig .tc := ⟨.hbm, 216, rfl⟩
abbrev main_v120 : Ref sig .tc := ⟨.hbm, 217, rfl⟩
abbrev main_v121 : Ref sig .tc := ⟨.hbm, 218, rfl⟩
abbrev main_v122 : Ref sig .tc := ⟨.hbm, 219, rfl⟩
abbrev main_cst_20 : Ref sig .tc := ⟨.hbm, 220, rfl⟩
abbrev main_v123 : Ref sig .tc := ⟨.hbm, 221, rfl⟩
abbrev main_v124 : Ref sig .tc := ⟨.hbm, 222, rfl⟩
abbrev main_cst_21 : Ref sig .tc := ⟨.hbm, 223, rfl⟩
abbrev main_v125 : Ref sig .tc := ⟨.hbm, 224, rfl⟩
abbrev main_v126 : Ref sig .tc := ⟨.hbm, 225, rfl⟩
abbrev main_v127 : Ref sig .tc := ⟨.hbm, 226, rfl⟩
abbrev main_v128 : Ref sig .tc := ⟨.hbm, 227, rfl⟩
abbrev main_cst_22 : Ref sig .tc := ⟨.hbm, 228, rfl⟩
abbrev main_v129 : Ref sig .tc := ⟨.hbm, 229, rfl⟩
abbrev main_v130 : Ref sig .tc := ⟨.hbm, 230, rfl⟩
abbrev main_v131 : Ref sig .tc := ⟨.hbm, 231, rfl⟩
abbrev main_cst_23 : Ref sig .tc := ⟨.hbm, 232, rfl⟩
abbrev main_v132 : Ref sig .tc := ⟨.hbm, 233, rfl⟩
abbrev main_v133 : Ref sig .tc := ⟨.hbm, 234, rfl⟩
abbrev main_v134 : Ref sig .tc := ⟨.hbm, 235, rfl⟩
abbrev main_v135 : Ref sig .tc := ⟨.hbm, 236, rfl⟩
abbrev main_v136 : Ref sig .tc := ⟨.hbm, 237, rfl⟩
abbrev main_v137 : Ref sig .tc := ⟨.hbm, 238, rfl⟩
abbrev main_v138 : Ref sig .tc := ⟨.hbm, 239, rfl⟩
abbrev main_call6_v0 : Ref sig .tc := ⟨.hbm, 240, rfl⟩
abbrev main_call6_v1 : Ref sig .tc := ⟨.hbm, 241, rfl⟩
abbrev main_call6_cst : Ref sig .tc := ⟨.hbm, 242, rfl⟩
abbrev main_call6_v2 : Ref sig .tc := ⟨.hbm, 243, rfl⟩
abbrev main_call6_v3 : Ref sig .tc := ⟨.hbm, 244, rfl⟩
abbrev main_call6_cst_0 : Ref sig .tc := ⟨.hbm, 245, rfl⟩
abbrev main_call6_v4 : Ref sig .tc := ⟨.hbm, 246, rfl⟩
abbrev main_call6_v5 : Ref sig .tc := ⟨.hbm, 247, rfl⟩
abbrev main_v139 : Ref sig .tc := ⟨.hbm, 248, rfl⟩
abbrev main_v140 : Ref sig .tc := ⟨.hbm, 249, rfl⟩
abbrev main_v141 : Ref sig .tc := ⟨.hbm, 250, rfl⟩
abbrev main_v142 : Ref sig .tc := ⟨.hbm, 251, rfl⟩
abbrev main_v143 : Ref sig .tc := ⟨.hbm, 252, rfl⟩
abbrev main_call7_v0 : Ref sig .tc := ⟨.hbm, 253, rfl⟩
abbrev main_call7_v1 : Ref sig .tc := ⟨.hbm, 254, rfl⟩
abbrev main_call7_cst : Ref sig .tc := ⟨.hbm, 255, rfl⟩
abbrev main_call7_v2 : Ref sig .tc := ⟨.hbm, 256, rfl⟩
abbrev main_call7_v3 : Ref sig .tc := ⟨.hbm, 257, rfl⟩
abbrev main_call7_cst_0 : Ref sig .tc := ⟨.hbm, 258, rfl⟩
abbrev main_call7_v4 : Ref sig .tc := ⟨.hbm, 259, rfl⟩
abbrev main_call7_v5 : Ref sig .tc := ⟨.hbm, 260, rfl⟩
abbrev main_v144 : Ref sig .tc := ⟨.hbm, 261, rfl⟩
abbrev main_v145 : Ref sig .tc := ⟨.hbm, 262, rfl⟩
abbrev main_v146 : Ref sig .tc := ⟨.hbm, 263, rfl⟩
abbrev main_v147 : Ref sig .tc := ⟨.hbm, 264, rfl⟩
abbrev main_v148 : Ref sig .tc := ⟨.hbm, 265, rfl⟩
abbrev main_v149 : Ref sig .tc := ⟨.hbm, 266, rfl⟩
abbrev main_v150 : Ref sig .tc := ⟨.hbm, 267, rfl⟩
abbrev main_v151 : Ref sig .tc := ⟨.hbm, 268, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  reducesTo_S320000x4x3_S320000x4_d2 : S320000x4x3.ReducesTo [2] S320000x4
  h_S_ : 0 < S_.numel
  bcast_S_S320000x4 : S_.BroadcastsInDim S320000x4 (![] : Fin 0 → Fin S320000x4.rank)
  bcast_S320000x4_S320000x4x1_0_1 : S320000x4.BroadcastsInDim S320000x4x1 (![0, 1] : Fin 2 → Fin S320000x4x1.rank)
  bcast_S_S320000x4x1 : S_.BroadcastsInDim S320000x4x1 (![] : Fin 0 → Fin S320000x4x1.rank)
  bcast_S320000x4x1_S320000x4x3_0_1_2 : S320000x4x1.BroadcastsInDim S320000x4x3 (![0, 1, 2] : Fin 3 → Fin S320000x4x3.rank)
  concatenates_S320000x128_S320000x128_S320000x4_S320000x4_S320000x264_d1 : Shape.Concatenates [S320000x128, S320000x128, S320000x4, S320000x4] S320000x264 1
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  bcast_S_S320000x128 : S_.BroadcastsInDim S320000x128 (![] : Fin 0 → Fin S320000x128.rank)
  bcast_S_S10000x4x3 : S_.BroadcastsInDim S10000x4x3 (![] : Fin 0 → Fin S10000x4x3.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  bcast_S_S320000x1 : S_.BroadcastsInDim S320000x1 (![] : Fin 0 → Fin S320000x1.rank)
  bcast_S320000x1_S320000x128_0_1 : S320000x1.BroadcastsInDim S320000x128 (![0, 1] : Fin 2 → Fin S320000x128.rank)
  bcast_S_S10000x128 : S_.BroadcastsInDim S10000x128 (![] : Fin 0 → Fin S10000x128.rank)
  concatenates_S10000x128_S10000x128_S10000x256_d1 : Shape.Concatenates [S10000x128, S10000x128] S10000x256 1
  bcast_S1x128_S10000x128_0_1 : S1x128.BroadcastsInDim S10000x128 (![0, 1] : Fin 2 → Fin S10000x128.rank)
  gather_S10000x4x3_S320000x1_S320000x4x3_12_0_n_n_0_1_143_wf : GatherDims.WF S10000x4x3 S320000x1 S320000x4x3 [1, 2] [0] [] [0] [] 1 ![1, 4, 3]
  gather_S10000x128_S320000x1_S320000x128_1_0_n_n_0_1_1128_wf : GatherDims.WF S10000x128 S320000x1 S320000x128 [1] [0] [] [0] [] 1 ![1, 128]
  dot_S320000x264_S264x128_S320000x128_1_0_0_1_n_n_wf : DotDims.WF S320000x264 S264x128 S320000x128 [1] [0] [0] [1] [] []
  dot_S320000x128_S128x128_S320000x128_1_0_0_1_n_n_wf : DotDims.WF S320000x128 S128x128 S320000x128 [1] [0] [0] [1] [] []
  dot_S320000x128_S128x4_S320000x4_1_0_0_1_n_n_wf : DotDims.WF S320000x128 S128x4 S320000x4 [1] [0] [0] [1] [] []
  scatter_S10000x4x3_S320000x1_S320000x4x3_12_0_0_1_wf : ScatterDims.WF S10000x4x3 S320000x1 S320000x4x3 [1, 2] [0] [0] 1
  dot_S320000x128_S128x1_S320000x1_1_0_0_1_n_n_wf : DotDims.WF S320000x128 S128x1 S320000x1 [1] [0] [0] [1] [] []
  scatter_S10000x128_S320000x1_S320000x128_1_0_0_1_wf : ScatterDims.WF S10000x128 S320000x1 S320000x128 [1] [0] [0] 1
  dot_S10000x256_S256x128_S10000x128_1_0_0_1_n_n_wf : DotDims.WF S10000x256 S256x128 S10000x128 [1] [0] [0] [1] [] []
  dot_S10000x128_S128x128_S10000x128_1_0_0_1_n_n_wf : DotDims.WF S10000x128 S128x128 S10000x128 [1] [0] [0] [1] [] []

variable [Facts₀]

def gather_S10000x4x3_S320000x1_S320000x4x3_12_0_n_n_0_1_143 : GatherDims S10000x4x3 S320000x1 S320000x4x3 where
  offsetDims := [1, 2]
  collapsedSliceDims := [0]
  operandBatchingDims := []
  startIndicesBatchingDims := []
  startIndexMap := [0]
  indexVectorDim := 1
  sliceSizes := ![1, 4, 3]
  wf := gather_S10000x4x3_S320000x1_S320000x4x3_12_0_n_n_0_1_143_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S320000x264_S264x128_S320000x128_1_0_0_1_n_n : DotDims S320000x264 S264x128 S320000x128 where
  lhsContracting := [1]
  rhsContracting := [0]
  lhsNonContracting := [0]
  rhsNonContracting := [1]
  lhsBatch := []
  rhsBatch := []
  wf := dot_S320000x264_S264x128_S320000x128_1_0_0_1_n_n_wf
def dot_S320000x128_S128x128_S320000x128_1_0_0_1_n_n : DotDims S320000x128 S128x128 S320000x128 where
  lhsContracting := [1]
  rhsContracting := [0]
  lhsNonContracting := [0]
  rhsNonContracting := [1]
  lhsBatch := []
  rhsBatch := []
  wf := dot_S320000x128_S128x128_S320000x128_1_0_0_1_n_n_wf
def dot_S320000x128_S128x4_S320000x4_1_0_0_1_n_n : DotDims S320000x128 S128x4 S320000x4 where
  lhsContracting := [1]
  rhsContracting := [0]
  lhsNonContracting := [0]
  rhsNonContracting := [1]
  lhsBatch := []
  rhsBatch := []
  wf := dot_S320000x128_S128x4_S320000x4_1_0_0_1_n_n_wf
def scatter_S10000x4x3_S320000x1_S320000x4x3_12_0_0_1 : ScatterDims S10000x4x3 S320000x1 S320000x4x3 where
  updateWindowDims := [1, 2]
  insertedWindowDims := [0]
  scatterDimsToOperandDims := [0]
  indexVectorDim := 1
  wf := scatter_S10000x4x3_S320000x1_S320000x4x3_12_0_0_1_wf
def dot_S320000x128_S128x1_S320000x1_1_0_0_1_n_n : DotDims S320000x128 S128x1 S320000x1 where
  lhsContracting := [1]
  rhsContracting := [0]
  lhsNonContracting := [0]
  rhsNonContracting := [1]
  lhsBatch := []
  rhsBatch := []
  wf := dot_S320000x128_S128x1_S320000x1_1_0_0_1_n_n_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.KernelEntry.lean ====
/-
  What the host stretch before the first region leaves in the five buffers that carry computed values: the gathered
  features of each edge's sender and receiver, the normalised differences of positions and of vectors along each edge,
  and the squared lengths of those differences, eight to an edge. Each is the reference's own stage of the same
  arguments: the two programs spell these operations alike, so the equations hold by unfolding both sides.
-/
import proofs.«421440_j51007031607343_3_alg».proof.Proof.KernelRun
import proofs.«421440_j51007031607343_3_alg».proof.Proof.RefRead
import Idealize.ShloMosaic.Lib.StableHlo.Run
import Idealize.ShloMosaic.PureOps.Ideal

set_option maxRecDepth 16384
-- the abbreviations a0 … a4 below mention the section's variables
set_option quotPrecheck false

noncomputable section

namespace Cert.KernelIdeal.KValue

open Cert.KernelIdeal Cert.KernelIdeal.Gen Idealize.ShloMosaic Idealize.ShloMosaic.TcCoe Idealize.SL.Sem
open Idealize.ShloMosaic.StableHlo Cert.ReferenceIdeal.Read

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)

/-- At the first region's entry: the senders' features. -/
theorem in0_v56 : V1 (F := Ideal) m ρ c main_v56 = val_main_v56 (F := Ideal) a2 a3 := by
  show StableHlo.after hostOps0 (W0 m ρ c) (Proc.devRef .tc main_v56) = _
  chain_rfl

/-- At the first region's entry: the receivers' features. -/
theorem in0_v63 : V1 (F := Ideal) m ρ c main_v63 = val_main_v63 (F := Ideal) a2 a4 := by
  show StableHlo.after hostOps0 (W0 m ρ c) (Proc.devRef .tc main_v63) = _
  chain_rfl

/-- At the first region's entry: the squared lengths of the position differences, then of the vector differences. -/
theorem in0_v66 : V1 (F := Ideal) m ρ c main_v66 = concatenate S320000x8 1 [⟨S320000x4, val_main_v64 (F := Ideal) a0 a3 a4⟩, ⟨S320000x4, val_main_v65 (F := Ideal) a1 a3 a4⟩] concatenates_S320000x4_S320000x4_S320000x8_d1 := by
  show StableHlo.after hostOps0 (W0 m ρ c) (Proc.devRef .tc main_v66) = _
  chain_rfl

/-- At the first region's entry: the normalised position differences. -/
theorem in0_v24 : V1 (F := Ideal) m ρ c main_v24 = val_main_v24 (F := Ideal) a0 a3 a4 := by
  show StableHlo.after hostOps0 (W0 m ρ c) (Proc.devRef .tc main_v24) = _
  chain_rfl

/-- At the first region's entry: the normalised vector differences. -/
theorem in0_v49 : V1 (F := Ideal) m ρ c main_v49 = val_main_v49 (F := Ideal) a1 a3 a4 := by
  show StableHlo.after hostOps0 (W0 m ρ c) (Proc.devRef .tc main_v49) = _
  chain_rfl

end Cert.KernelIdeal.KValue

end
-- ==== Proof.LibPlainMatmul.lean ====
/-
  General lemmas, free of any program.

  * A `tpu.matmul` of an m×k block by a k×n block into the zero accumulator, read at the entry (a, b) at the ideal
    values, is the plain sum over the contracted coordinate c of A(a, c) · B(c, b): no accumulator term, no chunk order.
    Stated for the record `DotDims.plain m k n` and for any record equal to it (a printed record of the same six
    lists differs from it only in its well-formedness proof).
  * The two coordinates of a rank-2 index built from a pair.
  * The coercion of the reals into the extended reals commutes with finite sums and with the maximum of two reals.
-/
import Idealize.ShloMosaic.PureOps.Ideal.Laws
import Idealize.ShloMosaic.Lib.ValueIdx

noncomputable section

namespace PlainMatmul

open Idealize.ShloMosaic Idealize.ShloMosaic.ValueIdx

/-- The entry (a, b) of the product of an m×k by a k×n matrix accumulated into zero is `∑ c, A(a, c) · B(c, b)`. -/
theorem matmul_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  -- the contraction index built from c has c on its one axis
  have hc := contrEquiv1_symm_val (DotDims.plain m k n) k rfl rfl c
  -- the left operand is read at (a, c): axis 0 is the output's row, axis 1 the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => exact ((DotDims.plain m k n).lhsIdx_val_of_single rfl (ix2 a b) _).trans hc
  -- the right operand is read at (c, b)
  have hr : (DotDims.plain m k n).rhsIdx (ix2 a b) ((contrEquiv1 _ k rfl rfl).symm c) = ix2 c b := by
    funext ax; apply Fin.ext
    match ax with
    | ⟨0, _⟩ => exact ((DotDims.plain m k n).rhsIdx_val_of_single rfl (ix2 a b) _).trans hc
    | ⟨1, _⟩ => simp [DotDims.rhsIdx, DotDims.plain]; rfl
  rw [hl, hr]

/-- The same for any record that IS the plain one. -/
theorem matmul_zero_apply_of_eq {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul (F := Ideal) d prec A B (constant ⟨2, ![m, n]⟩ .f32 0x00000000#32) (ix2 a b)
      = ∑ c : Fin k, A (ix2 a c) * B (ix2 c b) := by
  subst hd; exact matmul_zero_apply prec A B a b

/-- A finite sum of reals, coerced, is the sum of the coerced terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The first coordinate of the index built from (a, b) is a. -/
theorem ix2_at0 {n0 n1 : Nat} (a : Fin n0) (b : Fin n1) : (ix2 a b 0 : Fin n0) = a := rfl
/-- The second coordinate of the index built from (a, b) is b. -/
theorem ix2_at1 {n0 n1 : Nat} (a : Fin n0) (b : Fin n1) : (ix2 a b 1 : Fin n1) = b := rfl

/-- The coercion is monotone, so it commutes with the maximum. -/
theorem coe_max (a b : ℝ) : ((max a b : ℝ) : EReal) = max (a : EReal) (b : EReal) :=
  EReal.coe_strictMono.monotone.map_max

end PlainMatmul

end
-- ==== Proof.LibRowLayers.lean ====
/-
  General lemmas, free of any program: the layers of a perceptron applied row by row to a block, read at an entry at
  the ideal values.

  * a row of a rank-2 block, a weight block as a matrix, a rank-1 block as a vector;
  * the pointwise logistic and hyperbolic tangent at an index;
  * a bias of length n added to every row of an r×n block; a column r×1 spread over the n columns of an r×n block;
    a one-entry vector spread over an r×1 column;
  * two blocks joined along the columns, read in the left and in the right part;
  * one dense layer — the block times the weights into the zero accumulator, plus the bias — read at a row as the row
    times the matrix plus the bias; followed by x · σ(x) it is the row's image under the layer.
-/
import Idealize.ShloMosaic.PureOps.Ideal.Laws
import Idealize.ShloMosaic.Lib.ValueIdx
import Idealize.ShloMosaic.Lib.ValueLayout
import Idealize.ShloMosaic.Lib.Pipeline.Value
import proofs.«421440_j51007031607343_3_alg».proof.Proof.LibPlainMatmul

noncomputable section

namespace RowLayers

open Idealize.ShloMosaic Idealize.ShloMosaic.ValueIdx Idealize.ShloMosaic.Pipeline

/-- x · σ(x) on the extended reals. -/
def silu (z : EReal) : EReal := z * Ideal.logistic z

/-- A row times a matrix: entry q is the sum over c of a(c) · B(c, q). -/
def rowMul {k n : Nat} (a : Fin k → EReal) (B : Fin k → Fin n → EReal) : Fin n → EReal := fun q => ∑ c, a c * B c q

/-- One layer on a row: x · σ(x) of the row times the matrix plus the bias. -/
def layer {k n : Nat} (a : Fin k → EReal) (B : Fin k → Fin n → EReal) (b : Fin n → EReal) : Fin n → EReal :=
  fun q => silu (rowMul a B q + b q)

/-- Row p of an r×k block. -/
def row {r k : Nat} (X : (⟨2, ![r, k]⟩ : Shape).Idx → EReal) (p : Fin r) : Fin k → EReal := fun c => X (ix2 p c)

/-- A k×n block as a matrix. -/
def mat {k n : Nat} (W : (⟨2, ![k, n]⟩ : Shape).Idx → EReal) : Fin k → Fin n → EReal := fun c q => W (ix2 c q)

/-- A block of rank 1 as a vector. -/
def vec {n : Nat} (b : (⟨1, ![n]⟩ : Shape).Idx → EReal) : Fin n → EReal := fun q => b (ix1 q)

variable {s : Shape} {φ : FTy}

theorem logistic_apply (a : FVec Ideal s φ) (i : s.Idx) : logistic a i = Ideal.logistic (a i) := rfl

theorem tanh_apply (a : FVec Ideal s φ) (i : s.Idx) : tanh a i = Ideal.tanh (a i) := rfl

/-- A bias of length n, seen as 1×n and spread over r rows, reads at (p, q) the bias at q. -/
theorem bias_apply {r n : Nat} (b : (⟨1, ![n]⟩ : Shape).Idx → EReal)
    (h1 : (⟨1, ![n]⟩ : Shape).ShapeCasts ⟨2, ![1, n]⟩) (h2 : (⟨2, ![1, n]⟩ : Shape).Broadcasts ⟨2, ![r, n]⟩)
    (p : Fin r) (q : Fin n) :
    broadcastTo ⟨2, ![r, n]⟩ (shapeCast ⟨2, ![1, n]⟩ b h1) h2 (ix2 p q) = vec b q := by
  rw [broadcastTo_1b_ab_apply, shapeCast_a_1a_apply]; rfl

/-- A column r×1 spread over n columns reads at (p, q) the column at p. -/
theorem column_apply {r n : Nat} (v : (⟨2, ![r, 1]⟩ : Shape).Idx → EReal)
    (h : (⟨2, ![r, 1]⟩ : Shape).Broadcasts ⟨2, ![r, n]⟩) (p : Fin r) (q : Fin n) :
    broadcastTo ⟨2, ![r, n]⟩ v h (ix2 p q) = v (ix2 p (0 : Fin 1)) := by
  refine broadcastTo_apply v h (ix2 p q) (ix2 p (0 : Fin 1)) fun ax => ?_
  match ax with
  | ⟨0, _⟩ =>
    show p.val = if r = 1 then 0 else p.val
    split
    · have := p.isLt; omega
    · rfl
  | ⟨1, _⟩ => rfl

/-- A one-entry vector, seen as 1×1 and spread over r rows, reads at (p, 0) its entry. -/
theorem scalar_bias_apply {r : Nat} (b : (⟨1, ![1]⟩ : Shape).Idx → EReal)
    (h1 : (⟨1, ![1]⟩ : Shape).ShapeCasts ⟨2, ![1, 1]⟩) (h2 : (⟨2, ![1, 1]⟩ : Shape).Broadcasts ⟨2, ![r, 1]⟩)
    (p : Fin r) :
    broadcastTo ⟨2, ![r, 1]⟩ (shapeCast ⟨2, ![1, 1]⟩ b h1) h2 (ix2 p (0 : Fin 1)) = vec b (0 : Fin 1) :=
  bias_apply b h1 h2 p 0

/-- The block times the weights into the zero accumulator, read at row p: the row times the matrix. -/
theorem matmul_row {r k n : Nat} (d : DotDims ⟨2, ![r, k]⟩ ⟨2, ![k, n]⟩ ⟨2, ![r, n]⟩) (hd : d = DotDims.plain r k n)
    {φ₁ φ₂ : FTy} (X : FVec Ideal ⟨2, ![r, k]⟩ φ₁) (W : FVec Ideal ⟨2, ![k, n]⟩ φ₂) (p : Fin r) (q : Fin n) :
    matmul (F := Ideal) d none X W (constant ⟨2, ![r, n]⟩ .f32 0x00000000#32) (ix2 p q) = rowMul (row X p) (mat W) q :=
  PlainMatmul.matmul_zero_apply_of_eq d hd none X W p q

end RowLayers

end
-- ==== Proof.EgclSpec.lean ====
/-
  The message-passing layer, row by row, on the extended reals.

  For one edge: the sender's and the receiver's features (128 each) and the eight squared lengths give, through two
  layers x · σ(x), the message m (128 entries); the gate σ(m · w + b) scales m; two heads — two more layers and a
  last product with a 128×4 matrix, then tanh — give four coefficients each. For one node: the averaged gated messages
  and the node's own features go through two layers and a last affine map, and the node's features are added back.

  The first layer of each part is written from its pre-activation, so that the two ways of forming it — one product
  with the stacked weights, or the sum of the products with the stacked weights' row blocks — share everything after.
-/
import proofs.«421440_j51007031607343_3_alg».proof.Proof.LibRowLayers

noncomputable section

namespace Egcl

open Idealize.ShloMosaic RowLayers

/-- The edge part's first pre-activation as three partial products and the bias, in the kernel's order of addition. -/
def pre3 (sf rf : Fin 128 → EReal) (l2 : Fin 8 → EReal) (Wsf Wrf : Fin 128 → Fin 128 → EReal)
    (Wl2 : Fin 8 → Fin 128 → EReal) (b0 : Fin 128 → EReal) : Fin 128 → EReal :=
  fun q => rowMul sf Wsf q + rowMul rf Wrf q + rowMul l2 Wl2 q + b0 q

/-- The same pre-activation as ONE product of the stacked row (264 entries) with the stacked weights. -/
def pre1 (ef : Fin 264 → EReal) (W : Fin 264 → Fin 128 → EReal) (b0 : Fin 128 → EReal) : Fin 128 → EReal :=
  fun q => rowMul ef W q + b0 q

/-- The message: x · σ(x) of the pre-activation, then one more layer. -/
def msg (pre : Fin 128 → EReal) (W1 : Fin 128 → Fin 128 → EReal) (b1 : Fin 128 → EReal) : Fin 128 → EReal :=
  layer (fun k => silu (pre k)) W1 b1

/-- The gate: σ of the message's product with a 128×1 matrix plus a one-entry bias. -/
def gate (m : Fin 128 → EReal) (Winf : Fin 128 → Fin 1 → EReal) (binf : Fin 1 → EReal) : EReal :=
  Ideal.logistic (rowMul m Winf 0 + binf 0)

/-- The gated message. -/
def gated (m : Fin 128 → EReal) (Winf : Fin 128 → Fin 1 → EReal) (binf : Fin 1 → EReal) : Fin 128 → EReal :=
  fun q => m q * gate m Winf binf

/-- A head: two layers, a last product with a 128×4 matrix, tanh. -/
def head (m : Fin 128 → EReal) (W0 : Fin 128 → Fin 128 → EReal) (b0 : Fin 128 → EReal)
    (W1 : Fin 128 → Fin 128 → EReal) (b1 : Fin 128 → EReal) (Wf : Fin 128 → Fin 4 → EReal) : Fin 4 → EReal :=
  fun j => Ideal.tanh (rowMul (layer (layer m W0 b0) W1 b1) Wf j)

/-- The node part's first pre-activation as two partial products and the bias. -/
def npre2 (mi nf : Fin 128 → EReal) (Wm Wf : Fin 128 → Fin 128 → EReal) (b : Fin 128 → EReal) : Fin 128 → EReal :=
  fun q => rowMul mi Wm q + rowMul nf Wf q + b q

/-- The same as ONE product of the stacked row (256 entries) with the stacked weights. -/
def npre1 (hin : Fin 256 → EReal) (W : Fin 256 → Fin 128 → EReal) (b : Fin 128 → EReal) : Fin 128 → EReal :=
  fun q => rowMul hin W q + b q

/-- The node's new features: x · σ(x) of the pre-activation, one more layer, a last affine map, the old features added. -/
def nodeOut (pre : Fin 128 → EReal) (W1 : Fin 128 → Fin 128 → EReal) (b1 : Fin 128 → EReal)
    (W2 : Fin 128 → Fin 128 → EReal) (b2 : Fin 128 → EReal) (nf : Fin 128 → EReal) : Fin 128 → EReal :=
  fun q => rowMul (layer (fun k => silu (pre k)) W1 b1) W2 q + b2 q + nf q

end Egcl

end
-- ==== Proof.Payloads.lean ====
/-
  What the two kernels' bodies leave in their output blocks, row by row.

  Edge kernel: row p of the first output block is the gated message of row p of the three input blocks; row p of the
  second holds, in its first four columns, the head with the x weights and, in its last four, the head with the y
  weights, both of the same message. Node kernel: row p of the output block is the node update of row p of the
  averaged-message block and row p of the feature block.
-/
import proofs.«421440_j51007031607343_3_alg».proof.Proof.Gen.KernelIdeal.Frame
import proofs.«421440_j51007031607343_3_alg».proof.Proof.EgclSpec
import Idealize.ShloMosaic.Lib.ValueIdx
import Idealize.ShloMosaic.Lib.Pipeline.Value

set_option maxRecDepth 16384

noncomputable section

namespace Cert.KernelIdeal.RowSteps

open Idealize.ShloMosaic Idealize.ShloMosaic.ValueIdx Idealize.ShloMosaic.Pipeline RowLayers

/-- The origin of a rank-2 block, as the constant zero offset. -/
theorem hz2 : (![0, 0] : Fin 2 → Nat) = fun _ => 0 := by
  funext a; fin_cases a <;> rfl

/-- The origin of a rank-1 block, as the constant zero offset. -/
theorem hz1 : (![0] : Fin 1 → Nat) = fun _ => 0 := by
  funext a; fin_cases a; rfl

variable {r k n : Nat} {φ φ₁ φ₂ : FTy}

/-- A change of format leaves every row as it was. -/
theorem row_truncf {ψ : FTy} (Y : FVec Ideal ⟨2, ![r, k]⟩ φ) (h : ψ.bits < φ.bits) (p : Fin r) :
    row (truncf ψ Y h : FVec Ideal ⟨2, ![r, k]⟩ ψ) p = row Y p := rfl

/-- A row of x · σ(x) is x · σ(x) of the row. -/
theorem row_silu (Y : FVec Ideal ⟨2, ![r, k]⟩ φ) (p : Fin r) :
    row (mulf Y (logistic Y)) p = fun c => silu (row Y p c) := rfl

/-- A row of σ(x) is σ of the row. -/
theorem row_logistic (Y : FVec Ideal ⟨2, ![r, k]⟩ φ) (p : Fin r) :
    row (logistic Y) p = fun c => Ideal.logistic (row Y p c) := rfl

/-- A row of tanh(x) is tanh of the row. -/
theorem row_tanh (Y : FVec Ideal ⟨2, ![r, k]⟩ φ) (p : Fin r) :
    row (tanh Y) p = fun c => Ideal.tanh (row Y p c) := rfl

/-- A row of a sum is the sum of the rows. -/
theorem row_addf (A B : FVec Ideal ⟨2, ![r, k]⟩ φ) (p : Fin r) :
    row (addf A B) p = fun c => row A p c + row B p c := rfl

/-- A row of an entrywise product is the entrywise product of the rows. -/
theorem row_mulf (A B : FVec Ideal ⟨2, ![r, k]⟩ φ) (p : Fin r) :
    row (mulf A B) p = fun c => row A p c * row B p c := rfl

/-- A row of the product into the zero accumulator is the row times the matrix. -/
theorem row_matmul (d : DotDims ⟨2, ![r, k]⟩ ⟨2, ![k, n]⟩ ⟨2, ![r, n]⟩) (hd : d = DotDims.plain r k n)
    (X : FVec Ideal ⟨2, ![r, k]⟩ φ₁) (W : FVec Ideal ⟨2, ![k, n]⟩ φ₂) (p : Fin r) :
    row (matmul (F := Ideal) d none X W (constant ⟨2, ![r, n]⟩ .f32 0x00000000#32)) p = rowMul (row X p) (mat W) :=
  funext fun q => matmul_row d hd X W p q

/-- Every row of a bias spread over the rows is the bias. -/
theorem row_bias (b : FVec Ideal ⟨1, ![n]⟩ .f32)
    (h1 : (⟨1, ![n]⟩ : Shape).ShapeCasts ⟨2, ![1, n]⟩) (h2 : (⟨2, ![1, n]⟩ : Shape).Broadcasts ⟨2, ![r, n]⟩) (p : Fin r) :
    row (broadcastTo ⟨2, ![r, n]⟩ (shapeCast ⟨2, ![1, n]⟩ b h1) h2) p = vec b :=
  funext fun q => bias_apply b h1 h2 p q

/-- Row p of a column spread over n columns is constant, at the column's entry p. -/
theorem row_column (v : FVec Ideal ⟨2, ![r, 1]⟩ φ) (h : (⟨2, ![r, 1]⟩ : Shape).Broadcasts ⟨2, ![r, n]⟩) (p : Fin r) :
    row (broadcastTo ⟨2, ![r, n]⟩ v h) p = fun _ => row v p (0 : Fin 1) :=
  funext fun q => column_apply v h p q

/-- Two blocks joined along the columns, read in the left part. -/
theorem concat_left_apply {a b c : Nat} (A : FVec Ideal ⟨2, ![r, a]⟩ φ) (B : FVec Ideal ⟨2, ![r, b]⟩ φ)
    (h : Shape.Concatenates [⟨2, ![r, a]⟩, ⟨2, ![r, b]⟩] ⟨2, ![r, c]⟩ 1) (p : Fin r) (j : Fin a) (j' : Fin c)
    (hj : j.val = j'.val) :
    concatenate ⟨2, ![r, c]⟩ 1 [⟨⟨2, ![r, a]⟩, A⟩, ⟨⟨2, ![r, b]⟩, B⟩] h (ix2 p j') = row A p j :=
  concatenate_pair_apply_left 1 A B h (ix2 p j') rfl (ix2 p j) fun x =>
    match x with
    | ⟨0, _⟩ => rfl
    | ⟨1, _⟩ => hj

/-- Two blocks joined along the columns, read in the right part. -/
theorem concat_right_apply {a b c : Nat} (A : FVec Ideal ⟨2, ![r, a]⟩ φ) (B : FVec Ideal ⟨2, ![r, b]⟩ φ)
    (h : Shape.Concatenates [⟨2, ![r, a]⟩, ⟨2, ![r, b]⟩] ⟨2, ![r, c]⟩ 1) (p : Fin r) (j : Fin b) (j' : Fin c)
    (hj : j.val + a = j'.val) :
    concatenate ⟨2, ![r, c]⟩ 1 [⟨⟨2, ![r, a]⟩, A⟩, ⟨⟨2, ![r, b]⟩, B⟩] h (ix2 p j') = row B p j :=
  concatenate_pair_apply_right 1 A B h (ix2 p j') rfl rfl (ix2 p j)
    (fun x hx =>
      match x, hx with
      | ⟨0, _⟩, _ => rfl
      | ⟨1, _⟩, hx => absurd rfl hx)
    hj

end Cert.KernelIdeal.RowSteps

namespace Cert.KernelIdeal.EdgeRows

open Cert.KernelIdeal Cert.KernelIdeal.Gen Idealize.ShloMosaic Idealize.ShloMosaic.ValueIdx Idealize.ShloMosaic.Pipeline RowLayers Egcl RowSteps

/-- The message: the three partial products and the bias, x · σ(x), one more layer. -/
theorem k0_pay2_row (v0 v3 : Vec Ideal S4000x128 .f32) (v6 : Vec Ideal S4000x8 .f32) (v9 v12 : Vec Ideal S128x128 .bf16) (v16 : Vec Ideal S8x128 .bf16) (v20 : Vec Ideal S128 .f32) (v27 : Vec Ideal S128x128 .bf16) (v30 : Vec Ideal S128 .f32) (p : Fin 4000) :
    row (k0_pay2 (F := Ideal) v0 v3 v6 v9 v12 v16 v20 v27 v30) p
      = msg (pre3 (row v0 p) (row v3 p) (row v6 p) (mat v9) (mat v12) (mat v16) (vec v20)) (mat v27) (vec v30) := by
  unfold k0_pay2
  simp only [shapeCast_self, row_addf, row_silu, row_truncf, row_bias,
    row_matmul dot_S4000x128_S128x128_S4000x128_1_0_0_1_n_n rfl,
    row_matmul dot_S4000x8_S8x128_S4000x128_1_0_0_1_n_n rfl]
  rfl

/-- The message in the narrower format: the same rows. -/
theorem k0_pay3_row (v0 v3 : Vec Ideal S4000x128 .f32) (v6 : Vec Ideal S4000x8 .f32) (v9 v12 : Vec Ideal S128x128 .bf16) (v16 : Vec Ideal S8x128 .bf16) (v20 : Vec Ideal S128 .f32) (v27 : Vec Ideal S128x128 .bf16) (v30 : Vec Ideal S128 .f32) (p : Fin 4000) :
    row (k0_pay3 (F := Ideal) v0 v3 v6 v9 v12 v16 v20 v27 v30) p
      = row (k0_pay2 (F := Ideal) v0 v3 v6 v9 v12 v16 v20 v27 v30) p := rfl

/-- The gated message: each entry of the message's row times σ of the row's product with the 128×1 matrix plus the
    one-entry bias. -/
theorem k0_pay4_row (v35 : FVec Ideal S4000x128 .f32) (v36 : FVec Ideal S4000x128 .bf16) (v37 : Vec Ideal S128x1 .bf16) (v40 : Vec Ideal S1 .f32) (p : Fin 4000) :
    row (k0_pay4 (F := Ideal) v35 v36 v37 v40) p
      = fun q => row v35 p q * Ideal.logistic (rowMul (row v36 p) (mat v37) 0 + vec v40 0) := by
  unfold k0_pay4
  simp only [shapeCast_self, row_truncf, row_mulf, row_column, row_logistic, row_addf, row_bias,
    row_matmul dot_S4000x128_S128x1_S4000x1_1_0_0_1_n_n rfl]

/-- A head: two layers, the product with the 128×4 matrix, tanh. -/
theorem k0_pay5_row (v35 : FVec Ideal S4000x128 .f32) (v50 : Vec Ideal S128x128 .bf16) (v53 : Vec Ideal S128 .f32) (v60 : Vec Ideal S128x128 .bf16) (v63 : Vec Ideal S128 .f32) (v70 : Vec Ideal S128x4 .bf16) (p : Fin 4000) :
    row (k0_pay5 (F := Ideal) v35 v50 v53 v60 v63 v70) p
      = head (row v35 p) (mat v50) (vec v53) (mat v60) (vec v63) (mat v70) := by
  unfold k0_pay5
  simp only [shapeCast_self, row_tanh, row_addf, row_silu, row_truncf, row_bias,
    row_matmul dot_S4000x128_S128x128_S4000x128_1_0_0_1_n_n rfl,
    row_matmul dot_S4000x128_S128x4_S4000x4_1_0_0_1_n_n rfl]
  rfl

/-- The first product of the other head. -/
theorem k0_pay6_row (v35 : FVec Ideal S4000x128 .f32) (v75 : Vec Ideal S128x128 .bf16) (p : Fin 4000) :
    row (k0_pay6 (F := Ideal) v35 v75) p = rowMul (row v35 p) (mat v75) := by
  unfold k0_pay6
  simp only [shapeCast_self, row_truncf, row_matmul dot_S4000x128_S128x128_S4000x128_1_0_0_1_n_n rfl]

/-- The joined block, left four columns: the first head as it came. -/
theorem k0_pay1_left (v73 : FVec Ideal S4000x4 .f32) (v77 : FVec Ideal S4000x128 .f32) (v78 : Vec Ideal S128 .f32) (v85 : Vec Ideal S128x128 .bf16) (v88 : Vec Ideal S128 .f32) (v95 : Vec Ideal S128x4 .bf16) (p : Fin 4000) (j : Fin 4) :
    k0_pay1 (F := Ideal) v73 v77 v78 v85 v88 v95 (ix2 p (Fin.castAdd 4 j)) = row v73 p j := by
  unfold k0_pay1
  exact concat_left_apply _ _ concatenates_S4000x4_S4000x4_S4000x8_d1 p j (Fin.castAdd 4 j) rfl

/-- The joined block, right four columns: the rest of the other head from its first product. -/
theorem k0_pay1_right (v73 : FVec Ideal S4000x4 .f32) (v77 : FVec Ideal S4000x128 .f32) (v78 : Vec Ideal S128 .f32) (v85 : Vec Ideal S128x128 .bf16) (v88 : Vec Ideal S128 .f32) (v95 : Vec Ideal S128x4 .bf16) (p : Fin 4000) (j : Fin 4) :
    k0_pay1 (F := Ideal) v73 v77 v78 v85 v88 v95 (ix2 p (Fin.natAdd 4 j))
      = Ideal.tanh (rowMul (layer (fun c => silu (row v77 p c + vec v78 c)) (mat v85) (vec v88)) (mat v95) j) := by
  unfold k0_pay1
  rw [concat_right_apply _ _ concatenates_S4000x4_S4000x4_S4000x8_d1 p j (Fin.natAdd 4 j) (Nat.add_comm _ _)]
  simp only [shapeCast_self, row_tanh, row_addf, row_silu, row_truncf, row_bias,
    row_matmul dot_S4000x128_S128x128_S4000x128_1_0_0_1_n_n rfl,
    row_matmul dot_S4000x128_S128x4_S4000x4_1_0_0_1_n_n rfl]
  rfl

/-- Row p of the first output block: the gated message. -/
theorem out0_21_row (x0 x1 : Vec Ideal S4000x128 .f32) (x2 : Vec Ideal S4000x8 .f32) (x3 x4 : Vec Ideal S128x128 .bf16) (x5 : Vec Ideal S8x128 .bf16) (x6 : Vec Ideal S128 .f32) (x7 : Vec Ideal S128x128 .bf16) (x8 : Vec Ideal S128 .f32) (x9 : Vec Ideal S128x1 .bf16) (x10 : Vec Ideal S1 .f32) (x11 : Vec Ideal S128x128 .bf16) (x12 : Vec Ideal S128 .f32) (x13 : Vec Ideal S128x128 .bf16) (x14 : Vec Ideal S128 .f32) (x15 : Vec Ideal S128x4 .bf16) (x16 : Vec Ideal S128x128 .bf16) (x17 : Vec Ideal S128 .f32) (x18 : Vec Ideal S128x128 .bf16) (x19 : Vec Ideal S128 .f32) (x20 : Vec Ideal S128x4 .bf16) (p : Fin 4000) :
    row (out0_21 (F := Ideal) x0 x1 x2 x3 x4 x5 x6 x7 x8 x9 x10 x11 x12 x13 x14 x15 x16 x17 x18 x19 x20) p
      = gated (msg (pre3 (row x0 p) (row x1 p) (row x2 p) (mat x3) (mat x4) (mat x5) (vec x6)) (mat x7) (vec x8)) (mat x9) (vec x10) := by
  unfold out0_21
  rw [View.canon_unit_zero hz2]
  simp only [View.ld_unit_zero (S := S4000x128) hz2, View.ld_unit_zero (S := S4000x8) hz2,
    View.ld_unit_zero (S := S128x128) hz2, View.ld_unit_zero (S := S8x128) hz2, View.ld_unit_zero (S := S128) hz1,
    View.ld_unit_zero (S := S128x1) hz2, View.ld_unit_zero (S := S1) hz1]
  rw [k0_pay4_row, k0_pay3_row, k0_pay2_row]
  rfl

/-- Row p of the second output block, first four columns: the head with the x weights. -/
theorem out0_22_left (x0 x1 : Vec Ideal S4000x128 .f32) (x2 : Vec Ideal S4000x8 .f32) (x3 x4 : Vec Ideal S128x128 .bf16) (x5 : Vec Ideal S8x128 .bf16) (x6 : Vec Ideal S128 .f32) (x7 : Vec Ideal S128x128 .bf16) (x8 : Vec Ideal S128 .f32) (x9 : Vec Ideal S128x1 .bf16) (x10 : Vec Ideal S1 .f32) (x11 : Vec Ideal S128x128 .bf16) (x12 : Vec Ideal S128 .f32) (x13 : Vec Ideal S128x128 .bf16) (x14 : Vec Ideal S128 .f32) (x15 : Vec Ideal S128x4 .bf16) (x16 : Vec Ideal S128x128 .bf16) (x17 : Vec Ideal S128 .f32) (x18 : Vec Ideal S128x128 .bf16) (x19 : Vec Ideal S128 .f32) (x20 : Vec Ideal S128x4 .bf16) (p : Fin 4000) (j : Fin 4) :
    out0_22 (F := Ideal) x0 x1 x2 x3 x4 x5 x6 x7 x8 x9 x10 x11 x12 x13 x14 x15 x16 x17 x18 x19 x20 (ix2 p (Fin.castAdd 4 j))
      = head (msg (pre3 (row x0 p) (row x1 p) (row x2 p) (mat x3) (mat x4) (mat x5) (vec x6)) (mat x7) (vec x8)) (mat x11) (vec x12) (mat x13) (vec x14) (mat x15) j := by
  unfold out0_22
  rw [View.canon_unit_zero hz2]
  simp only [View.ld_unit_zero (S := S4000x128) hz2, View.ld_unit_zero (S := S4000x8) hz2,
    View.ld_unit_zero (S := S128x128) hz2, View.ld_unit_zero (S := S8x128) hz2, View.ld_unit_zero (S := S128) hz1,
    View.ld_unit_zero (S := S128x4) hz2]
  rw [k0_pay1_left, k0_pay5_row, k0_pay2_row]

/-- Row p of the second output block, last four columns: the head with the y weights. -/
theorem out0_22_right (x0 x1 : Vec Ideal S4000x128 .f32) (x2 : Vec Ideal S4000x8 .f32) (x3 x4 : Vec Ideal S128x128 .bf16) (x5 : Vec Ideal S8x128 .bf16) (x6 : Vec Ideal S128 .f32) (x7 : Vec Ideal S128x128 .bf16) (x8 : Vec Ideal S128 .f32) (x9 : Vec Ideal S128x1 .bf16) (x10 : Vec Ideal S1 .f32) (x11 : Vec Ideal S128x128 .bf16) (x12 : Vec Ideal S128 .f32) (x13 : Vec Ideal S128x128 .bf16) (x14 : Vec Ideal S128 .f32) (x15 : Vec Ideal S128x4 .bf16) (x16 : Vec Ideal S128x128 .bf16) (x17 : Vec Ideal S128 .f32) (x18 : Vec Ideal S128x128 .bf16) (x19 : Vec Ideal S128 .f32) (x20 : Vec Ideal S128x4 .bf16) (p : Fin 4000) (j : Fin 4) :
    out0_22 (F := Ideal) x0 x1 x2 x3 x4 x5 x6 x7 x8 x9 x10 x11 x12 x13 x14 x15 x16 x17 x18 x19 x20 (ix2 p (Fin.natAdd 4 j))
      = head (msg (pre3 (row x0 p) (row x1 p) (row x2 p) (mat x3) (mat x4) (mat x5) (vec x6)) (mat x7) (vec x8)) (mat x16) (vec x17) (mat x18) (vec x19) (mat x20) j := by
  unfold out0_22
  rw [View.canon_unit_zero hz2]
  simp only [View.ld_unit_zero (S := S4000x128) hz2, View.ld_unit_zero (S := S4000x8) hz2,
    View.ld_unit_zero (S := S128x128) hz2, View.ld_unit_zero (S := S8x128) hz2, View.ld_unit_zero (S := S128) hz1,
    View.ld_unit_zero (S := S128x4) hz2]
  rw [k0_pay1_right, k0_pay6_row, k0_pay2_row]
  rfl

end Cert.KernelIdeal.EdgeRows

namespace Cert.KernelIdeal.NodeRows

open Cert.KernelIdeal Cert.KernelIdeal.Gen Idealize.ShloMosaic Idealize.ShloMosaic.ValueIdx Idealize.ShloMosaic.Pipeline RowLayers Egcl RowSteps

/-- The node update: the two partial products and the bias, x · σ(x), one more layer, a last affine map, the old
    features added. -/
theorem k1_pay1_row (v0 v3 : Vec Ideal S2000x128 .f32) (v5 v8 : Vec Ideal S128x128 .bf16) (v12 : Vec Ideal S128 .f32) (v19 : Vec Ideal S128x128 .bf16) (v22 : Vec Ideal S128 .f32) (v29 : Vec Ideal S128x128 .bf16) (v32 : Vec Ideal S128 .f32) (p : Fin 2000) :
    row (k1_pay1 (F := Ideal) v0 v3 v5 v8 v12 v19 v22 v29 v32) p
      = nodeOut (npre2 (row v0 p) (row v3 p) (mat v5) (mat v8) (vec v12)) (mat v19) (vec v22) (mat v29) (vec v32) (row v3 p) := by
  unfold k1_pay1
  simp only [shapeCast_self, row_addf, row_silu, row_truncf, row_bias,
    row_matmul dot_S2000x128_S128x128_S2000x128_1_0_0_1_n_n rfl]
  rfl

/-- Row p of the output block: the node's new features. -/
theorem out1_9_row (x0 x1 : Vec Ideal S2000x128 .f32) (x2 x3 : Vec Ideal S128x128 .bf16) (x4 : Vec Ideal S128 .f32) (x5 : Vec Ideal S128x128 .bf16) (x6 : Vec Ideal S128 .f32) (x7 : Vec Ideal S128x128 .bf16) (x8 : Vec Ideal S128 .f32) (p : Fin 2000) :
    row (out1_9 (F := Ideal) x0 x1 x2 x3 x4 x5 x6 x7 x8) p
      = nodeOut (npre2 (row x0 p) (row x1 p) (mat x2) (mat x3) (vec x4)) (mat x5) (vec x6) (mat x7) (vec x8) (row x1 p) := by
  unfold out1_9
  rw [View.canon_unit_zero hz2]
  simp only [View.ld_unit_zero (S := S2000x128) hz2, View.ld_unit_zero (S := S128x128) hz2,
    View.ld_unit_zero (S := S128) hz1]
  exact k1_pay1_row x0 x1 x2 x3 x4 x5 x6 x7 x8 p

end Cert.KernelIdeal.NodeRows

end
-- ==== Proof.EdgeArray.lean ====
/-
  The two arrays the edge region writes, whole: every row of the first is the gated message of that edge, every row of
  the second the two heads' coefficients, as functions of the arrays the region finds when it is entered. Each grid
  point's block is rows 4000·t … 4000·t + 3999, and the eighty blocks cover the 320000 rows.
-/
import proofs.«421440_j51007031607343_3_alg».proof.Proof.Gen.KernelIdeal.Frame
import proofs.«421440_j51007031607343_3_alg».proof.Proof.EgclSpec
import proofs.«421440_j51007031607343_3_alg».proof.Proof.Payloads

set_option maxRecDepth 16384

noncomputable section

namespace Cert.KernelIdeal.EdgeArray

open Cert.KernelIdeal Cert.KernelIdeal.Gen Idealize.ShloMosaic Idealize.ShloMosaic.TcCoe Idealize.ShloMosaic.ValueIdx Idealize.SL.Sem RowLayers Egcl

variable (V : (c : Dev nD) → (b : Ref sig .tc) → Buf (Elt Ideal) ((c : Thread nD τ).loc b))

/-- The message of edge e, from the arrays the region finds. -/
def msgAt (c : Dev nD) (e : Fin 320000) : Fin 128 → EReal :=
  msg (pre3 (row (V c main_v56) e) (row (V c main_v63) e) (row (V c main_v66) e) (mat (V c main_v70)) (mat (V c main_v71))
    (mat (V c main_v72)) (vec (V c main_arg6))) (mat (V c main_v73)) (vec (V c main_arg8))

/-- The first output array: the gated messages. -/
def G21 (c : Dev nD) : S320000x128.Idx → EReal := fun i =>
  gated (msgAt V c (i 0)) (mat (V c main_v74)) (vec (V c main_arg10)) (i 1)

/-- The second output array: four x coefficients, then four y coefficients. -/
def G22 (c : Dev nD) : S320000x8.Idx → EReal := fun i =>
  Fin.append (head (msgAt V c (i 0)) (mat (V c main_v75)) (vec (V c main_arg12)) (mat (V c main_v76)) (vec (V c main_arg14)) (mat (V c main_v77)))
    (head (msgAt V c (i 0)) (mat (V c main_v78)) (vec (V c main_arg17)) (mat (V c main_v79)) (vec (V c main_arg19)) (mat (V c main_v80))) (i 1)

/-! ## The two arrays at a row and a column -/

/-- Row e of the first array is the gated message of edge e. -/
theorem G21_apply (c : Dev nD) (e : Fin 320000) (q : Fin 128) :
    G21 V c (ix2 e q) = gated (msgAt V c e) (mat (V c main_v74)) (vec (V c main_arg10)) q := rfl

/-- Row e of the second array, first four columns: the head with the x weights. -/
theorem G22_left (c : Dev nD) (e : Fin 320000) (j : Fin 4) :
    G22 V c (ix2 e (Fin.castAdd 4 j))
      = head (msgAt V c e) (mat (V c main_v75)) (vec (V c main_arg12)) (mat (V c main_v76)) (vec (V c main_arg14)) (mat (V c main_v77)) j := by
  unfold G22
  exact Fin.append_left _ _ j

/-- Row e of the second array, last four columns: the head with the y weights. -/
theorem G22_right (c : Dev nD) (e : Fin 320000) (j : Fin 4) :
    G22 V c (ix2 e (Fin.natAdd 4 j))
      = head (msgAt V c e) (mat (V c main_v78)) (vec (V c main_arg17)) (mat (V c main_v79)) (vec (V c main_arg19)) (mat (V c main_v80)) j := by
  unfold G22
  exact Fin.append_right _ _ j

/-- A column of the eight is one of the first four or one of the last four. -/
theorem col_cases (q : Fin 8) : (∃ j : Fin 4, q = Fin.castAdd 4 j) ∨ (∃ j : Fin 4, q = Fin.natAdd 4 j) := by
  by_cases h : q.val < 4
  · exact .inl ⟨⟨q.val, h⟩, Fin.ext rfl⟩
  · exact .inr ⟨⟨q.val - 4, by omega⟩, Fin.ext (by show q.val = 4 + (q.val - 4); omega)⟩

/-! ## The row windows: block t is rows 4000·t … 4000·t + 3999 -/

/-- Row p of point t's block is row 4000·t + p, a row of the array: 4000·79 + 3999 < 320000. -/
theorem point_lt (t : Fin cfg0.N) (p : Fin 4000) : 4000 * t.val + p.val < 320000 := by
  have h1 : t.val < 80 := t.isLt
  have h2 := p.isLt
  omega

/-- The edge that row p of point t's blocks belongs to. -/
def edgeOf (t : Fin cfg0.N) (p : Fin 4000) : Fin 320000 := ⟨4000 * t.val + p.val, point_lt t p⟩

/-- The sender-feature window's block, element by element. -/
theorem blk0_read (c : Dev nD) (t : Fin cfg0.N) (p : Fin 4000) (k : Fin 128) :
    iblk0 V c 0 t (ix2 p k) = V c main_v56 (ix2 (edgeOf t p) k) := by
  obtain ⟨e0, e1⟩ := (by decide +kernel : ∀ t : Fin grid0.N, win0_0.index t (0 : Fin 2) = t.val ∧ win0_0.index t (1 : Fin 2) = 0) t
  unfold iblk0
  rw [View.read_apply]
  show V c main_v56 _ = V c main_v56 _
  congr 1
  funext a
  apply Fin.ext
  match a with
  | ⟨0, _⟩ => show win0_0.index t (0 : Fin 2) * 4000 + 1 * p.val = 4000 * t.val + p.val; rw [e0]; omega
  | ⟨1, _⟩ => show win0_0.index t (1 : Fin 2) * 128 + 1 * k.val = k.val; rw [e1]; omega

/-- The receiver-feature window's block, element by element. -/
theorem blk1_read (c : Dev nD) (t : Fin cfg0.N) (p : Fin 4000) (k : Fin 128) :
    iblk0 V c 1 t (ix2 p k) = V c main_v63 (ix2 (edgeOf t p) k) := by
  obtain ⟨e0, e1⟩ := (by decide +kernel : ∀ t : Fin grid0.N, win0_1.index t (0 : Fin 2) = t.val ∧ win0_1.index t (1 : Fin 2) = 0) t
  unfold iblk0
  rw [View.read_apply]
  show V c main_v63 _ = V c main_v63 _
  congr 1
  funext a
  apply Fin.ext
  match a with
  | ⟨0, _⟩ => show win0_1.index t (0 : Fin 2) * 4000 + 1 * p.val = 4000 * t.val + p.val; rw [e0]; omega
  | ⟨1, _⟩ => show win0_1.index t (1 : Fin 2) * 128 + 1 * k.val = k.val; rw [e1]; omega

/-- The third row window's block (eight columns), element by element. -/
theorem blk2_read (c : Dev nD) (t : Fin cfg0.N) (p : Fin 4000) (k : Fin 8) :
    iblk0 V c 2 t (ix2 p k) = V c main_v66 (ix2 (edgeOf t p) k) := by
  obtain ⟨e0, e1⟩ := (by decide +kernel : ∀ t : Fin grid0.N, win0_2.index t (0 : Fin 2) = t.val ∧ win0_2.index t (1 : Fin 2) = 0) t
  unfold iblk0
  rw [View.read_apply]
  show V c main_v66 _ = V c main_v66 _
  congr 1
  funext a
  apply Fin.ext
  match a with
  | ⟨0, _⟩ => show win0_2.index t (0 : Fin 2) * 4000 + 1 * p.val = 4000 * t.val + p.val; rw [e0]; omega
  | ⟨1, _⟩ => show win0_2.index t (1 : Fin 2) * 8 + 1 * k.val = k.val; rw [e1]; omega

theorem row0_read (c : Dev nD) (t : Fin cfg0.N) (p : Fin 4000) :
    row (iblk0 V c 0 t : Vec Ideal S4000x128 .f32) p = row (V c main_v56) (edgeOf t p) := funext fun k => blk0_read V c t p k

theorem row1_read (c : Dev nD) (t : Fin cfg0.N) (p : Fin 4000) :
    row (iblk0 V c 1 t : Vec Ideal S4000x128 .f32) p = row (V c main_v63) (edgeOf t p) := funext fun k => blk1_read V c t p k

theorem row2_read (c : Dev nD) (t : Fin cfg0.N) (p : Fin 4000) :
    row (iblk0 V c 2 t : Vec Ideal S4000x8 .f32) p = row (V c main_v66) (edgeOf t p) := funext fun k => blk2_read V c t p k

/-! ## The weight and bias windows: the one block is the whole array -/

/-- Block indices that are all zero give offsets that are all zero. -/
theorem zero_offsets {r : Nat} (idx sz : Fin r → Nat) (h : ∀ a, idx a = 0) : (fun a => idx a * sz a) = fun _ => 0 :=
  funext fun a => by rw [h a, Nat.zero_mul]

theorem blk3_read (c : Dev nD) (t : Fin cfg0.N) : (iblk0 V c 3 t : Vec Ideal S128x128 .bf16) = V c main_v70 :=
  Memref.read_access_unit_zero (Elt Ideal) main_v70
    (zero_offsets _ _ ((by decide +kernel : ∀ t : Fin grid0.N, ∀ a, win0_3.index t a = 0) t)) _ (V c main_v70)

theorem blk4_read (c : Dev nD) (t : Fin cfg0.N) : (iblk0 V c 4 t : Vec Ideal S128x128 .bf16) = V c main_v71 :=
  Memref.read_access_unit_zero (Elt Ideal) main_v71
    (zero_offsets _ _ ((by decide +kernel : ∀ t : Fin grid0.N, ∀ a, win0_4.index t a = 0) t)) _ (V c main_v71)

theorem blk5_read (c : Dev nD) (t : Fin cfg0.N) : (iblk0 V c 5 t : Vec Ideal S8x128 .bf16) = V c main_v72 :=
  Memref.read_access_unit_zero (Elt Ideal) main_v72
    (zero_offsets _ _ ((by decide +kernel : ∀ t : Fin grid0.N, ∀ a, win0_5.index t a = 0) t)) _ (V c main_v72)

theorem blk6_read (c : Dev nD) (t : Fin cfg0.N) : (iblk0 V c 6 t : Vec Ideal S128 .f32) = V c main_arg6 :=
  Memref.read_access_unit_zero (Elt Ideal) main_arg6
    (zero_offsets _ _ ((by decide +kernel : ∀ t : Fin grid0.N, ∀ a, win0_6.index t a = 0) t)) _ (V c main_arg6)

theorem blk7_read (c : Dev nD) (t : Fin cfg0.N) : (iblk0 V c 7 t : Vec Ideal S128x128 .bf16) = V c main_v73 :=
  Memref.read_access_unit_zero (Elt Ideal) main_v73
    (zero_offsets _ _ ((by decide +kernel : ∀ t : Fin grid0.N, ∀ a, win0_7.index t a = 0) t)) _ (V c main_v73)

theorem blk8_read (c : Dev nD) (t : Fin cfg0.N) : (iblk0 V c 8 t : Vec Ideal S128 .f32) = V c main_arg8 :=
  Memref.read_access_unit_zero (Elt Ideal) main_arg8
    (zero_offsets _ _ ((by decide +kernel : ∀ t : Fin grid0.N, ∀ a, win0_8.index t a = 0) t)) _ (V c main_arg8)

theorem blk9_read (c : Dev nD) (t : Fin cfg0.N) : (iblk0 V c 9 t : Vec Ideal S128x1 .bf16) = V c main_v74 :=
  Memref.read_access_unit_zero (Elt Ideal) main_v74
    (zero_offsets _ _ ((by decide +kernel : ∀ t : Fin grid0.N, ∀ a, win0_9.index t a = 0) t)) _ (V c main_v74)

theorem blk10_read (c : Dev nD) (t : Fin cfg0.N) : (iblk0 V c 10 t : Vec Ideal S1 .f32) = V c main_arg10 :=
  Memref.read_access_unit_zero (Elt Ideal) main_arg10
    (zero_offsets _ _ ((by decide +kernel : ∀ t : Fin grid0.N, ∀ a, win0_10.index t a = 0) t)) _ (V c main_arg10)

theorem blk11_read (c : Dev nD) (t : Fin cfg0.N) : (iblk0 V c 11 t : Vec Ideal S128x128 .bf16) = V c main_v75 :=
  Memref.read_access_unit_zero (Elt Ideal) main_v75
    (zero_offsets _ _ ((by decide +kernel : ∀ t : Fin grid0.N, ∀ a, win0_11.index t a = 0) t)) _ (V c main_v75)

theorem blk12_read (c : Dev nD) (t : Fin cfg0.N) : (iblk0 V c 12 t : Vec Ideal S128 .f32) = V c main_arg12 :=
  Memref.read_access_unit_zero (Elt Ideal) main_arg12
    (zero_offsets _ _ ((by decide +kernel : ∀ t : Fin grid0.N, ∀ a, win0_12.index t a = 0) t)) _ (V c main_arg12)

theorem blk13_read (c : Dev nD) (t : Fin cfg0.N) : (iblk0 V c 13 t : Vec Ideal S128x128 .bf16) = V c main_v76 :=
  Memref.read_access_unit_zero (Elt Ideal) main_v76
    (zero_offsets _ _ ((by decide +kernel : ∀ t : Fin grid0.N, ∀ a, win0_13.index t a = 0) t)) _ (V c main_v76)

theorem blk14_read (c : Dev nD) (t : Fin cfg0.N) : (iblk0 V c 14 t : Vec Ideal S128 .f32) = V c main_arg14 :=
  Memref.read_access_unit_zero (Elt Ideal) main_arg14
    (zero_offsets _ _ ((by decide +kernel : ∀ t : Fin grid0.N, ∀ a, win0_14.index t a = 0) t)) _ (V c main_arg14)

theorem blk15_read (c : Dev nD) (t : Fin cfg0.N) : (iblk0 V c 15 t : Vec Ideal S128x4 .bf16) = V c main_v77 :=
  Memref.read_access_unit_zero (Elt Ideal) main_v77
    (zero_offsets _ _ ((by decide +kernel : ∀ t : Fin grid0.N, ∀ a, win0_15.index t a = 0) t)) _ (V c main_v77)

theorem blk16_read (c : Dev nD) (t : Fin cfg0.N) : (iblk0 V c 16 t : Vec Ideal S128x128 .bf16) = V c main_v78 :=
  Memref.read_access_unit_zero (Elt Ideal) main_v78
    (zero_offsets _ _ ((by decide +kernel : ∀ t : Fin grid0.N, ∀ a, win0_16.index t a = 0) t)) _ (V c main_v78)

theorem blk17_read (c : Dev nD) (t : Fin cfg0.N) : (iblk0 V c 17 t : Vec Ideal S128 .f32) = V c main_arg17 :=
  Memref.read_access_unit_zero (Elt Ideal) main_arg17
    (zero_offsets _ _ ((by decide +kernel : ∀ t : Fin grid0.N, ∀ a, win0_17.index t a = 0) t)) _ (V c main_arg17)

theorem blk18_read (c : Dev nD) (t : Fin cfg0.N) : (iblk0 V c 18 t : Vec Ideal S128x128 .bf16) = V c main_v79 :=
  Memref.read_access_unit_zero (Elt Ideal) main_v79
    (zero_offsets _ _ ((by decide +kernel : ∀ t : Fin grid0.N, ∀ a, win0_18.index t a = 0) t)) _ (V c main_v79)

theorem blk19_read (c : Dev nD) (t : Fin cfg0.N) : (iblk0 V c 19 t : Vec Ideal S128 .f32) = V c main_arg19 :=
  Memref.read_access_unit_zero (Elt Ideal) main_arg19
    (zero_offsets _ _ ((by decide +kernel : ∀ t : Fin grid0.N, ∀ a, win0_19.index t a = 0) t)) _ (V c main_arg19)

theorem blk20_read (c : Dev nD) (t : Fin cfg0.N) : (iblk0 V c 20 t : Vec Ideal S128x4 .bf16) = V c main_v80 :=
  Memref.read_access_unit_zero (Elt Ideal) main_v80
    (zero_offsets _ _ ((by decide +kernel : ∀ t : Fin grid0.N, ∀ a, win0_20.index t a = 0) t)) _ (V c main_v80)

/-! ## What a point writes back -/

/-- The index maps of the two output windows over the grid: block (t, 0). -/
theorem idx21 : ∀ t : Fin cfg0.N, win0_21.index t (0 : Fin 2) = t.val ∧ win0_21.index t (1 : Fin 2) = 0 :=
  (by decide +kernel : ∀ t : Fin grid0.N, _)

theorem idx22 : ∀ t : Fin cfg0.N, win0_22.index t (0 : Fin 2) = t.val ∧ win0_22.index t (1 : Fin 2) = 0 :=
  (by decide +kernel : ∀ t : Fin grid0.N, _)

/-- The rows tile the array, so the transfer moves the whole staging block. -/
theorem cut21_apply (t : Fin cfg0.N) (X : Vec Ideal S4000x128 .bf16) (p : Fin 4000) (q : Fin 128) :
    (cfg0.win 21).cut (grid0.coords t) X (ix2 p q) = row X p q := rfl

theorem cut22_apply (t : Fin cfg0.N) (X : Vec Ideal S4000x8 .f32) (p : Fin 4000) (q : Fin 8) :
    (cfg0.win 22).cut (grid0.coords t) X (ix2 p q) = X (ix2 p q) := rfl

/-- Row p of point t's output block sits at row 4000·t + p of the array. -/
theorem emb21 (t : Fin cfg0.N) (p : Fin 4000) (q : Fin 128) :
    ((cfg0.win 21).blk t).view.emb (ix2 p q) = ix2 (edgeOf t p) q := by
  obtain ⟨e0, e1⟩ := idx21 t
  funext a
  apply Fin.ext
  match a with
  | ⟨0, _⟩ => show win0_21.index t (0 : Fin 2) * 4000 + 1 * p.val = 4000 * t.val + p.val; rw [e0]; omega
  | ⟨1, _⟩ => show win0_21.index t (1 : Fin 2) * 128 + 1 * q.val = q.val; rw [e1]; omega

theorem emb22 (t : Fin cfg0.N) (p : Fin 4000) (q : Fin 8) :
    ((cfg0.win 22).blk t).view.emb (ix2 p q) = ix2 (edgeOf t p) q := by
  obtain ⟨e0, e1⟩ := idx22 t
  funext a
  apply Fin.ext
  match a with
  | ⟨0, _⟩ => show win0_22.index t (0 : Fin 2) * 4000 + 1 * p.val = 4000 * t.val + p.val; rw [e0]; omega
  | ⟨1, _⟩ => show win0_22.index t (1 : Fin 2) * 8 + 1 * q.val = q.val; rw [e1]; omega

/-- Point t writes back block t of the gated messages: row p of the body's block is the gated message of the rows p of
    the three row blocks, which are rows 4000·t + p of their arrays. -/
theorem flushed21_eq (c : Dev nD) (t : Fin cfg0.N) :
    (dat0 (F := Ideal) V c).flushed 21 t = ((cfg0.win 21).blk t).view.read (Elt Ideal) (G21 V c) := by
  show (cfg0.win 21).cut (grid0.coords t) ((dat0 V c).after 21 t) = _
  rw [after0_21]
  funext j
  obtain ⟨p, q, rfl⟩ : ∃ (p : Fin 4000) (q : Fin 128), j = ix2 p q := ⟨j 0, j 1, eq_ix2 j⟩
  refine (cut21_apply t _ p q).trans ?_
  refine (congrFun (EdgeRows.out0_21_row (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) p) q).trans ?_
  rw [View.read_apply]
  show _ = G21 V c (((cfg0.win 21).blk t).view.emb (ix2 p q))
  rw [emb21, G21_apply, row0_read, row1_read, row2_read, blk3_read, blk4_read, blk5_read, blk6_read, blk7_read, blk8_read,
    blk9_read, blk10_read]
  rfl

/-- Point t writes back block t of the coefficients: the first four columns of row p by the head with the x weights,
    the last four by the head with the y weights, of the same message. -/
theorem flushed22_eq (c : Dev nD) (t : Fin cfg0.N) :
    (dat0 (F := Ideal) V c).flushed 22 t = ((cfg0.win 22).blk t).view.read (Elt Ideal) (G22 V c) := by
  show (cfg0.win 22).cut (grid0.coords t) ((dat0 V c).after 22 t) = _
  rw [after0_22]
  funext j
  obtain ⟨p, q, rfl⟩ : ∃ (p : Fin 4000) (q : Fin 8), j = ix2 p q := ⟨j 0, j 1, eq_ix2 j⟩
  refine (cut22_apply t _ p q).trans ?_
  rw [View.read_apply]
  show _ = G22 V c (((cfg0.win 22).blk t).view.emb (ix2 p q))
  rw [emb22]
  obtain ⟨j, rfl⟩ | ⟨j, rfl⟩ := col_cases q
  · refine (EdgeRows.out0_22_left (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) p j).trans ?_
    rw [G22_left, row0_read, row1_read, row2_read, blk3_read, blk4_read, blk5_read, blk6_read, blk7_read, blk8_read,
      blk11_read, blk12_read, blk13_read, blk14_read, blk15_read]
    rfl
  · refine (EdgeRows.out0_22_right (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) p j).trans ?_
    rw [G22_right, row0_read, row1_read, row2_read, blk3_read, blk4_read, blk5_read, blk6_read, blk7_read, blk8_read,
      blk16_read, blk17_read, blk18_read, blk19_read, blk20_read]
    rfl

/-! ## The blocks cover the arrays -/

/-- An index is in point t's block iff each coordinate is in the block's range on its axis. -/
theorem mem_blk21 (t : Fin cfg0.N) (i : S320000x128.Idx) :
    i ∈ ((cfg0.win 21).blk t).view.set ↔ ∀ a : Fin 2, win0_21.index t a * S4000x128.size a ≤ (i a).val ∧ (i a).val < win0_21.index t a * S4000x128.size a + S4000x128.size a := by
  show i ∈ ((View.whole main_v81_0).slice (win0_21.rect t)).set ↔ _
  rw [View.set_slice_whole, Rect.mem_set_unit]
  exact Iff.rfl

theorem mem_blk22 (t : Fin cfg0.N) (i : S320000x8.Idx) :
    i ∈ ((cfg0.win 22).blk t).view.set ↔ ∀ a : Fin 2, win0_22.index t a * S4000x8.size a ≤ (i a).val ∧ (i a).val < win0_22.index t a * S4000x8.size a + S4000x8.size a := by
  show i ∈ ((View.whole main_v81_1).slice (win0_22.rect t)).set ↔ _
  rw [View.set_slice_whole, Rect.mem_set_unit]
  exact Iff.rfl

/-- The point whose block holds row r: r / 4000. -/
theorem pointOf_lt (r : Nat) (h : r < 320000) : r / 4000 < cfg0.N := by
  show r / 4000 < 80
  omega

/-- Every row of the first array is in the block of a point that writes back. -/
theorem cover21 (i : S320000x128.Idx) : ∃ t : Fin cfg0.N, (cfg0.win 21).flush t = true ∧ i ∈ ((cfg0.win 21).blk t).view.set := by
  have hi0 : (i 0).val < 320000 := (i 0).isLt
  have hi1 : (i 1).val < 128 := (i 1).isLt
  obtain ⟨e0, e1⟩ := idx21 ⟨(i 0).val / 4000, pointOf_lt _ hi0⟩
  refine ⟨⟨(i 0).val / 4000, pointOf_lt _ hi0⟩, flush0_21 _, ?_⟩
  rw [mem_blk21]
  intro a
  match a with
  | ⟨0, _⟩ =>
    show win0_21.index ⟨(i 0).val / 4000, pointOf_lt _ hi0⟩ (0 : Fin 2) * 4000 ≤ (i 0).val
      ∧ (i 0).val < win0_21.index ⟨(i 0).val / 4000, pointOf_lt _ hi0⟩ (0 : Fin 2) * 4000 + 4000
    rw [e0]
    show (i 0).val / 4000 * 4000 ≤ (i 0).val ∧ (i 0).val < (i 0).val / 4000 * 4000 + 4000
    omega
  | ⟨1, _⟩ =>
    show win0_21.index ⟨(i 0).val / 4000, pointOf_lt _ hi0⟩ (1 : Fin 2) * 128 ≤ (i 1).val
      ∧ (i 1).val < win0_21.index ⟨(i 0).val / 4000, pointOf_lt _ hi0⟩ (1 : Fin 2) * 128 + 128
    rw [e1]
    omega

/-- Every row of the second array is in the block of a point that writes back. -/
theorem cover22 (i : S320000x8.Idx) : ∃ t : Fin cfg0.N, (cfg0.win 22).flush t = true ∧ i ∈ ((cfg0.win 22).blk t).view.set := by
  have hi0 : (i 0).val < 320000 := (i 0).isLt
  have hi1 : (i 1).val < 8 := (i 1).isLt
  obtain ⟨e0, e1⟩ := idx22 ⟨(i 0).val / 4000, pointOf_lt _ hi0⟩
  refine ⟨⟨(i 0).val / 4000, pointOf_lt _ hi0⟩, flush0_22 _, ?_⟩
  rw [mem_blk22]
  intro a
  match a with
  | ⟨0, _⟩ =>
    show win0_22.index ⟨(i 0).val / 4000, pointOf_lt _ hi0⟩ (0 : Fin 2) * 4000 ≤ (i 0).val
      ∧ (i 0).val < win0_22.index ⟨(i 0).val / 4000, pointOf_lt _ hi0⟩ (0 : Fin 2) * 4000 + 4000
    rw [e0]
    show (i 0).val / 4000 * 4000 ≤ (i 0).val ∧ (i 0).val < (i 0).val / 4000 * 4000 + 4000
    omega
  | ⟨1, _⟩ =>
    show win0_22.index ⟨(i 0).val / 4000, pointOf_lt _ hi0⟩ (1 : Fin 2) * 8 ≤ (i 1).val
      ∧ (i 1).val < win0_22.index ⟨(i 0).val / 4000, pointOf_lt _ hi0⟩ (1 : Fin 2) * 8 + 8
    rw [e1]
    omega

/-! ## The arrays after the region -/

theorem edge_mg (c : Dev nD) : (dat0 (F := Ideal) V c).arrAt 21 cfg0.N = G21 V c :=
  (dat0 V c).arrAt_eq_of_cover 21 (G21 V c) (fun t _ => flushed21_eq V c t) cover21

theorem edge_pxy (c : Dev nD) : (dat0 (F := Ideal) V c).arrAt 22 cfg0.N = G22 V c :=
  (dat0 V c).arrAt_eq_of_cover 22 (G22 V c) (fun t _ => flushed22_eq V c t) cover22

end Cert.KernelIdeal.EdgeArray

end
-- ==== Proof.NodeArray.lean ====
/-
  The array the node region writes, whole: every row is that node's new features, as a function of the arrays the region
  finds when it is entered. Each grid point's block is rows 2000·t … 2000·t + 1999, and the five blocks cover the 10000 rows.
-/
import proofs.«421440_j51007031607343_3_alg».proof.Proof.Gen.KernelIdeal.Frame
import proofs.«421440_j51007031607343_3_alg».proof.Proof.EgclSpec
import proofs.«421440_j51007031607343_3_alg».proof.Proof.Payloads

set_option maxRecDepth 16384

noncomputable section

namespace Cert.KernelIdeal.NodeArray

open Cert.KernelIdeal Cert.KernelIdeal.Gen Idealize.ShloMosaic Idealize.ShloMosaic.TcCoe Idealize.ShloMosaic.ValueIdx Idealize.SL.Sem RowLayers Egcl

variable (V : (c : Dev nD) → (b : Ref sig .tc) → Buf (Elt Ideal) ((c : Thread nD τ).loc b))

/-- The output array: the nodes' new features. -/
def G9 (c : Dev nD) : S10000x128.Idx → EReal := fun i =>
  nodeOut (npre2 (row (V c main_v95) (i 0)) (row (V c main_arg2) (i 0)) (mat (V c main_v108)) (mat (V c main_v109)) (vec (V c main_arg22)))
    (mat (V c main_v110)) (vec (V c main_arg24)) (mat (V c main_v111)) (vec (V c main_arg26)) (row (V c main_arg2) (i 0)) (i 1)

/-- The index maps of the three row windows over the five grid points: the block index is the point itself along the rows
    and 0 along the features. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_9.index t (0 : Fin 2) = t.val ∧ win1_9.index t (1 : Fin 2) = 0 :=
  (by decide +kernel : ∀ t : Fin grid1.N, _)

/-- Every weight or bias window has block index 0 on every axis at every point: its one block is the whole array. -/
theorem whole_facts : ∀ t : Fin cfg1.N,
    win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0 :=
  (by decide +kernel : ∀ t : Fin grid1.N, _)

/-- Block t of the first row window is rows 2000·t … 2000·t + 1999 of its array. -/
theorem rows_v95 (c : Dev nD) (t : Fin cfg1.N) (p : Fin 2000) (k : Fin 128) (h : 2000 * t.val + p.val < 10000) :
    iblk1 V c 0 t (ix2 p k) = V c main_v95 (ix2 ⟨2000 * t.val + p.val, h⟩ k) := by
  obtain ⟨e0, e1, -⟩ := index_facts t
  unfold iblk1
  rw [View.read_apply]
  show V c main_v95 _ = V c main_v95 _
  congr 1
  funext a
  apply Fin.ext
  match a with
  | ⟨0, _⟩ => show win1_0.index t (0 : Fin 2) * 2000 + 1 * p.val = 2000 * t.val + p.val; omega
  | ⟨1, _⟩ => show win1_0.index t (1 : Fin 2) * 128 + 1 * k.val = k.val; omega

/-- Block t of the second row window is rows 2000·t … 2000·t + 1999 of its array. -/
theorem rows_arg2 (c : Dev nD) (t : Fin cfg1.N) (p : Fin 2000) (k : Fin 128) (h : 2000 * t.val + p.val < 10000) :
    iblk1 V c 1 t (ix2 p k) = V c main_arg2 (ix2 ⟨2000 * t.val + p.val, h⟩ k) := by
  obtain ⟨-, -, e0, e1, -⟩ := index_facts t
  unfold iblk1
  rw [View.read_apply]
  show V c main_arg2 _ = V c main_arg2 _
  congr 1
  funext a
  apply Fin.ext
  match a with
  | ⟨0, _⟩ => show win1_1.index t (0 : Fin 2) * 2000 + 1 * p.val = 2000 * t.val + p.val; omega
  | ⟨1, _⟩ => show win1_1.index t (1 : Fin 2) * 128 + 1 * k.val = k.val; omega

/-- There are five grid points. -/
theorem points_five : cfg1.N = 5 := rfl

/-- A weight window's one block is its whole array. -/
theorem whole_v108 (c : Dev nD) (t : Fin cfg1.N) : (iblk1 V c 2 t : Vec Ideal S128x128 .bf16) = V c main_v108 := by
  obtain ⟨e0, e1, -⟩ := whole_facts t
  funext j
  unfold iblk1
  rw [View.read_apply]
  show V c main_v108 _ = V c main_v108 _
  congr 1
  funext a
  apply Fin.ext
  match a with
  | ⟨0, _⟩ => show win1_2.index t (0 : Fin 2) * 128 + 1 * (j 0).val = (j 0).val; omega
  | ⟨1, _⟩ => show win1_2.index t (1 : Fin 2) * 128 + 1 * (j 1).val = (j 1).val; omega

/-- A bias window's one block is its whole array. -/
theorem whole_arg22 (c : Dev nD) (t : Fin cfg1.N) : (iblk1 V c 4 t : Vec Ideal S128 .f32) = V c main_arg22 := by
  obtain ⟨-, -, -, -, e0, -⟩ := whole_facts t
  funext j
  unfold iblk1
  rw [View.read_apply]
  show V c main_arg22 _ = V c main_arg22 _
  congr 1
  funext a
  apply Fin.ext
  match a with
  | ⟨0, _⟩ => show win1_4.index t (0 : Fin 1) * 128 + 1 * (j 0).val = (j 0).val; omega

/-- A weight window's one block is its whole array. -/
theorem whole_v109 (c : Dev nD) (t : Fin cfg1.N) : (iblk1 V c 3 t : Vec Ideal S128x128 .bf16) = V c main_v109 := by
  obtain ⟨-, -, e0, e1, -⟩ := whole_facts t
  funext j
  unfold iblk1
  rw [View.read_apply]
  show V c main_v109 _ = V c main_v109 _
  congr 1
  funext a
  apply Fin.ext
  match a with
  | ⟨0, _⟩ => show win1_3.index t (0 : Fin 2) * 128 + 1 * (j 0).val = (j 0).val; omega
  | ⟨1, _⟩ => show win1_3.index t (1 : Fin 2) * 128 + 1 * (j 1).val = (j 1).val; omega

/-- A weight window's one block is its whole array. -/
theorem whole_v110 (c : Dev nD) (t : Fin cfg1.N) : (iblk1 V c 5 t : Vec Ideal S128x128 .bf16) = V c main_v110 := by
  obtain ⟨-, -, -, -, -, e0, e1, -⟩ := whole_facts t
  funext j
  unfold iblk1
  rw [View.read_apply]
  show V c main_v110 _ = V c main_v110 _
  congr 1
  funext a
  apply Fin.ext
  match a with
  | ⟨0, _⟩ => show win1_5.index t (0 : Fin 2) * 128 + 1 * (j 0).val = (j 0).val; omega
  | ⟨1, _⟩ => show win1_5.index t (1 : Fin 2) * 128 + 1 * (j 1).val = (j 1).val; omega

/-- A bias window's one block is its whole array. -/
theorem whole_arg24 (c : Dev nD) (t : Fin cfg1.N) : (iblk1 V c 6 t : Vec Ideal S128 .f32) = V c main_arg24 := by
  obtain ⟨-, -, -, -, -, -, -, e0, -⟩ := whole_facts t
  funext j
  unfold iblk1
  rw [View.read_apply]
  show V c main_arg24 _ = V c main_arg24 _
  congr 1
  funext a
  apply Fin.ext
  match a with
  | ⟨0, _⟩ => show win1_6.index t (0 : Fin 1) * 128 + 1 * (j 0).val = (j 0).val; omega

/-- A weight window's one block is its whole array. -/
theorem whole_v111 (c : Dev nD) (t : Fin cfg1.N) : (iblk1 V c 7 t : Vec Ideal S128x128 .bf16) = V c main_v111 := by
  obtain ⟨-, -, -, -, -, -, -, -, e0, e1, -⟩ := whole_facts t
  funext j
  unfold iblk1
  rw [View.read_apply]
  show V c main_v111 _ = V c main_v111 _
  congr 1
  funext a
  apply Fin.ext
  match a with
  | ⟨0, _⟩ => show win1_7.index t (0 : Fin 2) * 128 + 1 * (j 0).val = (j 0).val; omega
  | ⟨1, _⟩ => show win1_7.index t (1 : Fin 2) * 128 + 1 * (j 1).val = (j 1).val; omega

/-- A bias window's one block is its whole array. -/
theorem whole_arg26 (c : Dev nD) (t : Fin cfg1.N) : (iblk1 V c 8 t : Vec Ideal S128 .f32) = V c main_arg26 := by
  obtain ⟨-, -, -, -, -, -, -, -, -, -, e0⟩ := whole_facts t
  funext j
  unfold iblk1
  rw [View.read_apply]
  show V c main_arg26 _ = V c main_arg26 _
  congr 1
  funext a
  apply Fin.ext
  match a with
  | ⟨0, _⟩ => show win1_8.index t (0 : Fin 1) * 128 + 1 * (j 0).val = (j 0).val; omega

/-- The rows of the two row blocks at point t, as rows of their arrays. -/
theorem row_v95 (c : Dev nD) (t : Fin cfg1.N) (p : Fin 2000) (h : 2000 * t.val + p.val < 10000) :
    row (iblk1 V c 0 t) p = row (V c main_v95) ⟨2000 * t.val + p.val, h⟩ :=
  funext fun k => rows_v95 V c t p k h

/-- The same for the second row window. -/
theorem row_arg2 (c : Dev nD) (t : Fin cfg1.N) (p : Fin 2000) (h : 2000 * t.val + p.val < 10000) :
    row (iblk1 V c 1 t) p = row (V c main_arg2) ⟨2000 * t.val + p.val, h⟩ :=
  funext fun k => rows_arg2 V c t p k h

/-- Where an element of the output's block t sits in the array: row 2000·t + p, the same feature. -/
theorem out_emb (t : Fin cfg1.N) (p : Fin 2000) (q : Fin 128) (h : 2000 * t.val + p.val < 10000) :
    ((cfg1.win 9).blk t).view.emb (ix2 p q) = (ix2 ⟨2000 * t.val + p.val, h⟩ q : S10000x128.Idx) := by
  obtain ⟨-, -, -, -, e0, e1⟩ := index_facts t
  funext a
  apply Fin.ext
  match a with
  | ⟨0, _⟩ => show win1_9.index t (0 : Fin 2) * 2000 + 1 * p.val = 2000 * t.val + p.val; omega
  | ⟨1, _⟩ => show win1_9.index t (1 : Fin 2) * 128 + 1 * q.val = q.val; omega

/-- What point t writes back is block t of the array of new features. -/
theorem flushed_eq (c : Dev nD) (t : Fin cfg1.N) :
    (dat1 V c).flushed 9 t = ((cfg1.win 9).blk t).view.read (Elt Ideal) (G9 V c) := by
  show (cfg1.win 9).cut (grid1.coords t) ((dat1 V c).after 9 t) = _
  rw [after1_9]
  funext j
  obtain ⟨p, q, rfl⟩ : ∃ (p : Fin 2000) (q : Fin 128), j = ix2 p q := ⟨j 0, j 1, eq_ix2 (n0 := 2000) (n1 := 128) j⟩
  have ht : t.val < 5 := t.isLt
  have hp : 2000 * t.val + p.val < 10000 := by omega
  rw [View.read_apply, out_emb t p q hp, whole_v108, whole_v109, whole_arg22, whole_v110, whole_arg24, whole_v111, whole_arg26]
  have hrow := congrFun (NodeRows.out1_9_row (iblk1 V c 0 t) (iblk1 V c 1 t) (V c main_v108) (V c main_v109) (V c main_arg22)
    (V c main_v110) (V c main_arg24) (V c main_v111) (V c main_arg26) p) q
  rw [row_v95 V c t p hp, row_arg2 V c t p hp] at hrow
  generalize out1_9 (iblk1 V c 0 t) (iblk1 V c 1 t) (V c main_v108) (V c main_v109) (V c main_arg22)
    (V c main_v110) (V c main_arg24) (V c main_v111) (V c main_arg26) = X at hrow ⊢
  exact hrow

/-- An index of the array is in point t's block iff each coordinate is in the block's range on its axis. -/
theorem mem_blk (t : Fin cfg1.N) (i : S10000x128.Idx) :
    i ∈ ((cfg1.win 9).blk t).view.set ↔ ∀ a : Fin 2, win1_9.index t a * S2000x128.size a ≤ (i a).val ∧ (i a).val < win1_9.index t a * S2000x128.size a + S2000x128.size a := by
  show i ∈ ((View.whole main_v112).slice (win1_9.rect t)).set ↔ _
  rw [View.set_slice_whole, Rect.mem_set_unit]
  exact Iff.rfl

/-- Row r is in the block of point r / 2000, and every point writes its block back. -/
theorem cover (i : S10000x128.Idx) : ∃ t : Fin cfg1.N, (cfg1.win 9).flush t = true ∧ i ∈ ((cfg1.win 9).blk t).view.set := by
  have hi0 : (i 0).val < 10000 := (i 0).isLt
  have hi1 : (i 1).val < 128 := (i 1).isLt
  obtain ⟨t, ht⟩ : ∃ t : Fin cfg1.N, t.val = (i 0).val / 2000 := ⟨⟨(i 0).val / 2000, by rw [points_five]; omega⟩, rfl⟩
  obtain ⟨-, -, -, -, e0, e1⟩ := index_facts t
  refine ⟨t, flush1_9 t, ?_⟩
  rw [mem_blk]
  intro a
  match a with
  | ⟨0, _⟩ => show win1_9.index t (0 : Fin 2) * 2000 ≤ (i 0).val ∧ (i 0).val < win1_9.index t (0 : Fin 2) * 2000 + 2000; omega
  | ⟨1, _⟩ => show win1_9.index t (1 : Fin 2) * 128 ≤ (i 1).val ∧ (i 1).val < win1_9.index t (1 : Fin 2) * 128 + 128; omega

/-- The five blocks written back cover the array, so it ends holding the new features of every node. -/
theorem node_out (c : Dev nD) : (dat1 (F := Ideal) V c).arrAt 9 cfg1.N = G9 V c :=
  (dat1 V c).arrAt_eq_of_cover 9 (G9 V c) (fun t _ => flushed_eq V c t) cover

end Cert.KernelIdeal.NodeArray

end
-- ==== Proof.LibHostLayers.lean ====
/-
  General lemmas, free of any program: the layers of a perceptron as a host program writes them — a product of a block
  by a weight block with no accumulator, a bias spread over the rows by two spreading steps, and x · σ(x) written out
  as x · (1 / (1 + e^(-x))) with the number one spread from a scalar — read at an entry, at the ideal values.

  * the bit pattern 0x3F800000 is the number one; that scalar spread over any shape reads one at every index;
  * a host product of an r×k block by a k×n block, read at row p: the row times the matrix;
  * a bias of length n, seen as 1×n and then spread over r rows, reads at (p, q) the bias at q; a column r×1 spread
    over the n columns of an r×n block reads at (p, q) the column at p;
  * one dense layer — the product plus the spread bias — read at (p, q) is the row times the matrix plus the bias;
  * 1 / (1 + e^(-y)) read at an index is σ of the entry; y · (1 / (1 + e^(-y))) is x · σ(x) of the entry; the host's
    hyperbolic tangent at an index is that of the entry.
-/
import Idealize.ShloMosaic.PureOps.Ideal.Laws
import Idealize.ShloMosaic.Lib.ValueIdx
import Idealize.ShloMosaic.Lib.Pipeline.Value
import proofs.«421440_j51007031607343_3_alg».proof.Proof.LibRowLayers

noncomputable section

namespace HostLayers

open Idealize.ShloMosaic Idealize.ShloMosaic.ValueIdx Idealize.ShloMosaic.Pipeline RowLayers

/-- The bit pattern 0x3F800000 is the number one. -/
theorem one_bits : Ideal.ofBits .f32 0x3F800000#32 = 1 := by
  simp [Ideal.ofBits, Ideal.ieee, -EReal.coe_mul]; norm_num

/-- The scalar one spread over any shape reads one at every index. -/
theorem ones_apply {t : Shape} (dims : Fin 0 → Fin t.rank) (h : (⟨0, ![]⟩ : Shape).BroadcastsInDim t dims) (i : t.Idx) :
    broadcastInDim t dims h (constant (F := Ideal) ⟨0, ![]⟩ .f32 0x3F800000#32) i = 1 :=
  one_bits

/-- A host product of an r×k block by a k×n block, read at row p: the row times the matrix. The product with no
    accumulator and the product into the zero accumulator are the same sum over the contracted coordinate. -/
theorem dot_row {r k n : Nat} (d : DotDims ⟨2, ![r, k]⟩ ⟨2, ![k, n]⟩ ⟨2, ![r, n]⟩) (hd : d = DotDims.plain r k n)
    {φ₁ φ₂ : FTy} (X : FVec Ideal ⟨2, ![r, k]⟩ φ₁) (W : FVec Ideal ⟨2, ![k, n]⟩ φ₂) (p : Fin r) (q : Fin n) :
    Host.dotGeneral (F := Ideal) d none X W (ix2 p q) = rowMul (row X p) (mat W) q := by
  rw [← matmul_row d hd X W p q]
  exact (Ideal.dotGeneral_apply d none .single X W (ix2 p q)).trans
    (Ideal.matmul_constant_zero_apply d none X W (ix2 p q)).symm

/-- A bias of length n, seen as 1×n and then spread over r rows, reads at (p, q) the bias at q. -/
theorem bias_apply {r n : Nat} (b : (⟨1, ![n]⟩ : Shape).Idx → EReal)
    (h1 : (⟨1, ![n]⟩ : Shape).BroadcastsInDim ⟨2, ![1, n]⟩ ![1])
    (h2 : (⟨2, ![1, n]⟩ : Shape).BroadcastsInDim ⟨2, ![r, n]⟩ ![0, 1]) (p : Fin r) (q : Fin n) :
    broadcastInDim ⟨2, ![r, n]⟩ ![0, 1] h2 (broadcastInDim ⟨2, ![1, n]⟩ ![1] h1 b) (ix2 p q) = vec b q := by
  -- the unit axis reads 0; the other axis reads q (and q is 0 when n is one)
  have hq : q.val = if n = 1 then 0 else q.val := by
    split
    · have := q.isLt; omega
    · rfl
  rw [broadcastInDim_apply _ h2 _ (ix2 p q) (ix2 (0 : Fin 1) q) fun ax => ?_,
    broadcastInDim_apply _ h1 b (ix2 (0 : Fin 1) q) (ix1 q) fun ax => ?_]
  · rfl
  · match ax with
    | ⟨0, _⟩ => exact hq
  · match ax with
    | ⟨0, _⟩ => rfl
    | ⟨1, _⟩ => exact hq

/-- A column r×1 spread over the n columns of an r×n block reads at (p, q) the column at p. -/
theorem column_apply {r n : Nat} (v : (⟨2, ![r, 1]⟩ : Shape).Idx → EReal)
    (h : (⟨2, ![r, 1]⟩ : Shape).BroadcastsInDim ⟨2, ![r, n]⟩ ![0, 1]) (p : Fin r) (q : Fin n) :
    broadcastInDim ⟨2, ![r, n]⟩ ![0, 1] h v (ix2 p q) = v (ix2 p (0 : Fin 1)) := by
  refine broadcastInDim_apply _ h v (ix2 p q) (ix2 p (0 : Fin 1)) fun ax => ?_
  match ax with
  | ⟨0, _⟩ =>
    show p.val = if r = 1 then 0 else p.val
    split
    · have := p.isLt; omega
    · rfl
  | ⟨1, _⟩ => rfl

/-- One dense layer of a host program — the product plus the bias spread over the rows — read at (p, q): the row times
    the matrix plus the bias. -/
theorem dense_row {r k n : Nat} (d : DotDims ⟨2, ![r, k]⟩ ⟨2, ![k, n]⟩ ⟨2, ![r, n]⟩) (hd : d = DotDims.plain r k n)
    {φ₁ φ₂ : FTy} (X : FVec Ideal ⟨2, ![r, k]⟩ φ₁) (W : FVec Ideal ⟨2, ![k, n]⟩ φ₂)
    (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1]) (p : Fin r) (q : Fin n) :
    addf (Host.dotGeneral (F := Ideal) d none X W)
        (broadcastInDim ⟨2, ![r, n]⟩ ![0, 1] h2 (broadcastInDim ⟨2, ![1, n]⟩ ![1] h1 b)) (ix2 p q)
      = rowMul (row X p) (mat W) q + vec b q := by
  rw [addf_apply, dot_row d hd X W p q, bias_apply b h1 h2 p q]

/-- 1 / (1 + e^(-y)), the ones spread from the scalar one, read at an index: σ of the entry. -/
theorem logistic_expanded_apply {s : Shape} (d1 d2 : Fin 0 → Fin s.rank)
    (h1 : (⟨0, ![]⟩ : Shape).BroadcastsInDim s d1) (h2 : (⟨0, ![]⟩ : Shape).BroadcastsInDim s d2)
    (y : FVec Ideal s .f32) (i : s.Idx) :
    Host.divf (broadcastInDim s d2 h2 (constant (F := Ideal) ⟨0, ![]⟩ .f32 0x3F800000#32))
        (addf (broadcastInDim s d1 h1 (constant (F := Ideal) ⟨0, ![]⟩ .f32 0x3F800000#32)) (Host.exp (Host.negf y))) i
      = Ideal.logistic (y i) := by
  show Ideal.div (Ideal.ofBits .f32 0x3F800000#32) (Ideal.ofBits .f32 0x3F800000#32 + Ideal.exp (-(y i)))
    = Ideal.div 1 (1 + Ideal.exp (-(y i)))
  rw [one_bits]

/-- y · (1 / (1 + e^(-y))) read at an index: x · σ(x) of the entry. -/
theorem silu_apply {s : Shape} (d1 d2 : Fin 0 → Fin s.rank)
    (h1 : (⟨0, ![]⟩ : Shape).BroadcastsInDim s d1) (h2 : (⟨0, ![]⟩ : Shape).BroadcastsInDim s d2)
    (y : FVec Ideal s .f32) (i : s.Idx) :
    mulf y (Host.divf (broadcastInDim s d2 h2 (constant (F := Ideal) ⟨0, ![]⟩ .f32 0x3F800000#32))
        (addf (broadcastInDim s d1 h1 (constant (F := Ideal) ⟨0, ![]⟩ .f32 0x3F800000#32)) (Host.exp (Host.negf y)))) i
      = silu (y i) := by
  rw [mulf_apply, logistic_expanded_apply d1 d2 h1 h2 y i]; rfl

/-- The host's hyperbolic tangent read at an index: that of the entry. -/
theorem host_tanh_apply {s : Shape} {φ : FTy} (y : FVec Ideal s φ) (i : s.Idx) :
    Host.tanh y i = Ideal.tanh (y i) := rfl

end HostLayers

end
-- ==== Proof.RefRows.lean ====
/-
  The reference's stages, row by row: the message of an edge from the stacked row of that edge; the gated message and the
  two heads from the message; a node's new features from the stacked row of that node.

  Each part is a chain of dense layers — a product with a weight block plus a bias spread over the rows — and of
  entrywise maps: x · σ(x) written out as x · (1 / (1 + e^(-x))), σ written out the same way for the gate, tanh for the
  heads. Every stage is read at an entry from the stage below it, which is kept as a whole; a part's row is then the
  composition of the row maps of its stages.
-/
import proofs.«421440_j51007031607343_3_alg».proof.Proof.RefRead
import proofs.«421440_j51007031607343_3_alg».proof.Proof.EgclSpec
import proofs.«421440_j51007031607343_3_alg».proof.Proof.LibHostLayers

set_option maxRecDepth 16384

noncomputable section

namespace Cert.ReferenceIdeal.RefRows

open Cert.ReferenceIdeal Cert.ReferenceIdeal.Read Idealize.ShloMosaic Idealize.ShloMosaic.ValueIdx RowLayers Egcl HostLayers

variable (x0 x1 : (⟨S10000x4x3, .f32⟩ : BufTy).Contents (Elt Ideal)) (x2 : (⟨S10000x128, .f32⟩ : BufTy).Contents (Elt Ideal)) (x3 x4 : (⟨S320000, .i32⟩ : BufTy).Contents (Elt Ideal))
  (x5 : (⟨S264x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal))
  (x9 : (⟨S128x1, .f32⟩ : BufTy).Contents (Elt Ideal)) (x10 : (⟨S1, .f32⟩ : BufTy).Contents (Elt Ideal))
  (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x4, .f32⟩ : BufTy).Contents (Elt Ideal))
  (x16 : (⟨S128x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) (x20 : (⟨S128x4, .f32⟩ : BufTy).Contents (Elt Ideal))
  (x21 : (⟨S256x128, .f32⟩ : BufTy).Contents (Elt Ideal)) (x22 : (⟨S128, .f32⟩ : BufTy).Contents (Elt Ideal)) (x23 : (⟨S128x128, .f32⟩ : BufTy).Contents (Elt Ideal)) (x24 : (⟨S128, .f32⟩ : BufTy).Contents (Elt Ideal)) (x25 : (⟨S128x128, .f32⟩ : BufTy).Contents (Elt Ideal)) (x26 : (⟨S128, .f32⟩ : BufTy).Contents (Elt Ideal))

/-! ## The message of an edge: stages 67 to 76 -/

/-- The edge part's first pre-activation at an entry of row e: the stacked row times the stacked weights plus the bias. -/
theorem v70_row (e : Fin 320000) (q : Fin 128) :
    val_main_v70 (F := Ideal) x0 x1 x2 x3 x4 x5 x6 (ix2 e q)
      = pre1 (row (val_main_v66 (F := Ideal) x0 x1 x2 x3 x4) e) (mat x5) (vec x6) q := by
  unfold val_main_v70 val_main_v67 val_main_v69 val_main_v68
  generalize val_main_v66 (F := Ideal) x0 x1 x2 x3 x4 = X
  exact dense_row _ rfl X x5 x6 _ _ e q

/-- The first activation: x · σ(x) of the first pre-activation, entry by entry. -/
theorem v71_apply (i : S320000x128.Idx) :
    val_main_v71 (F := Ideal) x0 x1 x2 x3 x4 x5 x6 i = silu (val_main_v70 (F := Ideal) x0 x1 x2 x3 x4 x5 x6 i) := by
  unfold val_main_v71 val_main_call0_v5 val_main_call0_v4 val_main_call0_cst_0 val_main_call0_v3
    val_main_call0_v2 val_main_call0_cst val_main_call0_v1 val_main_call0_v0
  generalize val_main_v70 (F := Ideal) x0 x1 x2 x3 x4 x5 x6 = y
  exact silu_apply _ _ _ _ y i

/-- The second pre-activation at an entry of row e. -/
theorem v75_row (e : Fin 320000) (q : Fin 128) :
    val_main_v75 (F := Ideal) x0 x1 x2 x3 x4 x5 x6 x7 x8 (ix2 e q)
      = rowMul (row (val_main_v71 (F := Ideal) x0 x1 x2 x3 x4 x5 x6) e) (mat x7) q + vec x8 q := by
  unfold val_main_v75 val_main_v72 val_main_v74 val_main_v73
  generalize val_main_v71 (F := Ideal) x0 x1 x2 x3 x4 x5 x6 = X
  exact dense_row _ rfl X x7 x8 _ _ e q

/-- The message: x · σ(x) of the second pre-activation, entry by entry. -/
theorem v76_apply (i : S320000x128.Idx) :
    val_main_v76 (F := Ideal) x0 x1 x2 x3 x4 x5 x6 x7 x8 i = silu (val_main_v75 (F := Ideal) x0 x1 x2 x3 x4 x5 x6 x7 x8 i) := by
  unfold val_main_v76 val_main_call1_v5 val_main_call1_v4 val_main_call1_cst_0 val_main_call1_v3
    val_main_call1_v2 val_main_call1_cst val_main_call1_v1 val_main_call1_v0
  generalize val_main_v75 (F := Ideal) x0 x1 x2 x3 x4 x5 x6 x7 x8 = y
  exact silu_apply _ _ _ _ y i

/-- The message of edge e: two layers on the stacked row (sender's features, receiver's features, squared lengths). -/
theorem msg_row (e : Fin 320000) :
    row (val_main_v76 (F := Ideal) x0 x1 x2 x3 x4 x5 x6 x7 x8) e
      = msg (pre1 (row (val_main_v66 (F := Ideal) x0 x1 x2 x3 x4) e) (mat x5) (vec x6)) (mat x7) (vec x8) := by
  -- row e of the first activation is x · σ(x) of the first pre-activation
  have h71 : row (val_main_v71 (F := Ideal) x0 x1 x2 x3 x4 x5 x6) e = fun k => silu (pre1 (row (val_main_v66 (F := Ideal) x0 x1 x2 x3 x4) e) (mat x5) (vec x6) k) :=
    funext fun k => (v71_apply x0 x1 x2 x3 x4 x5 x6 (ix2 e k)).trans (congrArg silu (v70_row x0 x1 x2 x3 x4 x5 x6 e k))
  funext q
  show val_main_v76 (F := Ideal) x0 x1 x2 x3 x4 x5 x6 x7 x8 (ix2 e q) = _
  rw [v76_apply, v75_row, h71]
  rfl

/-! ## The gated message: stages 117 to 128 -/

/-- The gate's pre-activation at row e: the message times the 128×1 matrix plus the one-entry bias. -/
theorem v120_row (e : Fin 320000) (q : Fin 1) :
    val_main_v120 (F := Ideal) x0 x1 x2 x3 x4 x5 x6 x7 x8 x9 x10 (ix2 e q)
      = rowMul (row (val_main_v76 (F := Ideal) x0 x1 x2 x3 x4 x5 x6 x7 x8) e) (mat x9) q + vec x10 q := by
  unfold val_main_v120 val_main_v117 val_main_v119 val_main_v118
  generalize val_main_v76 (F := Ideal) x0 x1 x2 x3 x4 x5 x6 x7 x8 = X
  exact dense_row _ rfl X x9 x10 _ _ e q

/-- The gate: 1 / (1 + e^(-x)) of its pre-activation, entry by entry, is σ of it. -/
theorem v126_apply (i : S320000x1.Idx) :
    val_main_v126 (F := Ideal) x0 x1 x2 x3 x4 x5 x6 x7 x8 x9 x10 i = Ideal.logistic (val_main_v120 (F := Ideal) x0 x1 x2 x3 x4 x5 x6 x7 x8 x9 x10 i) := by
  unfold val_main_v126 val_main_v125 val_main_cst_21 val_main_v124 val_main_v123 val_main_cst_20 val_main_v122 val_main_v121
  generalize val_main_v120 (F := Ideal) x0 x1 x2 x3 x4 x5 x6 x7 x8 x9 x10 = y
  exact logistic_expanded_apply _ _ _ _ y i

/-- The gated message at (e, q): the message at (e, q) times the gate of row e, the gate's column spread over the
    128 columns. -/
theorem v128_row (e : Fin 320000) (q : Fin 128) :
    val_main_v128 (F := Ideal) x0 x1 x2 x3 x4 x5 x6 x7 x8 x9 x10 (ix2 e q)
      = val_main_v76 (F := Ideal) x0 x1 x2 x3 x4 x5 x6 x7 x8 (ix2 e q) * val_main_v126 (F := Ideal) x0 x1 x2 x3 x4 x5 x6 x7 x8 x9 x10 (ix2 e (0 : Fin 1)) := by
  unfold val_main_v128 val_main_v127
  generalize val_main_v76 (F := Ideal) x0 x1 x2 x3 x4 x5 x6 x7 x8 = m
  generalize val_main_v126 (F := Ideal) x0 x1 x2 x3 x4 x5 x6 x7 x8 x9 x10 = g
  rw [mulf_apply, HostLayers.column_apply]

/-- The gated message of edge e. -/
theorem gated_row (e : Fin 320000) :
    row (val_main_v128 (F := Ideal) x0 x1 x2 x3 x4 x5 x6 x7 x8 x9 x10) e = gated (row (val_main_v76 (F := Ideal) x0 x1 x2 x3 x4 x5 x6 x7 x8) e) (mat x9) (vec x10) := by
  funext q
  show val_main_v128 (F := Ideal) x0 x1 x2 x3 x4 x5 x6 x7 x8 x9 x10 (ix2 e q) = _
  rw [v128_row, v126_apply, v120_row]
  rfl

/-! ## The x coefficients: stages 77 to 88 -/

/-- The x head's first pre-activation at an entry of row e: the message times the first weights plus the bias. -/
theorem v80_row (e : Fin 320000) (q : Fin 128) :
    val_main_v80 (F := Ideal) x0 x1 x2 x3 x4 x5 x6 x7 x8 x11 x12 (ix2 e q)
      = rowMul (row (val_main_v76 (F := Ideal) x0 x1 x2 x3 x4 x5 x6 x7 x8) e) (mat x11) q + vec x12 q := by
  unfold val_main_v80 val_main_v77 val_main_v79 val_main_v78
  generalize val_main_v76 (F := Ideal) x0 x1 x2 x3 x4 x5 x6 x7 x8 = X
  exact dense_row _ rfl X x11 x12 _ _ e q

/-- The x head's first activation: x · σ(x) of the pre-activation, entry by entry. -/
theorem v81_apply (i : S320000x128.Idx) :
    val_main_v81 (F := Ideal) x0 x1 x2 x3 x4 x5 x6 x7 x8 x11 x12 i = silu (val_main_v80 (F := Ideal) x0 x1 x2 x3 x4 x5 x6 x7 x8 x11 x12 i) := by
  unfold val_main_v81 val_main_call2_v5 val_main_call2_v4 val_main_call2_cst_0 val_main_call2_v3
    val_main_call2_v2 val_main_call2_cst val_main_call2_v1 val_main_call2_v0
  generalize val_main_v80 (F := Ideal) x0 x1 x2 x3 x4 x5 x6 x7 x8 x11 x12 = y
  exact silu_apply _ _ _ _ y i

/-- The x head's second pre-activation at an entry of row e. -/
theorem v85_row (e : Fin 320000) (q : Fin 128) :
    val_main_v85 (F := Ideal) x0 x1 x2 x3 x4 x5 x6 x7 x8 x11 x12 x13 x14 (ix2 e q)
      = rowMul (row (val_main_v81 (F := Ideal) x0 x1 x2 x3 x4 x5 x6 x7 x8 x11 x12) e) (mat x13) q + vec x14 q := by
  unfold val_main_v85 val_main_v82 val_main_v84 val_main_v83
  generalize val_main_v81 (F := Ideal) x0 x1 x2 x3 x4 x5 x6 x7 x8 x11 x12 = X
  exact dense_row _ rfl X x13 x14 _ _ e q

/-- The x head's second activation, entry by entry. -/
theorem v86_apply (i : S320000x128.Idx) :
    val_main_v86 (F := Ideal) x0 x1 x2 x3 x4 x5 x6 x7 x8 x11 x12 x13 x14 i = silu (val_main_v85 (F := Ideal) x0 x1 x2 x3 x4 x5 x6 x7 x8 x11 x12 x13 x14 i) := by
  unfold val_main_v86 val_main_call3_v5 val_main_call3_v4 val_main_call3_cst_0 val_main_call3_v3
    val_main_call3_v2 val_main_call3_cst val_main_call3_v1 val_main_call3_v0
  generalize val_main_v85 (F := Ideal) x0 x1 x2 x3 x4 x5 x6 x7 x8 x11 x12 x13 x14 = y
  exact silu_apply _ _ _ _ y i

/-- The x head's last product at an entry of row e: the second activation's row times the 128×4 matrix. -/
theorem v87_row (e : Fin 320000) (j : Fin 4) :
    val_main_v87 (F := Ideal) x0 x1 x2 x3 x4 x5 x6 x7 x8 x11 x12 x13 x14 x15 (ix2 e j)
      = rowMul (row (val_main_v86 (F := Ideal) x0 x1 x2 x3 x4 x5 x6 x7 x8 x11 x12 x13 x14) e) (mat x15) j := by
  unfold val_main_v87
  generalize val_main_v86 (F := Ideal) x0 x1 x2 x3 x4 x5 x6 x7 x8 x11 x12 x13 x14 = X
  exact dot_row _ rfl X x15 e j

/-- The x coefficients: the hyperbolic tangent of the last product, entry by entry. -/
theorem v88_apply (i : S320000x4.Idx) :
    val_main_v88 (F := Ideal) x0 x1 x2 x3 x4 x5 x6 x7 x8 x11 x12 x13 x14 x15 i = Ideal.tanh (val_main_v87 (F := Ideal) x0 x1 x2 x3 x4 x5 x6 x7 x8 x11 x12 x13 x14 x15 i) := by
  unfold val_main_v88
  generalize val_main_v87 (F := Ideal) x0 x1 x2 x3 x4 x5 x6 x7 x8 x11 x12 x13 x14 x15 = y
  rfl

/-- Row e of the x head's first activation is the first layer on the message. -/
theorem v81_row (e : Fin 320000) :
    row (val_main_v81 (F := Ideal) x0 x1 x2 x3 x4 x5 x6 x7 x8 x11 x12) e = layer (row (val_main_v76 (F := Ideal) x0 x1 x2 x3 x4 x5 x6 x7 x8) e) (mat x11) (vec x12) :=
  funext fun k => (v81_apply x0 x1 x2 x3 x4 x5 x6 x7 x8 x11 x12 (ix2 e k)).trans (congrArg silu (v80_row x0 x1 x2 x3 x4 x5 x6 x7 x8 x11 x12 e k))

/-- Row e of the x head's second activation is the second layer on the first. -/
theorem v86_row (e : Fin 320000) :
    row (val_main_v86 (F := Ideal) x0 x1 x2 x3 x4 x5 x6 x7 x8 x11 x12 x13 x14) e = layer (layer (row (val_main_v76 (F := Ideal) x0 x1 x2 x3 x4 x5 x6 x7 x8) e) (mat x11) (vec x12)) (mat x13) (vec x14) := by
  funext k
  show val_main_v86 (F := Ideal) x0 x1 x2 x3 x4 x5 x6 x7 x8 x11 x12 x13 x14 (ix2 e k) = _
  rw [v86_apply, v85_row, v81_row]
  rfl

/-- The x coefficients of edge e. -/
theorem px_row (e : Fin 320000) :
    row (val_main_v88 (F := Ideal) x0 x1 x2 x3 x4 x5 x6 x7 x8 x11 x12 x13 x14 x15) e
      = head (row (val_main_v76 (F := Ideal) x0 x1 x2 x3 x4 x5 x6 x7 x8) e) (mat x11) (vec x12) (mat x13) (vec x14) (mat x15) := by
  funext j
  show val_main_v88 (F := Ideal) x0 x1 x2 x3 x4 x5 x6 x7 x8 x11 x12 x13 x14 x15 (ix2 e j) = _
  rw [v88_apply, v87_row, v86_row]
  rfl

/-! ## The y coefficients: stages 97 to 108 -/

/-- The y head's first pre-activation at an entry of row e: the message times the first weights plus the bias. -/
theorem v100_row (e : Fin 320000) (q : Fin 128) :
    val_main_v100 (F := Ideal) x0 x1 x2 x3 x4 x5 x6 x7 x8 x16 x17 (ix2 e q)
      = rowMul (row (val_main_v76 (F := Ideal) x0 x1 x2 x3 x4 x5 x6 x7 x8) e) (mat x16) q + vec x17 q := by
  unfold val_main_v100 val_main_v97 val_main_v99 val_main_v98
  generalize val_main_v76 (F := Ideal) x0 x1 x2 x3 x4 x5 x6 x7 x8 = X
  exact dense_row _ rfl X x16 x17 _ _ e q

/-- The y head's first activation: x · σ(x) of the pre-activation, entry by entry. -/
theorem v101_apply (i : S320000x128.Idx) :
    val_main_v101 (F := Ideal) x0 x1 x2 x3 x4 x5 x6 x7 x8 x16 x17 i = silu (val_main_v100 (F := Ideal) x0 x1 x2 x3 x4 x5 x6 x7 x8 x16 x17 i) := by
  unfold val_main_v101 val_main_call4_v5 val_main_call4_v4 val_main_call4_cst_0 val_main_call4_v3
    val_main_call4_v2 val_main_call4_cst val_main_call4_v1 val_main_call4_v0
  generalize val_main_v100 (F := Ideal) x0 x1 x2 x3 x4 x5 x6 x7 x8 x16 x17 = y
  exact silu_apply _ _ _ _ y i

/-- The y head's second pre-activation at an entry of row e. -/
theorem v105_row (e : Fin 320000) (q : Fin 128) :
    val_main_v105 (F := Ideal) x0 x1 x2 x3 x4 x5 x6 x7 x8 x16 x17 x18 x19 (ix2 e q)
      = rowMul (row (val_main_v101 (F := Ideal) x0 x1 x2 x3 x4 x5 x6 x7 x8 x16 x17) e) (mat x18) q + vec x19 q := by
  unfold val_main_v105 val_main_v102 val_main_v104 val_main_v103
  generalize val_main_v101 (F := Ideal) x0 x1 x2 x3 x4 x5 x6 x7 x8 x16 x17 = X
  exact dense_row _ rfl X x18 x19 _ _ e q

/-- The y head's second activation, entry by entry. -/
theorem v106_apply (i : S320000x128.Idx) :
    val_main_v106 (F := Ideal) x0 x1 x2 x3 x4 x5 x6 x7 x8 x16 x17 x18 x19 i = silu (val_main_v105 (F := Ideal) x0 x1 x2 x3 x4 x5 x6 x7 x8 x16 x17 x18 x19 i) := by
  unfold val_main_v106 val_main_call5_v5 val_main_call5_v4 val_main_call5_cst_0 val_main_call5_v3
    val_main_call5_v2 val_main_call5_cst val_main_call5_v1 val_main_call5_v0
  generalize val_main_v105 (F := Ideal) x0 x1 x2 x3 x4 x5 x6 x7 x8 x16 x17 x18 x19 = y
  exact silu_apply _ _ _ _ y i

/-- The y head's last product at an entry of row e: the second activation's row times the 128×4 matrix. -/
theorem v107_row (e : Fin 320000) (j : Fin 4) :
    val_main_v107 (F := Ideal) x0 x1 x2 x3 x4 x5 x6 x7 x8 x16 x17 x18 x19 x20 (ix2 e j)
      = rowMul (row (val_main_v106 (F := Ideal) x0 x1 x2 x3 x4 x5 x6 x7 x8 x16 x17 x18 x19) e) (mat x20) j := by
  unfold val_main_v107
  generalize val_main_v106 (F := Ideal) x0 x1 x2 x3 x4 x5 x6 x7 x8 x16 x17 x18 x19 = X
  exact dot_row _ rfl X x20 e j

/-- The y coefficients: the hyperbolic tangent of the last product, entry by entry. -/
theorem v108_apply (i : S320000x4.Idx) :
    val_main_v108 (F := Ideal) x0 x1 x2 x3 x4 x5 x6 x7 x8 x16 x17 x18 x19 x20 i = Ideal.tanh (val_main_v107 (F := Ideal) x0 x1 x2 x3 x4 x5 x6 x7 x8 x16 x17 x18 x19 x20 i) := by
  unfold val_main_v108
  generalize val_main_v107 (F := Ideal) x0 x1 x2 x3 x4 x5 x6 x7 x8 x16 x17 x18 x19 x20 = y
  rfl

/-- Row e of the y head's first activation is the first layer on the message. -/
theorem v101_row (e : Fin 320000) :
    row (val_main_v101 (F := Ideal) x0 x1 x2 x3 x4 x5 x6 x7 x8 x16 x17) e = layer (row (val_main_v76 (F := Ideal) x0 x1 x2 x3 x4 x5 x6 x7 x8) e) (mat x16) (vec x17) :=
  funext fun k => (v101_apply x0 x1 x2 x3 x4 x5 x6 x7 x8 x16 x17 (ix2 e k)).trans (congrArg silu (v100_row x0 x1 x2 x3 x4 x5 x6 x7 x8 x16 x17 e k))

/-- Row e of the y head's second activation is the second layer on the first. -/
theorem v106_row (e : Fin 320000) :
    row (val_main_v106 (F := Ideal) x0 x1 x2 x3 x4 x5 x6 x7 x8 x16 x17 x18 x19) e = layer (layer (row (val_main_v76 (F := Ideal) x0 x1 x2 x3 x4 x5 x6 x7 x8) e) (mat x16) (vec x17)) (mat x18) (vec x19) := by
  funext k
  show val_main_v106 (F := Ideal) x0 x1 x2 x3 x4 x5 x6 x7 x8 x16 x17 x18 x19 (ix2 e k) = _
  rw [v106_apply, v105_row, v101_row]
  rfl

/-- The y coefficients of edge e. -/
theorem py_row (e : Fin 320000) :
    row (val_main_v108 (F := Ideal) x0 x1 x2 x3 x4 x5 x6 x7 x8 x16 x17 x18 x19 x20) e
      = head (row (val_main_v76 (F := Ideal) x0 x1 x2 x3 x4 x5 x6 x7 x8) e) (mat x16) (vec x17) (mat x18) (vec x19) (mat x20) := by
  funext j
  show val_main_v108 (F := Ideal) x0 x1 x2 x3 x4 x5 x6 x7 x8 x16 x17 x18 x19 x20 (ix2 e j) = _
  rw [v108_apply, v107_row, v106_row]
  rfl

/-! ## A node's new features: stages 135 to 149 -/

/-- The node part's first pre-activation at an entry of row n: the stacked row times the stacked weights plus the bias. -/
theorem v138_row (n : Fin 10000) (q : Fin 128) :
    val_main_v138 (F := Ideal) x0 x1 x2 x3 x4 x5 x6 x7 x8 x9 x10 x21 x22 (ix2 n q)
      = npre1 (row (val_main_v134 (F := Ideal) x0 x1 x2 x3 x4 x5 x6 x7 x8 x9 x10) n) (mat x21) (vec x22) q := by
  unfold val_main_v138 val_main_v135 val_main_v137 val_main_v136
  generalize val_main_v134 (F := Ideal) x0 x1 x2 x3 x4 x5 x6 x7 x8 x9 x10 = X
  exact dense_row _ rfl X x21 x22 _ _ n q

/-- The node part's first activation, entry by entry. -/
theorem v139_apply (i : S10000x128.Idx) :
    val_main_v139 (F := Ideal) x0 x1 x2 x3 x4 x5 x6 x7 x8 x9 x10 x21 x22 i = silu (val_main_v138 (F := Ideal) x0 x1 x2 x3 x4 x5 x6 x7 x8 x9 x10 x21 x22 i) := by
  unfold val_main_v139 val_main_call6_v5 val_main_call6_v4 val_main_call6_cst_0 val_main_call6_v3
    val_main_call6_v2 val_main_call6_cst val_main_call6_v1 val_main_call6_v0
  generalize val_main_v138 (F := Ideal) x0 x1 x2 x3 x4 x5 x6 x7 x8 x9 x10 x21 x22 = y
  exact silu_apply _ _ _ _ y i

/-- The node part's second pre-activation at an entry of row n. -/
theorem v143_row (n : Fin 10000) (q : Fin 128) :
    val_main_v143 (F := Ideal) x0 x1 x2 x3 x4 x5 x6 x7 x8 x9 x10 x21 x22 x23 x24 (ix2 n q)
      = rowMul (row (val_main_v139 (F := Ideal) x0 x1 x2 x3 x4 x5 x6 x7 x8 x9 x10 x21 x22) n) (mat x23) q + vec x24 q := by
  unfold val_main_v143 val_main_v140 val_main_v142 val_main_v141
  generalize val_main_v139 (F := Ideal) x0 x1 x2 x3 x4 x5 x6 x7 x8 x9 x10 x21 x22 = X
  exact dense_row _ rfl X x23 x24 _ _ n q

/-- The node part's second activation, entry by entry. -/
theorem v144_apply (i : S10000x128.Idx) :
    val_main_v144 (F := Ideal) x0 x1 x2 x3 x4 x5 x6 x7 x8 x9 x10 x21 x22 x23 x24 i = silu (val_main_v143 (F := Ideal) x0 x1 x2 x3 x4 x5 x6 x7 x8 x9 x10 x21 x22 x23 x24 i) := by
  unfold val_main_v144 val_main_call7_v5 val_main_call7_v4 val_main_call7_cst_0 val_main_call7_v3
    val_main_call7_v2 val_main_call7_cst val_main_call7_v1 val_main_call7_v0
  generalize val_main_v143 (F := Ideal) x0 x1 x2 x3 x4 x5 x6 x7 x8 x9 x10 x21 x22 x23 x24 = y
  exact silu_apply _ _ _ _ y i

/-- The node part's last affine map at an entry of row n. -/
theorem v148_row (n : Fin 10000) (q : Fin 128) :
    val_main_v148 (F := Ideal) x0 x1 x2 x3 x4 x5 x6 x7 x8 x9 x10 x21 x22 x23 x24 x25 x26 (ix2 n q)
      = rowMul (row (val_main_v144 (F := Ideal) x0 x1 x2 x3 x4 x5 x6 x7 x8 x9 x10 x21 x22 x23 x24) n) (mat x25) q + vec x26 q := by
  unfold val_main_v148 val_main_v145 val_main_v147 val_main_v146
  generalize val_main_v144 (F := Ideal) x0 x1 x2 x3 x4 x5 x6 x7 x8 x9 x10 x21 x22 x23 x24 = X
  exact dense_row _ rfl X x25 x26 _ _ n q

/-- The node's old features added back, entry by entry. -/
theorem v149_apply (i : S10000x128.Idx) :
    val_main_v149 (F := Ideal) x0 x1 x2 x3 x4 x5 x6 x7 x8 x9 x10 x21 x22 x23 x24 x25 x26 i = val_main_v148 (F := Ideal) x0 x1 x2 x3 x4 x5 x6 x7 x8 x9 x10 x21 x22 x23 x24 x25 x26 i + x2 i := by
  unfold val_main_v149
  generalize val_main_v148 (F := Ideal) x0 x1 x2 x3 x4 x5 x6 x7 x8 x9 x10 x21 x22 x23 x24 x25 x26 = y
  rfl

/-- The new features of node n, from the stacked row (averaged gated messages, then the node's features). -/
theorem node_row (n : Fin 10000) :
    row (val_main_v149 (F := Ideal) x0 x1 x2 x3 x4 x5 x6 x7 x8 x9 x10 x21 x22 x23 x24 x25 x26) n
      = nodeOut (npre1 (row (val_main_v134 (F := Ideal) x0 x1 x2 x3 x4 x5 x6 x7 x8 x9 x10) n) (mat x21) (vec x22))
          (mat x23) (vec x24) (mat x25) (vec x26) (row x2 n) := by
  -- row n of the first activation is x · σ(x) of the first pre-activation
  have h139 : row (val_main_v139 (F := Ideal) x0 x1 x2 x3 x4 x5 x6 x7 x8 x9 x10 x21 x22) n = fun k => silu (npre1 (row (val_main_v134 (F := Ideal) x0 x1 x2 x3 x4 x5 x6 x7 x8 x9 x10) n) (mat x21) (vec x22) k) :=
    funext fun k => (v139_apply x0 x1 x2 x3 x4 x5 x6 x7 x8 x9 x10 x21 x22 (ix2 n k)).trans (congrArg silu (v138_row x0 x1 x2 x3 x4 x5 x6 x7 x8 x9 x10 x21 x22 n k))
  -- row n of the second activation is the second layer on it
  have h144 : row (val_main_v144 (F := Ideal) x0 x1 x2 x3 x4 x5 x6 x7 x8 x9 x10 x21 x22 x23 x24) n
      = layer (fun k => silu (npre1 (row (val_main_v134 (F := Ideal) x0 x1 x2 x3 x4 x5 x6 x7 x8 x9 x10) n) (mat x21) (vec x22) k)) (mat x23) (vec x24) := by
    funext k
    show val_main_v144 (F := Ideal) x0 x1 x2 x3 x4 x5 x6 x7 x8 x9 x10 x21 x22 x23 x24 (ix2 n k) = _
    rw [v144_apply, v143_row, h139]
    rfl
  funext q
  show val_main_v149 (F := Ideal) x0 x1 x2 x3 x4 x5 x6 x7 x8 x9 x10 x21 x22 x23 x24 x25 x26 (ix2 n q) = _
  rw [v149_apply, v148_row, h144]
  rfl

end Cert.ReferenceIdeal.RefRows

end
-- ==== Proof.Stacking.lean ====
/-
  Stacked rows against stacked weights, on the extended reals.

  A row made of several parts laid side by side, times a weight matrix, is the sum of the products of each part with
  the block of the matrix's rows that faces it. The only law used is that a finite sum over an index set cut in two
  is the sum over the first part plus the sum over the second: addition on the extended reals is commutative and
  associative, and nothing about finiteness of the entries is needed or assumed.

  * a sum over m + n indices split at m; a row times a matrix split in two and in three row blocks;
  * two and four blocks joined along the columns, read at an entry of each part;
  * the first pre-activation of the edge part (264 = 128 + 128 + 8 columns) and of the node part (256 = 128 + 128
    columns): one product with the stacked weights equals the sum of the products with the weights' row blocks;
  * the left and the right four columns of an eight-column block.
-/
import proofs.«421440_j51007031607343_3_alg».proof.Proof.EgclSpec
import Idealize.ShloMosaic.Lib.ValueIdx
import Idealize.ShloMosaic.Lib.ValueLayout
import Idealize.ShloMosaic.Lib.Pipeline.Value
import Mathlib.Algebra.BigOperators.Fin

noncomputable section

namespace Stacking

open Idealize.ShloMosaic Idealize.ShloMosaic.ValueIdx RowLayers Egcl

/-! ## A row times a matrix, cut along the contracted axis -/

/-- Rows that agree entry by entry, against matrices that agree in column q, have the same product at q. -/
theorem rowMul_congr {k n : Nat} {a a' : Fin k → EReal} {B B' : Fin k → Fin n → EReal} {q : Fin n}
    (ha : ∀ c, a c = a' c) (hB : ∀ c, B c q = B' c q) : rowMul a B q = rowMul a' B' q :=
  Finset.sum_congr rfl fun c _ => by rw [ha c, hB c]

/-- A row of m + n entries times a matrix of m + n rows: the first m entries times the first m rows, plus the last n
    entries times the last n rows. -/
theorem rowMul_split {m n p : Nat} (a : Fin (m + n) → EReal) (B : Fin (m + n) → Fin p → EReal) (q : Fin p) :
    rowMul a B q = rowMul (fun c => a (Fin.castAdd n c)) (fun c => B (Fin.castAdd n c)) q
      + rowMul (fun c => a (Fin.natAdd m c)) (fun c => B (Fin.natAdd m c)) q :=
  Fin.sum_univ_add fun c => a c * B c q

/-- The same with three parts of m, n and l entries. -/
theorem rowMul_split3 {m n l p : Nat} (a : Fin (m + n + l) → EReal) (B : Fin (m + n + l) → Fin p → EReal) (q : Fin p) :
    rowMul a B q
      = rowMul (fun c => a (Fin.castAdd l (Fin.castAdd n c))) (fun c => B (Fin.castAdd l (Fin.castAdd n c))) q
        + rowMul (fun c => a (Fin.castAdd l (Fin.natAdd m c))) (fun c => B (Fin.castAdd l (Fin.natAdd m c))) q
        + rowMul (fun c => a (Fin.natAdd (m + n) c)) (fun c => B (Fin.natAdd (m + n) c)) q := by
  rw [rowMul_split a B q, rowMul_split (fun c => a (Fin.castAdd l c)) (fun c => B (Fin.castAdd l c)) q]

/-! ## Blocks joined along the columns, read at an entry -/

/-- Two blocks side by side, read in the left block. -/
theorem cat2_left {r n₀ n₁ n : Nat} (x₀ : (⟨2, ![r, n₀]⟩ : Shape).Idx → EReal) (x₁ : (⟨2, ![r, n₁]⟩ : Shape).Idx → EReal)
    (h : Shape.Concatenates [⟨2, ![r, n₀]⟩, ⟨2, ![r, n₁]⟩] ⟨2, ![r, n]⟩ 1) (e : Fin r) (k : Fin n) (c : Fin n₀)
    (hk : k.val = c.val) :
    concatenate ⟨2, ![r, n]⟩ 1 [⟨⟨2, ![r, n₀]⟩, x₀⟩, ⟨⟨2, ![r, n₁]⟩, x₁⟩] h (ix2 e k) = x₀ (ix2 e c) :=
  concatenate_pair_apply_left 1 x₀ x₁ h (ix2 e k) rfl (ix2 e c) fun b => by
    match b with
    | ⟨0, _⟩ => rfl
    | ⟨1, _⟩ => exact hk.symm

/-- Two blocks side by side, read in the right block: the column less the left block's width. -/
theorem cat2_right {r n₀ n₁ n : Nat} (x₀ : (⟨2, ![r, n₀]⟩ : Shape).Idx → EReal) (x₁ : (⟨2, ![r, n₁]⟩ : Shape).Idx → EReal)
    (h : Shape.Concatenates [⟨2, ![r, n₀]⟩, ⟨2, ![r, n₁]⟩] ⟨2, ![r, n]⟩ 1) (e : Fin r) (k : Fin n) (c : Fin n₁)
    (hk : k.val = n₀ + c.val) :
    concatenate ⟨2, ![r, n]⟩ 1 [⟨⟨2, ![r, n₀]⟩, x₀⟩, ⟨⟨2, ![r, n₁]⟩, x₁⟩] h (ix2 e k) = x₁ (ix2 e c) :=
  concatenate_pair_apply_right 1 x₀ x₁ h (ix2 e k) rfl rfl (ix2 e c)
    (fun b hb => by
      match b with
      | ⟨0, _⟩ => rfl
      | ⟨1, _⟩ => exact absurd rfl hb)
    (by show c.val + n₀ = k.val; omega)

/-- Four blocks side by side, read in the first. -/
theorem cat4_at0 {r n₀ n₁ n₂ n₃ n : Nat} (x₀ : (⟨2, ![r, n₀]⟩ : Shape).Idx → EReal) (x₁ : (⟨2, ![r, n₁]⟩ : Shape).Idx → EReal)
    (x₂ : (⟨2, ![r, n₂]⟩ : Shape).Idx → EReal) (x₃ : (⟨2, ![r, n₃]⟩ : Shape).Idx → EReal)
    (h : Shape.Concatenates [⟨2, ![r, n₀]⟩, ⟨2, ![r, n₁]⟩, ⟨2, ![r, n₂]⟩, ⟨2, ![r, n₃]⟩] ⟨2, ![r, n]⟩ 1)
    (e : Fin r) (k : Fin n) (c : Fin n₀) (hk : k.val = c.val) :
    concatenate ⟨2, ![r, n]⟩ 1 [⟨⟨2, ![r, n₀]⟩, x₀⟩, ⟨⟨2, ![r, n₁]⟩, x₁⟩, ⟨⟨2, ![r, n₂]⟩, x₂⟩, ⟨⟨2, ![r, n₃]⟩, x₃⟩] h (ix2 e k)
      = x₀ (ix2 e c) :=
  concatenate_apply_piece 1 [⟨⟨2, ![r, n₀]⟩, x₀⟩, ⟨⟨2, ![r, n₁]⟩, x₁⟩, ⟨⟨2, ![r, n₂]⟩, x₂⟩, ⟨⟨2, ![r, n₃]⟩, x₃⟩] h (ix2 e k) 0 (by show 0 < 4; decide) _ x₀ rfl rfl 0 rfl (ix2 e c)
    (fun b hb => by
      match b with
      | ⟨0, _⟩ => rfl
      | ⟨1, _⟩ => exact absurd rfl hb)
    (by show 0 + c.val = k.val; omega)

/-- Four blocks side by side, read in the second: the column less the first block's width. -/
theorem cat4_at1 {r n₀ n₁ n₂ n₃ n : Nat} (x₀ : (⟨2, ![r, n₀]⟩ : Shape).Idx → EReal) (x₁ : (⟨2, ![r, n₁]⟩ : Shape).Idx → EReal)
    (x₂ : (⟨2, ![r, n₂]⟩ : Shape).Idx → EReal) (x₃ : (⟨2, ![r, n₃]⟩ : Shape).Idx → EReal)
    (h : Shape.Concatenates [⟨2, ![r, n₀]⟩, ⟨2, ![r, n₁]⟩, ⟨2, ![r, n₂]⟩, ⟨2, ![r, n₃]⟩] ⟨2, ![r, n]⟩ 1)
    (e : Fin r) (k : Fin n) (c : Fin n₁) (hk : k.val = n₀ + c.val) :
    concatenate ⟨2, ![r, n]⟩ 1 [⟨⟨2, ![r, n₀]⟩, x₀⟩, ⟨⟨2, ![r, n₁]⟩, x₁⟩, ⟨⟨2, ![r, n₂]⟩, x₂⟩, ⟨⟨2, ![r, n₃]⟩, x₃⟩] h (ix2 e k)
      = x₁ (ix2 e c) :=
  concatenate_apply_piece 1 [⟨⟨2, ![r, n₀]⟩, x₀⟩, ⟨⟨2, ![r, n₁]⟩, x₁⟩, ⟨⟨2, ![r, n₂]⟩, x₂⟩, ⟨⟨2, ![r, n₃]⟩, x₃⟩] h (ix2 e k) 1 (by show 1 < 4; decide) _ x₁ rfl rfl (n₀ + 0) rfl (ix2 e c)
    (fun b hb => by
      match b with
      | ⟨0, _⟩ => rfl
      | ⟨1, _⟩ => exact absurd rfl hb)
    (by show n₀ + 0 + c.val = k.val; omega)

/-- Four blocks side by side, read in the third: the column less the first two blocks' widths. -/
theorem cat4_at2 {r n₀ n₁ n₂ n₃ n : Nat} (x₀ : (⟨2, ![r, n₀]⟩ : Shape).Idx → EReal) (x₁ : (⟨2, ![r, n₁]⟩ : Shape).Idx → EReal)
    (x₂ : (⟨2, ![r, n₂]⟩ : Shape).Idx → EReal) (x₃ : (⟨2, ![r, n₃]⟩ : Shape).Idx → EReal)
    (h : Shape.Concatenates [⟨2, ![r, n₀]⟩, ⟨2, ![r, n₁]⟩, ⟨2, ![r, n₂]⟩, ⟨2, ![r, n₃]⟩] ⟨2, ![r, n]⟩ 1)
    (e : Fin r) (k : Fin n) (c : Fin n₂) (hk : k.val = n₀ + n₁ + c.val) :
    concatenate ⟨2, ![r, n]⟩ 1 [⟨⟨2, ![r, n₀]⟩, x₀⟩, ⟨⟨2, ![r, n₁]⟩, x₁⟩, ⟨⟨2, ![r, n₂]⟩, x₂⟩, ⟨⟨2, ![r, n₃]⟩, x₃⟩] h (ix2 e k)
      = x₂ (ix2 e c) :=
  concatenate_apply_piece 1 [⟨⟨2, ![r, n₀]⟩, x₀⟩, ⟨⟨2, ![r, n₁]⟩, x₁⟩, ⟨⟨2, ![r, n₂]⟩, x₂⟩, ⟨⟨2, ![r, n₃]⟩, x₃⟩] h (ix2 e k) 2 (by show 2 < 4; decide) _ x₂ rfl rfl (n₀ + (n₁ + 0)) rfl (ix2 e c)
    (fun b hb => by
      match b with
      | ⟨0, _⟩ => rfl
      | ⟨1, _⟩ => exact absurd rfl hb)
    (by show n₀ + (n₁ + 0) + c.val = k.val; omega)

/-- Four blocks side by side, read in the fourth: the column less the first three blocks' widths. -/
theorem cat4_at3 {r n₀ n₁ n₂ n₃ n : Nat} (x₀ : (⟨2, ![r, n₀]⟩ : Shape).Idx → EReal) (x₁ : (⟨2, ![r, n₁]⟩ : Shape).Idx → EReal)
    (x₂ : (⟨2, ![r, n₂]⟩ : Shape).Idx → EReal) (x₃ : (⟨2, ![r, n₃]⟩ : Shape).Idx → EReal)
    (h : Shape.Concatenates [⟨2, ![r, n₀]⟩, ⟨2, ![r, n₁]⟩, ⟨2, ![r, n₂]⟩, ⟨2, ![r, n₃]⟩] ⟨2, ![r, n]⟩ 1)
    (e : Fin r) (k : Fin n) (c : Fin n₃) (hk : k.val = n₀ + n₁ + n₂ + c.val) :
    concatenate ⟨2, ![r, n]⟩ 1 [⟨⟨2, ![r, n₀]⟩, x₀⟩, ⟨⟨2, ![r, n₁]⟩, x₁⟩, ⟨⟨2, ![r, n₂]⟩, x₂⟩, ⟨⟨2, ![r, n₃]⟩, x₃⟩] h (ix2 e k)
      = x₃ (ix2 e c) :=
  concatenate_apply_piece 1 [⟨⟨2, ![r, n₀]⟩, x₀⟩, ⟨⟨2, ![r, n₁]⟩, x₁⟩, ⟨⟨2, ![r, n₂]⟩, x₂⟩, ⟨⟨2, ![r, n₃]⟩, x₃⟩] h (ix2 e k) 3 (by show 3 < 4; decide) _ x₃ rfl rfl (n₀ + (n₁ + (n₂ + 0))) rfl (ix2 e c)
    (fun b hb => by
      match b with
      | ⟨0, _⟩ => rfl
      | ⟨1, _⟩ => exact absurd rfl hb)
    (by show n₀ + (n₁ + (n₂ + 0)) + c.val = k.val; omega)

/-! ## The two first pre-activations, and the halves of the coefficient block -/

/-- The edge part: the stacked row (sender's features, receiver's features, the two blocks of four squared lengths)
    times the stacked 264×128 weights is the sum of the three parts' products with the weights' row blocks 0–127,
    128–255 and 256–263. -/
theorem edge_pre (SF RF : (⟨2, ![320000, 128]⟩ : Shape).Idx → EReal) (LX2 LY2 : (⟨2, ![320000, 4]⟩ : Shape).Idx → EReal)
    (W : (⟨2, ![264, 128]⟩ : Shape).Idx → EReal) (b : Fin 128 → EReal)
    (h4 : Shape.Concatenates [⟨2, ![320000, 128]⟩, ⟨2, ![320000, 128]⟩, ⟨2, ![320000, 4]⟩, ⟨2, ![320000, 4]⟩] ⟨2, ![320000, 264]⟩ 1)
    (h2 : Shape.Concatenates [⟨2, ![320000, 4]⟩, ⟨2, ![320000, 4]⟩] ⟨2, ![320000, 8]⟩ 1)
    (s0 : (⟨2, ![264, 128]⟩ : Shape).Slices ![0, 0] ⟨2, ![128, 128]⟩)
    (s1 : (⟨2, ![264, 128]⟩ : Shape).Slices ![128, 0] ⟨2, ![128, 128]⟩)
    (s2 : (⟨2, ![264, 128]⟩ : Shape).Slices ![256, 0] ⟨2, ![8, 128]⟩) (e : Fin 320000) :
    pre1 (row (concatenate ⟨2, ![320000, 264]⟩ 1 [⟨⟨2, ![320000, 128]⟩, SF⟩, ⟨⟨2, ![320000, 128]⟩, RF⟩, ⟨⟨2, ![320000, 4]⟩, LX2⟩, ⟨⟨2, ![320000, 4]⟩, LY2⟩] h4) e) (mat W) b
      = pre3 (row SF e) (row RF e) (row (concatenate ⟨2, ![320000, 8]⟩ 1 [⟨⟨2, ![320000, 4]⟩, LX2⟩, ⟨⟨2, ![320000, 4]⟩, LY2⟩] h2) e)
          (mat (extractStridedSlice ⟨2, ![128, 128]⟩ ![0, 0] W s0)) (mat (extractStridedSlice ⟨2, ![128, 128]⟩ ![128, 0] W s1))
          (mat (extractStridedSlice ⟨2, ![8, 128]⟩ ![256, 0] W s2)) b := by
  funext q
  refine congrArg (· + b q) ?_
  -- the sum over the 264 columns, cut at 128 and at 256
  refine (rowMul_split3 (m := 128) (n := 128) (l := 8) _ _ q).trans ?_
  refine congrArg₂ (· + ·) (congrArg₂ (· + ·) ?_ ?_) ?_
  · -- columns 0–127: the sender's features against rows 0–127 of the weights
    exact rowMul_congr (fun c => cat4_at0 SF RF LX2 LY2 h4 e _ c rfl)
      (fun c => (slice2_axis0_apply 0 W s0 c q _ (Nat.zero_add _).symm).symm)
  · -- columns 128–255: the receiver's features against rows 128–255
    exact rowMul_congr (fun c => cat4_at1 SF RF LX2 LY2 h4 e _ c rfl)
      (fun c => (slice2_axis0_apply 128 W s1 c q _ rfl).symm)
  · -- columns 256–263: the eight squared lengths against rows 256–263
    refine rowMul_congr (fun c => ?_) (fun c => (slice2_axis0_apply 256 W s2 c q _ rfl).symm)
    -- entry c of the eight is, on both sides, entry c of the first four or entry c − 4 of the last four
    by_cases hc : c.val < 4
    · exact (cat4_at2 SF RF LX2 LY2 h4 e _ ⟨c.val, hc⟩ rfl).trans
        (cat2_left LX2 LY2 h2 e c ⟨c.val, hc⟩ rfl).symm
    · have hc' : c.val - 4 < 4 := by have := c.isLt; omega
      exact (cat4_at3 SF RF LX2 LY2 h4 e _ ⟨c.val - 4, hc'⟩
          (by show 128 + 128 + c.val = 128 + 128 + 4 + (c.val - 4); omega)).trans
        (cat2_right LX2 LY2 h2 e c ⟨c.val - 4, hc'⟩ (by show c.val = 4 + (c.val - 4); omega)).symm

/-- The node part: the stacked row (averaged messages, the node's features) times the stacked 256×128 weights is the
    sum of the two parts' products with the weights' row blocks 0–127 and 128–255. -/
theorem node_pre (MI NF : (⟨2, ![10000, 128]⟩ : Shape).Idx → EReal) (W : (⟨2, ![256, 128]⟩ : Shape).Idx → EReal) (b : Fin 128 → EReal)
    (h2 : Shape.Concatenates [⟨2, ![10000, 128]⟩, ⟨2, ![10000, 128]⟩] ⟨2, ![10000, 256]⟩ 1)
    (s0 : (⟨2, ![256, 128]⟩ : Shape).Slices ![0, 0] ⟨2, ![128, 128]⟩)
    (s1 : (⟨2, ![256, 128]⟩ : Shape).Slices ![128, 0] ⟨2, ![128, 128]⟩) (n : Fin 10000) :
    npre1 (row (concatenate ⟨2, ![10000, 256]⟩ 1 [⟨⟨2, ![10000, 128]⟩, MI⟩, ⟨⟨2, ![10000, 128]⟩, NF⟩] h2) n) (mat W) b
      = npre2 (row MI n) (row NF n) (mat (extractStridedSlice ⟨2, ![128, 128]⟩ ![0, 0] W s0))
          (mat (extractStridedSlice ⟨2, ![128, 128]⟩ ![128, 0] W s1)) b := by
  funext q
  refine congrArg (· + b q) ?_
  -- the sum over the 256 columns, cut at 128
  refine (rowMul_split (m := 128) (n := 128) _ _ q).trans ?_
  refine congrArg₂ (· + ·) ?_ ?_
  · exact rowMul_congr (fun c => cat2_left MI NF h2 n _ c rfl)
      (fun c => (slice2_axis0_apply 0 W s0 c q _ (Nat.zero_add _).symm).symm)
  · exact rowMul_congr (fun c => cat2_right MI NF h2 n _ c rfl)
      (fun c => (slice2_axis0_apply 128 W s1 c q _ rfl).symm)

/-- The left four columns of an eight-column block. -/
theorem coeff_left (PXY : (⟨2, ![320000, 8]⟩ : Shape).Idx → EReal) (s : (⟨2, ![320000, 8]⟩ : Shape).Slices ![0, 0] ⟨2, ![320000, 4]⟩)
    (e : Fin 320000) (j : Fin 4) :
    extractStridedSlice ⟨2, ![320000, 4]⟩ ![0, 0] PXY s (ix2 e j) = PXY (ix2 e (Fin.castAdd 4 j)) :=
  slice2_axis1_apply 0 PXY s e j (Fin.castAdd 4 j) (Nat.zero_add _).symm

/-- The right four columns of an eight-column block. -/
theorem coeff_right (PXY : (⟨2, ![320000, 8]⟩ : Shape).Idx → EReal) (s : (⟨2, ![320000, 8]⟩ : Shape).Slices ![0, 4] ⟨2, ![320000, 4]⟩)
    (e : Fin 320000) (j : Fin 4) :
    extractStridedSlice ⟨2, ![320000, 4]⟩ ![0, 4] PXY s (ix2 e j) = PXY (ix2 e (Fin.natAdd 4 j)) :=
  slice2_axis1_apply 4 PXY s e j (Fin.natAdd 4 j) rfl

end Stacking

end
-- ==== Proof.KernelValue.lean ====
/-
  The idealized kernel program's four results, read back through its host stretches and its two regions, are the
  reference's stages of the same arguments.

  The host stretch before the first region computes, from the arguments, exactly the reference's own first stages
  (the gathered features, the normalised differences, their squared lengths) and the narrowed weights; the first
  region turns them, row by row, into the gated messages and the two heads' coefficients, which are the reference's
  stages once the stacked product is split into its three parts; the stretch between the regions applies the
  reference's own scatter-sums and averages; the second region gives the reference's new features once its stacked
  product is split in two; the last stretch adds the arguments back.
-/
import proofs.«421440_j51007031607343_3_alg».proof.Proof.KernelRun
import proofs.«421440_j51007031607343_3_alg».proof.Proof.KernelEntry
import proofs.«421440_j51007031607343_3_alg».proof.Proof.EdgeArray
import proofs.«421440_j51007031607343_3_alg».proof.Proof.NodeArray
import proofs.«421440_j51007031607343_3_alg».proof.Proof.RefRows
import proofs.«421440_j51007031607343_3_alg».proof.Proof.Stacking
import Idealize.ShloMosaic.Lib.StableHlo.Run
import Idealize.ShloMosaic.PureOps.Ideal

set_option maxRecDepth 16384
-- the abbreviations a0 … a26 below mention the section's variables
set_option quotPrecheck false

noncomputable section

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx RowLayers Egcl
open Cert.KernelIdeal.EdgeArray Cert.KernelIdeal.NodeArray Cert.ReferenceIdeal.Read

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)
local notation "a12" => m ((c : Thread nD τ).loc main_arg12)
local notation "a13" => m ((c : Thread nD τ).loc main_arg13)
local notation "a14" => m ((c : Thread nD τ).loc main_arg14)
local notation "a15" => m ((c : Thread nD τ).loc main_arg15)
local notation "a16" => m ((c : Thread nD τ).loc main_arg16)
local notation "a17" => m ((c : Thread nD τ).loc main_arg17)
local notation "a18" => m ((c : Thread nD τ).loc main_arg18)
local notation "a19" => m ((c : Thread nD τ).loc main_arg19)
local notation "a20" => m ((c : Thread nD τ).loc main_arg20)
local notation "a21" => m ((c : Thread nD τ).loc main_arg21)
local notation "a22" => m ((c : Thread nD τ).loc main_arg22)
local notation "a23" => m ((c : Thread nD τ).loc main_arg23)
local notation "a24" => m ((c : Thread nD τ).loc main_arg24)
local notation "a25" => m ((c : Thread nD τ).loc main_arg25)
local notation "a26" => m ((c : Thread nD τ).loc main_arg26)

/-! ## What the first region finds: the host stretch before it, read at each buffer the region or a later stretch uses -/

/-- At the first region's entry: rows 0–127 of the first layer's weights. -/
theorem in0_v70 : V1 (F := Ideal) m ρ c main_v70 = truncf (F := Ideal) .bf16 (extractStridedSlice S128x128 ![0, 0] (a5 : Vec Ideal S264x128 .f32) slices_S264x128_S128x128_0_0) bitsLt_bf16_f32 := by
  show StableHlo.after hostOps0 (W0 m ρ c) (Proc.devRef .tc main_v70) = _
  chain_rfl

/-- At the first region's entry: rows 128–255. -/
theorem in0_v71 : V1 (F := Ideal) m ρ c main_v71 = truncf (F := Ideal) .bf16 (extractStridedSlice S128x128 ![128, 0] (a5 : Vec Ideal S264x128 .f32) slices_S264x128_S128x128_128_0) bitsLt_bf16_f32 := by
  show StableHlo.after hostOps0 (W0 m ρ c) (Proc.devRef .tc main_v71) = _
  chain_rfl

/-- At the first region's entry: rows 256–263. -/
theorem in0_v72 : V1 (F := Ideal) m ρ c main_v72 = truncf (F := Ideal) .bf16 (extractStridedSlice S8x128 ![256, 0] (a5 : Vec Ideal S264x128 .f32) slices_S264x128_S8x128_256_0) bitsLt_bf16_f32 := by
  show StableHlo.after hostOps0 (W0 m ρ c) (Proc.devRef .tc main_v72) = _
  chain_rfl

/-- At the first region's entry: argument 7 in the narrower format. -/
theorem in0_v73 : V1 (F := Ideal) m ρ c main_v73 = truncf (F := Ideal) .bf16 (a7 : Vec Ideal S128x128 .f32) bitsLt_bf16_f32 := by
  show StableHlo.after hostOps0 (W0 m ρ c) (Proc.devRef .tc main_v73) = _
  chain_rfl

/-- At the first region's entry: argument 9 in the narrower format. -/
theorem in0_v74 : V1 (F := Ideal) m ρ c main_v74 = truncf (F := Ideal) .bf16 (a9 : Vec Ideal S128x1 .f32) bitsLt_bf16_f32 := by
  show StableHlo.after hostOps0 (W0 m ρ c) (Proc.devRef .tc main_v74) = _
  chain_rfl

/-- At the first region's entry: argument 11 in the narrower format. -/
theorem in0_v75 : V1 (F := Ideal) m ρ c main_v75 = truncf (F := Ideal) .bf16 (a11 : Vec Ideal S128x128 .f32) bitsLt_bf16_f32 := by
  show StableHlo.after hostOps0 (W0 m ρ c) (Proc.devRef .tc main_v75) = _
  chain_rfl

/-- At the first region's entry: argument 13 in the narrower format. -/
theorem in0_v76 : V1 (F := Ideal) m ρ c main_v76 = truncf (F := Ideal) .bf16 (a13 : Vec Ideal S128x128 .f32) bitsLt_bf16_f32 := by
  show StableHlo.after hostOps0 (W0 m ρ c) (Proc.devRef .tc main_v76) = _
  chain_rfl

/-- At the first region's entry: argument 15 in the narrower format. -/
theorem in0_v77 : V1 (F := Ideal) m ρ c main_v77 = truncf (F := Ideal) .bf16 (a15 : Vec Ideal S128x4 .f32) bitsLt_bf16_f32 := by
  show StableHlo.after hostOps0 (W0 m ρ c) (Proc.devRef .tc main_v77) = _
  chain_rfl

/-- At the first region's entry: argument 16 in the narrower format. -/
theorem in0_v78 : V1 (F := Ideal) m ρ c main_v78 = truncf (F := Ideal) .bf16 (a16 : Vec Ideal S128x128 .f32) bitsLt_bf16_f32 := by
  show StableHlo.after hostOps0 (W0 m ρ c) (Proc.devRef .tc main_v78) = _
  chain_rfl

/-- At the first region's entry: argument 18 in the narrower format. -/
theorem in0_v79 : V1 (F := Ideal) m ρ c main_v79 = truncf (F := Ideal) .bf16 (a18 : Vec Ideal S128x128 .f32) bitsLt_bf16_f32 := by
  show StableHlo.after hostOps0 (W0 m ρ c) (Proc.devRef .tc main_v79) = _
  chain_rfl

/-- At the first region's entry: argument 20 in the narrower format. -/
theorem in0_v80 : V1 (F := Ideal) m ρ c main_v80 = truncf (F := Ideal) .bf16 (a20 : Vec Ideal S128x4 .f32) bitsLt_bf16_f32 := by
  show StableHlo.after hostOps0 (W0 m ρ c) (Proc.devRef .tc main_v80) = _
  chain_rfl

/-- At the first region's entry: argument 6, untouched. -/
theorem in0_arg6 : V1 (F := Ideal) m ρ c main_arg6 = a6 := by
  show StableHlo.after hostOps0 (W0 m ρ c) (Proc.devRef .tc main_arg6) = _
  chain_rfl

/-- At the first region's entry: argument 8, untouched. -/
theorem in0_arg8 : V1 (F := Ideal) m ρ c main_arg8 = a8 := by
  show StableHlo.after hostOps0 (W0 m ρ c) (Proc.devRef .tc main_arg8) = _
  chain_rfl

/-- At the first region's entry: argument 10, untouched. -/
theorem in0_arg10 : V1 (F := Ideal) m ρ c main_arg10 = a10 := by
  show StableHlo.after hostOps0 (W0 m ρ c) (Proc.devRef .tc main_arg10) = _
  chain_rfl

/-- At the first region's entry: argument 12, untouched. -/
theorem in0_arg12 : V1 (F := Ideal) m ρ c main_arg12 = a12 := by
  show StableHlo.after hostOps0 (W0 m ρ c) (Proc.devRef .tc main_arg12) = _
  chain_rfl

/-- At the first region's entry: argument 14, untouched. -/
theorem in0_arg14 : V1 (F := Ideal) m ρ c main_arg14 = a14 := by
  show StableHlo.after hostOps0 (W0 m ρ c) (Proc.devRef .tc main_arg14) = _
  chain_rfl

/-- At the first region's entry: argument 17, untouched. -/
theorem in0_arg17 : V1 (F := Ideal) m ρ c main_arg17 = a17 := by
  show StableHlo.after hostOps0 (W0 m ρ c) (Proc.devRef .tc main_arg17) = _
  chain_rfl

/-- At the first region's entry: argument 19, untouched. -/
theorem in0_arg19 : V1 (F := Ideal) m ρ c main_arg19 = a19 := by
  show StableHlo.after hostOps0 (W0 m ρ c) (Proc.devRef .tc main_arg19) = _
  chain_rfl

/-- At the first region's entry: argument 0, untouched. -/
theorem in0_arg0 : V1 (F := Ideal) m ρ c main_arg0 = a0 := by
  show StableHlo.after hostOps0 (W0 m ρ c) (Proc.devRef .tc main_arg0) = _
  chain_rfl

/-- At the first region's entry: argument 1, untouched. -/
theorem in0_arg1 : V1 (F := Ideal) m ρ c main_arg1 = a1 := by
  show StableHlo.after hostOps0 (W0 m ρ c) (Proc.devRef .tc main_arg1) = _
  chain_rfl

/-- At the first region's entry: argument 2, untouched. -/
theorem in0_arg2 : V1 (F := Ideal) m ρ c main_arg2 = a2 := by
  show StableHlo.after hostOps0 (W0 m ρ c) (Proc.devRef .tc main_arg2) = _
  chain_rfl

/-- At the first region's entry: argument 4, untouched. -/
theorem in0_arg4 : V1 (F := Ideal) m ρ c main_arg4 = a4 := by
  show StableHlo.after hostOps0 (W0 m ρ c) (Proc.devRef .tc main_arg4) = _
  chain_rfl

/-- At the first region's entry: argument 21, untouched. -/
theorem in0_arg21 : V1 (F := Ideal) m ρ c main_arg21 = a21 := by
  show StableHlo.after hostOps0 (W0 m ρ c) (Proc.devRef .tc main_arg21) = _
  chain_rfl

/-- At the first region's entry: argument 22, untouched. -/
theorem in0_arg22 : V1 (F := Ideal) m ρ c main_arg22 = a22 := by
  show StableHlo.after hostOps0 (W0 m ρ c) (Proc.devRef .tc main_arg22) = _
  chain_rfl

/-- At the first region's entry: argument 23, untouched. -/
theorem in0_arg23 : V1 (F := Ideal) m ρ c main_arg23 = a23 := by
  show StableHlo.after hostOps0 (W0 m ρ c) (Proc.devRef .tc main_arg23) = _
  chain_rfl

/-- At the first region's entry: argument 24, untouched. -/
theorem in0_arg24 : V1 (F := Ideal) m ρ c main_arg24 = a24 := by
  show StableHlo.after hostOps0 (W0 m ρ c) (Proc.devRef .tc main_arg24) = _
  chain_rfl

/-- At the first region's entry: argument 25, untouched. -/
theorem in0_arg25 : V1 (F := Ideal) m ρ c main_arg25 = a25 := by
  show StableHlo.after hostOps0 (W0 m ρ c) (Proc.devRef .tc main_arg25) = _
  chain_rfl

/-- At the first region's entry: argument 26, untouched. -/
theorem in0_arg26 : V1 (F := Ideal) m ρ c main_arg26 = a26 := by
  show StableHlo.after hostOps0 (W0 m ρ c) (Proc.devRef .tc main_arg26) = _
  chain_rfl

/-! ## The first region's two arrays are the reference's stages -/

/-- The message of edge e, formed by the region from three partial products, is the reference's, formed from one
    stacked product: the sum over the 264 stacked columns splits into the sums over its three parts. -/
theorem msgAt_eq (e : Fin 320000) :
    msgAt (V1 (F := Ideal) m ρ) c e = row (val_main_v76 (F := Ideal) a0 a1 a2 a3 a4 a5 a6 a7 a8) e := by
  rw [Cert.ReferenceIdeal.RefRows.msg_row]
  unfold msgAt
  rw [in0_v56, in0_v63, in0_v66, in0_v70, in0_v71, in0_v72, in0_arg6, in0_v73, in0_arg8]
  have hp := Stacking.edge_pre (val_main_v56 (F := Ideal) a2 a3) (val_main_v63 (F := Ideal) a2 a4) (val_main_v64 (F := Ideal) a0 a3 a4)
    (val_main_v65 (F := Ideal) a1 a3 a4) a5 (vec a6) Cert.ReferenceIdeal.Facts₀.concatenates_S320000x128_S320000x128_S320000x4_S320000x4_S320000x264_d1
    concatenates_S320000x4_S320000x4_S320000x8_d1 slices_S264x128_S128x128_0_0 slices_S264x128_S128x128_128_0 slices_S264x128_S8x128_256_0 e
  exact congrArg (fun pre => msg pre (mat a7) (vec a8)) hp.symm

/-- The first output array is the reference's gated messages. -/
theorem mg_eq : G21 (V1 (F := Ideal) m ρ) c = val_main_v128 (F := Ideal) a0 a1 a2 a3 a4 a5 a6 a7 a8 a9 a10 := by
  funext i
  obtain ⟨e, q, rfl⟩ : ∃ (e : Fin 320000) (q : Fin 128), i = ix2 e q := ⟨i 0, i 1, eq_ix2 i⟩
  refine Eq.trans ?_ (congrFun (Cert.ReferenceIdeal.RefRows.gated_row a0 a1 a2 a3 a4 a5 a6 a7 a8 a9 a10 e) q).symm
  show gated (msgAt (V1 m ρ) c e) (mat (V1 m ρ c main_v74)) (vec (V1 m ρ c main_arg10)) q = _
  rw [msgAt_eq, in0_v74, in0_arg10]
  rfl

/-- The first four columns of the second output array are the reference's x coefficients. -/
theorem px_eq (s : S320000x8.Slices ![0, 0] S320000x4) :
    extractStridedSlice S320000x4 ![0, 0] (G22 (V1 (F := Ideal) m ρ) c) s = val_main_v88 (F := Ideal) a0 a1 a2 a3 a4 a5 a6 a7 a8 a11 a12 a13 a14 a15 := by
  funext i
  obtain ⟨e, j, rfl⟩ : ∃ (e : Fin 320000) (j : Fin 4), i = ix2 e j := ⟨i 0, i 1, eq_ix2 i⟩
  rw [Stacking.coeff_left]
  refine Eq.trans ?_ (congrFun (Cert.ReferenceIdeal.RefRows.px_row a0 a1 a2 a3 a4 a5 a6 a7 a8 a11 a12 a13 a14 a15 e) j).symm
  show Fin.append (head (msgAt (V1 m ρ) c e) (mat (V1 m ρ c main_v75)) (vec (V1 m ρ c main_arg12)) (mat (V1 m ρ c main_v76)) (vec (V1 m ρ c main_arg14)) (mat (V1 m ρ c main_v77)))
      (head (msgAt (V1 m ρ) c e) (mat (V1 m ρ c main_v78)) (vec (V1 m ρ c main_arg17)) (mat (V1 m ρ c main_v79)) (vec (V1 m ρ c main_arg19)) (mat (V1 m ρ c main_v80))) (Fin.castAdd 4 j) = _
  rw [Fin.append_left, msgAt_eq, in0_v75, in0_arg12, in0_v76, in0_arg14, in0_v77]
  rfl

/-- The last four columns of the second output array are the reference's y coefficients. -/
theorem py_eq (s : S320000x8.Slices ![0, 4] S320000x4) :
    extractStridedSlice S320000x4 ![0, 4] (G22 (V1 (F := Ideal) m ρ) c) s = val_main_v108 (F := Ideal) a0 a1 a2 a3 a4 a5 a6 a7 a8 a16 a17 a18 a19 a20 := by
  funext i
  obtain ⟨e, j, rfl⟩ : ∃ (e : Fin 320000) (j : Fin 4), i = ix2 e j := ⟨i 0, i 1, eq_ix2 i⟩
  rw [Stacking.coeff_right]
  refine Eq.trans ?_ (congrFun (Cert.ReferenceIdeal.RefRows.py_row a0 a1 a2 a3 a4 a5 a6 a7 a8 a16 a17 a18 a19 a20 e) j).symm
  show Fin.append (head (msgAt (V1 m ρ) c e) (mat (V1 m ρ c main_v75)) (vec (V1 m ρ c main_arg12)) (mat (V1 m ρ c main_v76)) (vec (V1 m ρ c main_arg14)) (mat (V1 m ρ c main_v77)))
      (head (msgAt (V1 m ρ) c e) (mat (V1 m ρ c main_v78)) (vec (V1 m ρ c main_arg17)) (mat (V1 m ρ c main_v79)) (vec (V1 m ρ c main_arg19)) (mat (V1 m ρ c main_v80))) (Fin.natAdd 4 j) = _
  rw [Fin.append_right, msgAt_eq, in0_v78, in0_arg17, in0_v79, in0_arg19, in0_v80]
  rfl

/-! ## At the first region's exit: its two output arrays, every other buffer as at its entry -/

theorem out0_mg : W2 (F := Ideal) m ρ c (Proc.devRef .tc main_v81_0) = val_main_v128 (F := Ideal) a0 a1 a2 a3 a4 a5 a6 a7 a8 a9 a10 :=
  ((W2_arr m ρ c 21).trans (edge_mg (V1 m ρ) c)).trans (mg_eq m ρ c)

theorem out0_pxy : W2 (F := Ideal) m ρ c (Proc.devRef .tc main_v81_1) = G22 (V1 (F := Ideal) m ρ) c :=
  (W2_arr m ρ c 22).trans (edge_pxy (V1 m ρ) c)

theorem out0_v24 : W2 (F := Ideal) m ρ c (Proc.devRef .tc main_v24) = val_main_v24 (F := Ideal) a0 a3 a4 :=
  (W2_of_ne m ρ c main_v24 (by decide)).trans (in0_v24 m ρ c)

theorem out0_v49 : W2 (F := Ideal) m ρ c (Proc.devRef .tc main_v49) = val_main_v49 (F := Ideal) a1 a3 a4 :=
  (W2_of_ne m ρ c main_v49 (by decide)).trans (in0_v49 m ρ c)

theorem out0_arg0 : W2 (F := Ideal) m ρ c (Proc.devRef .tc main_arg0) = a0 :=
  (W2_of_ne m ρ c main_arg0 (by decide)).trans (in0_arg0 m ρ c)

theorem out0_arg1 : W2 (F := Ideal) m ρ c (Proc.devRef .tc main_arg1) = a1 :=
  (W2_of_ne m ρ c main_arg1 (by decide)).trans (in0_arg1 m ρ c)

theorem out0_arg2 : W2 (F := Ideal) m ρ c (Proc.devRef .tc main_arg2) = a2 :=
  (W2_of_ne m ρ c main_arg2 (by decide)).trans (in0_arg2 m ρ c)

theorem out0_arg4 : W2 (F := Ideal) m ρ c (Proc.devRef .tc main_arg4) = a4 :=
  (W2_of_ne m ρ c main_arg4 (by decide)).trans (in0_arg4 m ρ c)

theorem out0_arg21 : W2 (F := Ideal) m ρ c (Proc.devRef .tc main_arg21) = a21 :=
  (W2_of_ne m ρ c main_arg21 (by decide)).trans (in0_arg21 m ρ c)

theorem out0_arg22 : W2 (F := Ideal) m ρ c (Proc.devRef .tc main_arg22) = a22 :=
  (W2_of_ne m ρ c main_arg22 (by decide)).trans (in0_arg22 m ρ c)

theorem out0_arg23 : W2 (F := Ideal) m ρ c (Proc.devRef .tc main_arg23) = a23 :=
  (W2_of_ne m ρ c main_arg23 (by decide)).trans (in0_arg23 m ρ c)

theorem out0_arg24 : W2 (F := Ideal) m ρ c (Proc.devRef .tc main_arg24) = a24 :=
  (W2_of_ne m ρ c main_arg24 (by decide)).trans (in0_arg24 m ρ c)

theorem out0_arg25 : W2 (F := Ideal) m ρ c (Proc.devRef .tc main_arg25) = a25 :=
  (W2_of_ne m ρ c main_arg25 (by decide)).trans (in0_arg25 m ρ c)

theorem out0_arg26 : W2 (F := Ideal) m ρ c (Proc.devRef .tc main_arg26) = a26 :=
  (W2_of_ne m ρ c main_arg26 (by decide)).trans (in0_arg26 m ρ c)

/-! ## What the second region finds: the stretch between the regions, read at each buffer it or the last stretch uses -/

/-- The averaged gated messages are the reference's: the same scatter-sum over the receivers, the same divisor. -/
theorem in1_v95 : V3 (F := Ideal) m ρ c main_v95 = val_main_v133 (F := Ideal) a0 a1 a2 a3 a4 a5 a6 a7 a8 a9 a10 := by
  show StableHlo.after hostOps1 (W2 m ρ c) (Proc.devRef .tc main_v95) = _
  unfold hostOps1
  after_results_simp
  rw [out0_arg4, out0_mg]
  rfl

/-- The position shifts are the reference's. -/
theorem in1_v100 : V3 (F := Ideal) m ρ c main_v100 = val_main_v96 (F := Ideal) a0 a1 a2 a3 a4 a5 a6 a7 a8 a11 a12 a13 a14 a15 := by
  show StableHlo.after hostOps1 (W2 m ρ c) (Proc.devRef .tc main_v100) = _
  unfold hostOps1
  after_results_simp
  rw [out0_arg4, out0_v24, out0_pxy, px_eq]
  rfl

/-- The vector shifts are the reference's. -/
theorem in1_v105 : V3 (F := Ideal) m ρ c main_v105 = val_main_v116 (F := Ideal) a0 a1 a2 a3 a4 a5 a6 a7 a8 a16 a17 a18 a19 a20 := by
  show StableHlo.after hostOps1 (W2 m ρ c) (Proc.devRef .tc main_v105) = _
  unfold hostOps1
  after_results_simp
  rw [out0_arg4, out0_v49, out0_pxy, py_eq]
  rfl

theorem in1_v108 : V3 (F := Ideal) m ρ c main_v108
    = truncf (F := Ideal) .bf16 (extractStridedSlice S128x128 ![0, 0] (a21 : Vec Ideal S256x128 .f32) slices_S256x128_S128x128_0_0) bitsLt_bf16_f32 := by
  show StableHlo.after hostOps1 (W2 m ρ c) (Proc.devRef .tc main_v108) = _
  unfold hostOps1
  after_results_simp
  rw [out0_arg21]

theorem in1_v109 : V3 (F := Ideal) m ρ c main_v109
    = truncf (F := Ideal) .bf16 (extractStridedSlice S128x128 ![128, 0] (a21 : Vec Ideal S256x128 .f32) slices_S256x128_S128x128_128_0) bitsLt_bf16_f32 := by
  show StableHlo.after hostOps1 (W2 m ρ c) (Proc.devRef .tc main_v109) = _
  unfold hostOps1
  after_results_simp
  rw [out0_arg21]

theorem in1_v110 : V3 (F := Ideal) m ρ c main_v110 = truncf (F := Ideal) .bf16 (a23 : Vec Ideal S128x128 .f32) bitsLt_bf16_f32 := by
  show StableHlo.after hostOps1 (W2 m ρ c) (Proc.devRef .tc main_v110) = _
  unfold hostOps1
  after_results_simp
  rw [out0_arg23]

theorem in1_v111 : V3 (F := Ideal) m ρ c main_v111 = truncf (F := Ideal) .bf16 (a25 : Vec Ideal S128x128 .f32) bitsLt_bf16_f32 := by
  show StableHlo.after hostOps1 (W2 m ρ c) (Proc.devRef .tc main_v111) = _
  unfold hostOps1
  after_results_simp
  rw [out0_arg25]

theorem in1_arg0 : V3 (F := Ideal) m ρ c main_arg0 = a0 := by
  show StableHlo.after hostOps1 (W2 m ρ c) (Proc.devRef .tc main_arg0) = _
  unfold hostOps1
  after_results_simp
  rw [out0_arg0]

theorem in1_arg1 : V3 (F := Ideal) m ρ c main_arg1 = a1 := by
  show StableHlo.after hostOps1 (W2 m ρ c) (Proc.devRef .tc main_arg1) = _
  unfold hostOps1
  after_results_simp
  rw [out0_arg1]

theorem in1_arg2 : V3 (F := Ideal) m ρ c main_arg2 = a2 := by
  show StableHlo.after hostOps1 (W2 m ρ c) (Proc.devRef .tc main_arg2) = _
  unfold hostOps1
  after_results_simp
  rw [out0_arg2]

theorem in1_arg22 : V3 (F := Ideal) m ρ c main_arg22 = a22 := by
  show StableHlo.after hostOps1 (W2 m ρ c) (Proc.devRef .tc main_arg22) = _
  unfold hostOps1
  after_results_simp
  rw [out0_arg22]

theorem in1_arg24 : V3 (F := Ideal) m ρ c main_arg24 = a24 := by
  show StableHlo.after hostOps1 (W2 m ρ c) (Proc.devRef .tc main_arg24) = _
  unfold hostOps1
  after_results_simp
  rw [out0_arg24]

theorem in1_arg26 : V3 (F := Ideal) m ρ c main_arg26 = a26 := by
  show StableHlo.after hostOps1 (W2 m ρ c) (Proc.devRef .tc main_arg26) = _
  unfold hostOps1
  after_results_simp
  rw [out0_arg26]

/-! ## The second region's array is the reference's stage -/

/-- The nodes' new features, formed by the region from two partial products, are the reference's, formed from one
    stacked product of 256 columns. -/
theorem feat_eq : G9 (V3 (F := Ideal) m ρ) c = val_main_v149 (F := Ideal) a0 a1 a2 a3 a4 a5 a6 a7 a8 a9 a10 a21 a22 a23 a24 a25 a26 := by
  funext i
  obtain ⟨n, q, rfl⟩ : ∃ (n : Fin 10000) (q : Fin 128), i = ix2 n q := ⟨i 0, i 1, eq_ix2 i⟩
  refine Eq.trans ?_ (congrFun (Cert.ReferenceIdeal.RefRows.node_row a0 a1 a2 a3 a4 a5 a6 a7 a8 a9 a10 a21 a22 a23 a24 a25 a26 n) q).symm
  show nodeOut (npre2 (row (V3 m ρ c main_v95) n) (row (V3 m ρ c main_arg2) n) (mat (V3 m ρ c main_v108)) (mat (V3 m ρ c main_v109)) (vec (V3 m ρ c main_arg22)))
      (mat (V3 m ρ c main_v110)) (vec (V3 m ρ c main_arg24)) (mat (V3 m ρ c main_v111)) (vec (V3 m ρ c main_arg26)) (row (V3 m ρ c main_arg2) n) q = _
  rw [in1_v95, in1_arg2, in1_v108, in1_v109, in1_arg22, in1_v110, in1_arg24, in1_v111, in1_arg26]
  have hp := Stacking.node_pre (val_main_v133 (F := Ideal) a0 a1 a2 a3 a4 a5 a6 a7 a8 a9 a10) a2 a21 (vec a22) Cert.ReferenceIdeal.Facts₀.concatenates_S10000x128_S10000x128_S10000x256_d1
    slices_S256x128_S128x128_0_0 slices_S256x128_S128x128_128_0 n
  exact congrFun (congrArg (fun pre => nodeOut pre (mat a23) (vec a24) (mat a25) (vec a26) (row a2 n)) hp.symm) q

/-! ## The four results -/

/-- The new positions. -/
theorem res_positions : W5 (F := Ideal) m ρ c (Proc.devRef .tc main_v113) = val_main_v151 (F := Ideal) a0 a1 a2 a3 a4 a5 a6 a7 a8 a11 a12 a13 a14 a15 := by
  show StableHlo.after hostOps2 (W4 m ρ c) (Proc.devRef .tc main_v113) = _
  unfold hostOps2
  after_results_simp
  rw [W4_of_ne m ρ c main_v100 (by decide), W4_of_ne m ρ c main_arg0 (by decide)]
  rw [show W3 m ρ c (Proc.devRef .tc main_v100) = _ from in1_v100 m ρ c, show W3 m ρ c (Proc.devRef .tc main_arg0) = _ from in1_arg0 m ρ c]
  rfl

/-- The new vectors. -/
theorem res_vectors : W5 (F := Ideal) m ρ c (Proc.devRef .tc main_v114) = val_main_v150 (F := Ideal) a0 a1 a2 a3 a4 a5 a6 a7 a8 a16 a17 a18 a19 a20 := by
  show StableHlo.after hostOps2 (W4 m ρ c) (Proc.devRef .tc main_v114) = _
  unfold hostOps2
  after_results_simp
  rw [W4_of_ne m ρ c main_v105 (by decide), W4_of_ne m ρ c main_arg1 (by decide)]
  rw [show W3 m ρ c (Proc.devRef .tc main_v105) = _ from in1_v105 m ρ c, show W3 m ρ c (Proc.devRef .tc main_arg1) = _ from in1_arg1 m ρ c]
  rfl

/-- The new features. -/
theorem res_features : W5 (F := Ideal) m ρ c (Proc.devRef .tc main_v112) = val_main_v149 (F := Ideal) a0 a1 a2 a3 a4 a5 a6 a7 a8 a9 a10 a21 a22 a23 a24 a25 a26 := by
  show StableHlo.after hostOps2 (W4 m ρ c) (Proc.devRef .tc main_v112) = _
  unfold hostOps2
  after_results_simp
  exact ((W4_arr m ρ c 9).trans (node_out (V3 m ρ) c)).trans (feat_eq m ρ c)

/-- The vector shifts, returned as they are. -/
theorem res_skip : W5 (F := Ideal) m ρ c (Proc.devRef .tc main_v105) = val_main_v116 (F := Ideal) a0 a1 a2 a3 a4 a5 a6 a7 a8 a16 a17 a18 a19 a20 := by
  show StableHlo.after hostOps2 (W4 m ρ c) (Proc.devRef .tc main_v105) = _
  unfold hostOps2
  after_results_simp
  rw [W4_of_ne m ρ c main_v105 (by decide)]
  exact in1_v105 m ρ c

end Cert.KernelIdeal.KValue

end
-- ==== Proof.lean ====
/-
  The certificate's five claims, assembled behind the witnesses of the programs' stated facts.

  * The kernel program as printed, and the same text read on the extended reals, run to the end — every weakly fair
    execution terminates, nothing faulting — and leave their 27 arguments as they found them: the generated frames.
  * So does the reference program on the extended reals: its generated run states the four results first and then
    the 27 arguments; the frame keeps the arguments.
  * The idealization rewrote no operation: what it has to preserve is `True`.
  * On the extended reals, from memories that agree on the 27 arguments, the two programs end with equal results
    and unchanged arguments. The common values are the reference's four result stages, each a function of the
    argument arrays, taken at the KERNEL program's arguments. The kernel program's run ends with each result
    buffer at the contents its last host stretch leaves, and those contents are these stages (the value theorems of
    the kernel side). The reference's run ends at the same stages of ITS arguments, which are the kernel's one by
    one, by the agreement.
-/
import proofs.«421440_j51007031607343_3_alg».proof.Defs
import proofs.«421440_j51007031607343_3_alg».proof.Proof.Gen.Kernel
import proofs.«421440_j51007031607343_3_alg».proof.Proof.Gen.Kernel.Skeleton
import proofs.«421440_j51007031607343_3_alg».proof.Proof.Gen.Kernel.Launch
import proofs.«421440_j51007031607343_3_alg».proof.Proof.Gen.Kernel.Points
import proofs.«421440_j51007031607343_3_alg».proof.Proof.Gen.Kernel.Frame
import proofs.«421440_j51007031607343_3_alg».proof.Proof.Gen.KernelIdeal
import proofs.«421440_j51007031607343_3_alg».proof.Proof.Gen.KernelIdeal.Skeleton
import proofs.«421440_j51007031607343_3_alg».proof.Proof.Gen.KernelIdeal.Launch
import proofs.«421440_j51007031607343_3_alg».proof.Proof.Gen.KernelIdeal.Points
import proofs.«421440_j51007031607343_3_alg».proof.Proof.Gen.KernelIdeal.Frame
import proofs.«421440_j51007031607343_3_alg».proof.Proof.Gen.ReferenceIdeal
import proofs.«421440_j51007031607343_3_alg».proof.Proof.RefRead
import proofs.«421440_j51007031607343_3_alg».proof.Proof.Gen.Pre_finite_inputs
import proofs.«421440_j51007031607343_3_alg».proof.Proof.KernelRun
import proofs.«421440_j51007031607343_3_alg».proof.Proof.KernelValue
import Idealize.ShloMosaic.Adequacy
import Idealize.ShloMosaic.Init
import Idealize.ShloMosaic.PureOps.Ideal

noncomputable section

namespace Cert.Proof

open Idealize.ShloMosaic Idealize.SL.Sem

/-! ## The values both programs end with -/

section Common

-- the abbreviations x0 … x26 below mention the section's variables
set_option quotPrecheck false

variable (m : (ℓ : Loc Cert.KernelIdeal.nD Cert.KernelIdeal.τ Cert.KernelIdeal.sig) → Buf (Elt Ideal) ℓ) (c : Dev Cert.KernelIdeal.nD)

-- the kernel program's 27 argument arrays on device c, in the memory m
local notation "x0" => m ((c.tc : Thread Cert.KernelIdeal.nD Cert.KernelIdeal.τ).loc Cert.KernelIdeal.main_arg0)
local notation "x1" => m ((c.tc : Thread Cert.KernelIdeal.nD Cert.KernelIdeal.τ).loc Cert.KernelIdeal.main_arg1)
local notation "x2" => m ((c.tc : Thread Cert.KernelIdeal.nD Cert.KernelIdeal.τ).loc Cert.KernelIdeal.main_arg2)
local notation "x3" => m ((c.tc : Thread Cert.KernelIdeal.nD Cert.KernelIdeal.τ).loc Cert.KernelIdeal.main_arg3)
local notation "x4" => m ((c.tc : Thread Cert.KernelIdeal.nD Cert.KernelIdeal.τ).loc Cert.KernelIdeal.main_arg4)
local notation "x5" => m ((c.tc : Thread Cert.KernelIdeal.nD Cert.KernelIdeal.τ).loc Cert.KernelIdeal.main_arg5)
local notation "x6" => m ((c.tc : Thread Cert.KernelIdeal.nD Cert.KernelIdeal.τ).loc Cert.KernelIdeal.main_arg6)
local notation "x7" => m ((c.tc : Thread Cert.KernelIdeal.nD Cert.KernelIdeal.τ).loc Cert.KernelIdeal.main_arg7)
local notation "x8" => m ((c.tc : Thread Cert.KernelIdeal.nD Cert.KernelIdeal.τ).loc Cert.KernelIdeal.main_arg8)
local notation "x9" => m ((c.tc : Thread Cert.KernelIdeal.nD Cert.KernelIdeal.τ).loc Cert.KernelIdeal.main_arg9)
local notation "x10" => m ((c.tc : Thread Cert.KernelIdeal.nD Cert.KernelIdeal.τ).loc Cert.KernelIdeal.main_arg10)
local notation "x11" => m ((c.tc : Thread Cert.KernelIdeal.nD Cert.KernelIdeal.τ).loc Cert.KernelIdeal.main_arg11)
local notation "x12" => m ((c.tc : Thread Cert.KernelIdeal.nD Cert.KernelIdeal.τ).loc Cert.KernelIdeal.main_arg12)
local notation "x13" => m ((c.tc : Thread Cert.KernelIdeal.nD Cert.KernelIdeal.τ).loc Cert.KernelIdeal.main_arg13)
local notation "x14" => m ((c.tc : Thread Cert.KernelIdeal.nD Cert.KernelIdeal.τ).loc Cert.KernelIdeal.main_arg14)
local notation "x15" => m ((c.tc : Thread Cert.KernelIdeal.nD Cert.KernelIdeal.τ).loc Cert.KernelIdeal.main_arg15)
local notation "x16" => m ((c.tc : Thread Cert.KernelIdeal.nD Cert.KernelIdeal.τ).loc Cert.KernelIdeal.main_arg16)
local notation "x17" => m ((c.tc : Thread Cert.KernelIdeal.nD Cert.KernelIdeal.τ).loc Cert.KernelIdeal.main_arg17)
local notation "x18" => m ((c.tc : Thread Cert.KernelIdeal.nD Cert.KernelIdeal.τ).loc Cert.KernelIdeal.main_arg18)
local notation "x19" => m ((c.tc : Thread Cert.KernelIdeal.nD Cert.KernelIdeal.τ).loc Cert.KernelIdeal.main_arg19)
local notation "x20" => m ((c.tc : Thread Cert.KernelIdeal.nD Cert.KernelIdeal.τ).loc Cert.KernelIdeal.main_arg20)
local notation "x21" => m ((c.tc : Thread Cert.KernelIdeal.nD Cert.KernelIdeal.τ).loc Cert.KernelIdeal.main_arg21)
local notation "x22" => m ((c.tc : Thread Cert.KernelIdeal.nD Cert.KernelIdeal.τ).loc Cert.KernelIdeal.main_arg22)
local notation "x23" => m ((c.tc : Thread Cert.KernelIdeal.nD Cert.KernelIdeal.τ).loc Cert.KernelIdeal.main_arg23)
local notation "x24" => m ((c.tc : Thread Cert.KernelIdeal.nD Cert.KernelIdeal.τ).loc Cert.KernelIdeal.main_arg24)
local notation "x25" => m ((c.tc : Thread Cert.KernelIdeal.nD Cert.KernelIdeal.τ).loc Cert.KernelIdeal.main_arg25)
local notation "x26" => m ((c.tc : Thread Cert.KernelIdeal.nD Cert.KernelIdeal.τ).loc Cert.KernelIdeal.main_arg26)

/-- The first result: the reference's stage of the kernel program's arguments. -/
abbrev common0 : Buf (Elt Ideal) ((c.tc : Thread Cert.KernelIdeal.nD Cert.KernelIdeal.τ).loc Cert.KernelIdeal.main_v113) :=
  Cert.ReferenceIdeal.Read.val_main_v151 (F := Ideal) x0 x1 x2 x3 x4 x5 x6 x7 x8 x11 x12 x13 x14 x15

/-- The second result. -/
abbrev common1 : Buf (Elt Ideal) ((c.tc : Thread Cert.KernelIdeal.nD Cert.KernelIdeal.τ).loc Cert.KernelIdeal.main_v114) :=
  Cert.ReferenceIdeal.Read.val_main_v150 (F := Ideal) x0 x1 x2 x3 x4 x5 x6 x7 x8 x16 x17 x18 x19 x20

/-- The third result. -/
abbrev common2 : Buf (Elt Ideal) ((c.tc : Thread Cert.KernelIdeal.nD Cert.KernelIdeal.τ).loc Cert.KernelIdeal.main_v112) :=
  Cert.ReferenceIdeal.Read.val_main_v149 (F := Ideal) x0 x1 x2 x3 x4 x5 x6 x7 x8 x9 x10 x21 x22 x23 x24 x25 x26

/-- The fourth result. -/
abbrev common3 : Buf (Elt Ideal) ((c.tc : Thread Cert.KernelIdeal.nD Cert.KernelIdeal.τ).loc Cert.KernelIdeal.main_v105) :=
  Cert.ReferenceIdeal.Read.val_main_v116 (F := Ideal) x0 x1 x2 x3 x4 x5 x6 x7 x8 x16 x17 x18 x19 x20

end Common

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference's run states the four results and then the arguments: the frame is the arguments' part. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

/-- From memories that agree on the arguments both programs end at the reference's four result stages of the kernel
    program's arguments: the kernel side by its value theorems, the reference side by rewriting each argument of its
    own stages with the agreement. -/
theorem algebraic : Cert.algebraic_KernelIdeal_ReferenceIdeal := by
  intro m g m' g' _ hagree
  refine ⟨common0 m, common1 m, common2 m, common3 m, ?_, ?_⟩
  · -- the kernel program: each result buffer ends at the last boundary's contents, which are the stages
    exact (θ_run Cert.KernelIdeal.defs _ _).mono
      (fun r h c => ⟨(h c).1.trans (Cert.KernelIdeal.KValue.res_positions m g c),
        (h c).2.1.trans (Cert.KernelIdeal.KValue.res_vectors m g c),
        (h c).2.2.1.trans (Cert.KernelIdeal.KValue.res_features m g c),
        (h c).2.2.2.1.trans (Cert.KernelIdeal.KValue.res_skip m g c),
        (h c).2.2.2.2⟩)
      (Cert.KernelIdeal.Gen.run_results m g)
  · -- the reference: its run's terms are the stages of its own arguments, equal to the kernel's one by one
    refine (θ_run Cert.ReferenceIdeal.defs _ _).mono (fun r h c => ?_) (Cert.ReferenceIdeal.Value.run (F := Ideal) m' g')
    obtain ⟨h0, h1, h2, h3, h4, h5, h6, h7, h8, h9, h10, h11, h12, h13, h14, h15, h16, h17, h18, h19, h20, h21, h22, h23, h24, h25, h26⟩ := hagree c
    refine ⟨(h c).1.trans ?_, (h c).2.1.trans ?_, (h c).2.2.1.trans ?_, (h c).2.2.2.1.trans ?_, (h c).2.2.2.2⟩
    · rw [Cert.ReferenceIdeal.Read.val_main_v151_eq, h0, h1, h2, h3, h4, h5, h6, h7, h8, h11, h12, h13, h14, h15] <;> rfl
    · rw [Cert.ReferenceIdeal.Read.val_main_v150_eq, h0, h1, h2, h3, h4, h5, h6, h7, h8, h16, h17, h18, h19, h20] <;> rfl
    · rw [Cert.ReferenceIdeal.Read.val_main_v149_eq, h0, h1, h2, h3, h4, h5, h6, h7, h8, h9, h10, h21, h22, h23, h24, h25, h26] <;> rfl
    · rw [Cert.ReferenceIdeal.Read.val_main_v116_eq, h0, h1, h2, h3, h4, h5, h6, h7, h8, h16, h17, h18, h19, h20] <;> rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
